-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32768 : Shape := ⟨2, ![128, 32768]⟩
abbrev S32768 : Shape := ⟨1, ![32768]⟩
abbrev S16x128x32768 : Shape := ⟨3, ![16, 128, 32768]⟩
abbrev S8 : Shape := ⟨1, ![8]⟩
abbrev S4 : Shape := ⟨1, ![4]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel
  bcast_S_S32768 : S_.BroadcastsInDim S32768 (![] : Fin 0 → Fin S32768.rank)
  reducesTo_S32768_S_d0 : S32768.ReducesTo [0] S_
  bcast_S_S16x128x32768 : S_.BroadcastsInDim S16x128x32768 (![] : Fin 0 → Fin S16x128x32768.rank)
  reducesTo_S16x128x32768_S_d0_1_2 : S16x128x32768.ReducesTo [0, 1, 2] S_
  bcast_S_S8 : S_.BroadcastsInDim S8 (![] : Fin 0 → Fin S8.rank)
  reducesTo_S8_S_d0 : S8.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S16x128x32768 .f32) (main_arg5 : IVec S8 32) (main_arg6 : IVec S4 32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S16x128x32768 .f32 := Host.absf main_arg4
  let main_cst_6 : FVec F S_ .f32 := constant S_ .f32 0x7F800000#32
  let main_v20 : FVec F S16x128x32768 .f32 := broadcastInDim S16x128x32768 ![] bcast_S_S16x128x32768 main_cst_6
  let main_v21 : IVec S16x128x32768 1 := cmpf .olt main_v19 main_v20
  let main_c_7 : IVec S_ 1 := constantI S_ 1 1#1
  let main_v22 : IVec S_ 1 := (fun x v => Host.reduce IntOp.andi x v reducesTo_S16x128x32768_S_d0_1_2 h_S_) main_v21 main_c_7
  let main_v23 : IVec S_ 1 := andi main_v18 main_v22
  let main_c_8 : IVec S_ 32 := constantI S_ 32 0#32
  let main_v24 : IVec S8 32 := broadcastInDim S8 ![] bcast_S_S8 main_c_8
  let main_v25 : IVec S8 1 := cmpi .sge main_arg5 main_v24
  let main_c_9 : IVec S_ 1 := constantI S_ 1 1#1
  let main_v26 : IVec S_ 1 := (fun x v => Host.reduce IntOp.andi x v reducesTo_S8_S_d0 h_S_) main_v25 main_c_9
  let main_v27 : IVec S_ 1 := andi main_v23 main_v26
  let main_c_10 : IVec S_ 32 := constantI S_ 32 0#32
  let main_v28 : IVec S4 32 := broadcastInDim S4 ![] bcast_S_S4 main_c_10
  let main_v29 : IVec S4 1 := cmpi .sge main_arg6 main_v28
  let main_c_11 : IVec S_ 1 := constantI S_ 1 1#1
  let main_v30 : IVec S_ 1 := (fun x v => Host.reduce IntOp.andi x v reducesTo_S4_S_d0 h_S_) main_v29 main_c_11
  let main_v31 : IVec S_ 1 := andi main_v27 main_v30
  main_v31

def fn {F : FTy → Type} [FloatOps F] (main_arg0 : FVec F S128x32768 .f32) (main_arg1 : FVec F S128x32768 .f32) (main_arg2 : FVec F S32768 .f32) (main_arg3 : FVec F S32768 .f32) (main_arg4 : FVec F S16x128x32768 .f32) (main_arg5 : IVec S8 32) (main_arg6 : IVec S4 32) : IVec S_ 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_c : IVec S_ 1 := constantI S_ 1 1#1
  let main_v3 : IVec S_ 1 := (fun x v => Host.reduce IntOp.andi x v reducesTo_S128x32768_S_d0_1 h_S_) main_v2 main_c
  let main_v4 : FVec F S128x32768 .f32 := Host.absf main_arg1
  let main_cst_0 : FVec F S_ .f32 := constant S_ .f32 0x7F800000#32
  let main_v5 : FVec F S128x32768 .f32 := broadcastInDim S128x32768 ![] bcast_S_S128x32768 main_cst_0
  let main_v6 : IVec S128x32768 1 := cmpf .olt main_v4 main_v5
  let main_c_1 : IVec S_ 1 := constantI S_ 1 1#1
  let main_v7 : IVec S_ 1 := (fun x v => Host.reduce IntOp.andi x v reducesTo_S128x32768_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_v13 main_v16
-- ==== Kernel.lean ====
abbrev S128x32768 : Shape := ⟨2, ![128, 32768]⟩
abbrev S32768 : Shape := ⟨1, ![32768]⟩
abbrev S16x128x32768 : Shape := ⟨3, ![16, 128, 32768]⟩
abbrev S8 : Shape := ⟨1, ![8]⟩
abbrev S4 : Shape := ⟨1, ![4]⟩
abbrev S12 : Shape := ⟨1, ![12]⟩
abbrev S_ : Shape := ⟨0, ![]⟩
abbrev S1x32768 : Shape := ⟨2, ![1, 32768]⟩
abbrev S1 : Shape := ⟨1, ![1]⟩
abbrev S14 : Shape := ⟨1, ![14]⟩
abbrev S14x128x32768 : Shape := ⟨3, ![14, 128, 32768]⟩
abbrev S128x4096 : Shape := ⟨2, ![128, 4096]⟩
abbrev S1x4096 : Shape := ⟨2, ![1, 4096]⟩
abbrev S1x128x4096 : Shape := ⟨3, ![1, 128, 4096]⟩

abbrev nBuf : Space → Nat
  | .hbm => 22
  | .vmem => 13
  | .smem => 1
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S32768, .f32⟩
  | .hbm, ⟨3, _⟩ => ⟨S32768, .f32⟩
  | .hbm, ⟨4, _⟩ => ⟨S16x128x32768, .f32⟩
  | .hbm, ⟨5, _⟩ => ⟨S8, .i32⟩
  | .hbm, ⟨6, _⟩ => ⟨S4, .i32⟩
  | .hbm, ⟨7, _⟩ => ⟨S12, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S12, .i32⟩
  | .hbm, ⟨12, _⟩ => ⟨S12, .i32⟩
  | .hbm, ⟨13, _⟩ => ⟨S_, .i32⟩
  | .hbm, ⟨14, _⟩ => ⟨S12, .i32⟩
  | .hbm, ⟨15, _⟩ => ⟨S12, .i32⟩
  | .hbm, ⟨16, _⟩ => ⟨S1x32768, .f32⟩
  | .hbm, ⟨17, _⟩ => ⟨S1x32768, .f32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S14x128x32768, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x128x4096, .f32⟩
  | .local _ .vmem, ⟨9, _⟩ => ⟨S1x128x4096, .f32⟩
  | .local _ .vmem, ⟨10, _⟩ => ⟨S1x128x4096, .f32⟩
  | .local _ .vmem, ⟨11, _⟩ => ⟨S1x128x4096, .f32⟩
  | .local _ .vmem, ⟨12, _⟩ => ⟨S128x4096, .f32⟩
  | .local _ .smem, ⟨0, _⟩ => ⟨S14, .i32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v7 : Ref sig .tc := ⟨.hbm, 21, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 14], ![false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) : BitVec 1 :=
  let arg1 : BitVec 32 := BitVec.ofNat 32 (i 1).val
  let c1_i32 : BitVec 32 := 1#32
  let v3 : BitVec 1 := Scalar.cmpi .sge arg1 c1_i32
  let c12_i32 : BitVec 32 := 12#32
  let v4 : BitVec 1 := Scalar.cmpi .sle arg1 c12_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off2 (i : grid0.Coords) : Fin 1 → Nat :=
  let arg1 : BitVec 32 := BitVec.ofNat 32 (i 1).val
  let v11 : Index := Scalar.indexCast arg1
  ![v11.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c13_i32 : BitVec 32 := 13#32
  let v8 : BitVec 1 := Scalar.cmpi .eq arg1 c13_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S14) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S8_S4_S12_d0 : Shape.Concatenates [S8, S4] S12 0
  bcast_S_S12 : S_.BroadcastsInDim S12 (![] : Fin 0 → Fin S12.rank)
  shapeCasts_S32768_S1x32768 : S32768.ShapeCasts S1x32768
  bcast_S_S1 : S_.BroadcastsInDim S1 (![] : Fin 0 → Fin S1.rank)
  slices_S12_S1_11 : S12.Slices ![11] S1
  concatenates_S1_S12_S1_S14_d0 : Shape.Concatenates [S1, S12, S1] S14 0
  numel1_S1 : S1.numel = 1
  inb_S128x4096_S128x4096_0_0 : ∀ a, (![0, 0] : Fin 2 → Nat) a + S128x4096.size a ≤ S128x4096.size a
  h_S128x4096 : 0 < S128x4096.numel
  natLt_1_32 : 1 < 32
  shapeCasts_S128x4096_S128x4096 : S128x4096.ShapeCasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  hrank0 : 0 < grid0.rank
  k0_off1_inb : ∀ i : grid0.Coords, ∀ a, (k0_off1 i) a + S1.size a ≤ S14.size a
  k0_off2_inb : ∀ i : grid0.Coords, ∀ (k0_h2 : k0_cond2 i = 1#1), ∀ a, (k0_off2 i) a + S1.size a ≤ S14.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x32768.size a
  hwx0_0 : ∀ i : grid0.Coords, EltTy.bits .f32 = 32 ∨ (Rect.block (s := S128x32768) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x32768.size a
  hwx0_1 : ∀ i : grid0.Coords, EltTy.bits .f32 = 32 ∨ (Rect.block (s := S128x32768) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x32768.size a
  hwx0_2 : ∀ i : grid0.Coords, EltTy.bits .f32 = 32 ∨ (Rect.block (s := S1x32768) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x32768.size a
  hwx0_3 : ∀ i : grid0.Coords, EltTy.bits .f32 = 32 ∨ (Rect.block (s := S1x32768) S1x4096.size (cc0_transform_3 i) (hinb0_3 i)).WholeWords (EltTy.packing .f32)
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x4096.size a ≤ S14x128x32768.size a
  hwx0_5 : ∀ i : grid0.Coords, EltTy.bits .f32 = 32 ∨ (Rect.block (s := S14x128x32768) S1x128x4096.size (cc0_transform_5 i) (hinb0_5 i)).WholeWords (EltTy.packing .f32)

variable [Facts₀]

abbrev spec0_0 : Pipeline.WinSpec sig grid0.rank :=
  Pipeline.WinSpec.ofSpec (Memref.whole main_arg0) S128x4096.size reads0_0 false false 2 stage0_0 sem0_0 nbuf0_0 hstage0_0

abbrev spec0_1 : Pipeline.WinSpec sig grid0.rank :=
  Pipeline.WinSpec.ofSpec (Memref.whole main_arg1) S128x4096.size reads0_1 false false 2 stage0_1 sem0_1 nbuf0_1 hstage0_1

abbrev spec0_2 : Pipeline.WinSpec sig grid0.rank :=
  Pipeline.WinSpec.ofSpec (Memref.whole main_v2) S1x4096.size reads0_2 false false 2 stage0_2 sem0_2 nbuf0_2 hstage0_2

abbrev spec0_3 : Pipeline.WinSpec sig grid0.rank :=
  Pipeline.WinSpec.ofSpec (Memref.whole main_v3) S1x4096.size reads0_3 false false 2 stage0_3 sem0_3 nbuf0_3 hstage0_3

abbrev spec0_4 : Pipeline.WinSpec sig grid0.rank :=
  Pipeline.WinSpec.ofSpec (Memref.whole main_arg4) S1x128x4096.size reads0_4 false false 2 stage0_4 sem0_4 nbuf0_4 hstage0_4

abbrev spec0_5 : Pipeline.WinSpec sig grid0.rank :=
  Pipeline.WinSpec.ofSpec (Memref.whole main_v7) S1x128x4096.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_4 k0_off1_inb numel1_S1 pf i a + 1) * S1x128x4096.size a ≤ S16x128x32768.size a), EltTy.bits .f32 = 32 ∨ (Rect.block (s := S16x128x32768) S1x128x4096.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => fun i a => (hok i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => fun i => (hok i).elim fun _ h => h | 5 => hwx0_5 | ⟨_ + 6, h⟩ => absurd h (Nat.not_lt.2 (Nat.le_add_left _ _))
abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S128x32768 : Shape := ⟨2, ![128, 32768]⟩
abbrev S32768 : Shape := ⟨1, ![32768]⟩
abbrev S16x128x32768 : Shape := ⟨3, ![16, 128, 32768]⟩
abbrev S8 : Shape := ⟨1, ![8]⟩
abbrev S4 : Shape := ⟨1, ![4]⟩
abbrev S_ : Shape := ⟨0, ![]⟩
abbrev S1x32768 : Shape := ⟨2, ![1, 32768]⟩
abbrev S1x128x32768 : Shape := ⟨3, ![1, 128, 32768]⟩
abbrev S15x128x32768 : Shape := ⟨3, ![15, 128, 32768]⟩
abbrev S8x1 : Shape := ⟨2, ![8, 1]⟩
abbrev S8x128x32768 : Shape := ⟨3, ![8, 128, 32768]⟩
abbrev S4x1 : Shape := ⟨2, ![4, 1]⟩
abbrev S4x128x32768 : Shape := ⟨3, ![4, 128, 32768]⟩
abbrev S14x128x32768 : Shape := ⟨3, ![14, 128, 32768]⟩

abbrev nBuf : Space → Nat
  | .hbm => 46
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S32768, .f32⟩
  | .hbm, ⟨3, _⟩ => ⟨S32768, .f32⟩
  | .hbm, ⟨4, _⟩ => ⟨S16x128x32768, .f32⟩
  | .hbm, ⟨5, _⟩ => ⟨S8, .i32⟩
  | .hbm, ⟨6, _⟩ => ⟨S4, .i32⟩
  | .hbm, ⟨7, _⟩ => ⟨S_, .f32⟩
  | .hbm, ⟨8, _⟩ => ⟨S128x32768, .f32⟩
  | .hbm, ⟨9, _⟩ => ⟨S128x32768, .f32⟩
  | .hbm, ⟨10, _⟩ => ⟨S128x32768, .f32⟩
  | .hbm, ⟨11, _⟩ => ⟨S_, .f32⟩
  | .hbm, ⟨12, _⟩ => ⟨S128x32768, .f32⟩
  | .hbm, ⟨13, _⟩ => ⟨S128x32768, .i1⟩
  | .hbm, ⟨14, _⟩ => ⟨S128x32768, .f32⟩
  | .hbm, ⟨15, _⟩ => ⟨S1x32768, .f32⟩
  | .hbm, ⟨16, _⟩ => ⟨S128x32768, .f32⟩
  | .hbm, ⟨17, _⟩ => ⟨S128x32768, .f32⟩
  | .hbm, ⟨18, _⟩ => ⟨S1x32768, .f32⟩
  | .hbm, ⟨19, _⟩ => ⟨S128x32768, .f32⟩
  | .hbm, ⟨20, _⟩ => ⟨S128x32768, .f32⟩
  | .hbm, ⟨21, _⟩ => ⟨S128x32768, .f32⟩
  | .hbm, ⟨22, _⟩ => ⟨S1x128x32768, .f32⟩
  | .hbm, ⟨23, _⟩ => ⟨S15x128x32768, .f32⟩
  | .hbm, ⟨24, _⟩ => ⟨S16x128x32768, .f32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S8x1, .i32⟩
  | .hbm, ⟨33, _⟩ => ⟨S8x128x32768, .f32⟩
  | .hbm, ⟨34, _⟩ => ⟨S_, .i32⟩
  | .hbm, ⟨35, _⟩ => ⟨S4, .i32⟩
  | .hbm, ⟨36, _⟩ => ⟨S4, .i1⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .i32⟩
  | .hbm, ⟨41, _⟩ => ⟨S4x1, .i32⟩
  | .hbm, ⟨42, _⟩ => ⟨S4x128x32768, .f32⟩
  | .hbm, ⟨43, _⟩ => ⟨S1x128x32768, .f32⟩
  | .hbm, ⟨44, _⟩ => ⟨S1x128x32768, .f32⟩
  | .hbm, ⟨45, _⟩ => ⟨S14x128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S128x32768 : S_.BroadcastsInDim S128x32768 (![] : Fin 0 → Fin S128x32768.rank)
  bcast_S32768_S1x32768_1 : S32768.BroadcastsInDim S1x32768 (![1] : Fin 1 → Fin S1x32768.rank)
  bcast_S1x32768_S128x32768_0_1 : S1x32768.BroadcastsInDim S128x32768 (![0, 1] : Fin 2 → Fin S128x32768.rank)
  bcast_S128x32768_S1x128x32768_1_2 : S128x32768.BroadcastsInDim S1x128x32768 (![1, 2] : Fin 2 → Fin S1x128x32768.rank)
  slices_S16x128x32768_S15x128x32768_0_0_0 : S16x128x32768.Slices ![0, 0, 0] S15x128x32768
  concatenates_S1x128x32768_S15x128x32768_S16x128x32768_d0 : Shape.Concatenates [S1x128x32768, S15x128x32768] S16x128x32768 0
  bcast_S_S8 : S_.BroadcastsInDim S8 (![] : Fin 0 → Fin S8.rank)
  bcast_S8_S8x1_0 : S8.BroadcastsInDim S8x1 (![0] : Fin 1 → Fin S8x1.rank)
  bcast_S_S4 : S_.BroadcastsInDim S4 (![] : Fin 0 → Fin S4.rank)
  bcast_S4_S4x1_0 : S4.BroadcastsInDim S4x1 (![0] : Fin 1 → Fin S4x1.rank)
  concatenates_S1x128x32768_S8x128x32768_S4x128x32768_S1x128x32768_S14x128x32768_d0 : Shape.Concatenates [S1x128x32768, S8x128x32768, S4x128x32768, S1x128x32768] S14x128x32768 0
  gather_S16x128x32768_S8x1_S8x128x32768_12_0_n_n_0_1_112832768_wf : GatherDims.WF S16x128x32768 S8x1 S8x128x32768 [1, 2] [0] [] [0] [] 1 ![1, 128, 32768]
  gather_S16x128x32768_S4x1_S4x128x32768_12_0_n_n_0_1_112832768_wf : GatherDims.WF S16x128x32768 S4x1 S4x128x32768 [1, 2] [0] [] [0] [] 1 ![1, 128, 32768]

variable [Facts₀]

def gather_S16x128x32768_S8x1_S8x128x32768_12_0_n_n_0_1_112832768 : GatherDims S16x128x32768 S8x1 S8x128x32768 where
  offsetDims := [1, 2]
  collapsedSliceDims := [0]
  operandBatchingDims := []
  startIndicesBatchingDims := []
  startIndexMap := [0]
  indexVectorDim := 1
  sliceSizes := ![1, 128, 32768]
  wf := gather_S16x128x32768_S8x1_S8x128x32768_12_0_n_n_0_1_112832768_wf
def gather_S16x128x32768_S4x1_S4x128x32768_12_0_n_n_0_1_112832768 : GatherDims S16x128x32768 S4x1 S4x128x32768 where
  offsetDims := [1, 2]
  collapsedSliceDims := [0]
  operandBatchingDims := []
  startIndicesBatchingDims := []
  startIndexMap := [0]
  indexVectorDim := 1
  sliceSizes := ![1, 128, 32768]
  wf := gather_S16x128x32768_S4x1_S4x128x32768_12_0_n_n_0_1_112832768_wf

class Facts : Prop extends Facts₀ where

variable [Facts]
-- ==== Proof.FrameKitBits.lean ====
/-
  The launch side of the kernel's run, stated once for every float instance.

  Before the launch the host computes the table of page numbers the kernel's buffer window is indexed
  by: the two delay vectors are joined, every entry is clamped into [0, 15], and the result is framed
  by a leading 0 and a copy of its last entry, fourteen words in all, one per slot of the inner grid
  axis. Here: the buffers' contents when the launch is entered (the three stretches of host
  operations folded over the launch memory), the table read off them, the side condition the launch
  asks of the table (every page's block inside the sixteen-page array), the blocks of the windows at a
  grid point, the three branch conditions of the body in closed form over the 8 x 14 grid (slot 0,
  slots 1..12, slot 13), and the frame claim read off a run that ends in the launch's postcondition.
-/
import proofs.«427882_j47579647705427_3_alg».proof.Proof.Gen.Kernel.Launch
import proofs.«427882_j47579647705427_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch is entered: the three stretches of host operations, in order, over the
    launch memory. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the launch: three straight lines of host operations, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- None of the host operations before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The table of page numbers -/

/-- The table's fourteen words when the launch is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- What the launch asks of the table: at every grid point the buffer window's page lies inside the
    sixteen-page array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it: its whole buffer as a memref. -/
abbrev tbM0_0 : Memref sig .tc .smem S14 .i32 := Memref.whole main_v6
abbrev htbM0_0 : tbM0_0.IsWhole := Memref.isWhole_whole _
abbrev TbBuf0 (c : Dev nD) {S : Shape} {e : EltTy} (M : Memref sig .tc .smem S e) : Type := Buf (Elt F) (M.view.loc (c : Thread nD τ))
/-- The table held read-only: half of the full share, the launch keeping the other half. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the launch finds it; for the buffer window a function
    of the table's word at the point's slot. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof
    data whose array is the launch-time contents and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the launch-time contents and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the launch-time contents and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the launch-time contents and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the launch-time contents and whose body leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three branches over the grid -/

/-- Slot 0 of a tile: the spike is computed, kept in the scratch, and written out. -/
abbrev cond0_0 (i : grid0.Coords) : Prop := k0_cond1 i = 1#1
/-- Slots 1 to 12: one delayed page is selected. -/
abbrev cond0_1 (i : grid0.Coords) : Prop := k0_cond2 i = 1#1
/-- Slot 13: the new threshold. -/
abbrev cond0_2 (i : grid0.Coords) : Prop := k0_cond3 i = 1#1

theorem hcond0_0 (a : (pcfg0 (F := F)).Adm) : ∀ t : Fin (cfg0 a).N, cond0_0 (grid0.coords t) ↔ t.val % 14 = 0 :=
  (by decide +kernel : ∀ t : Fin grid0.N, cond0_0 (grid0.coords t) ↔ t.val % 14 = 0)
theorem hcond0_1 (a : (pcfg0 (F := F)).Adm) : ∀ t : Fin (cfg0 a).N, cond0_1 (grid0.coords t) ↔ (1 ≤ t.val % 14 ∧ t.val % 14 ≤ 12) :=
  (by decide +kernel : ∀ t : Fin grid0.N, cond0_1 (grid0.coords t) ↔ (1 ≤ t.val % 14 ∧ t.val % 14 ≤ 12))
theorem hcond0_2 (a : (pcfg0 (F := F)).Adm) : ∀ t : Fin (cfg0 a).N, cond0_2 (grid0.coords t) ↔ t.val % 14 = 13 :=
  (by decide +kernel : ∀ t : Fin grid0.N, cond0_2 (grid0.coords t) ↔ t.val % 14 = 13)

/-- No window is idle anywhere: every slot is in one of the three branches, and each stores the whole output block. -/
theorem liveAt0 (a : (pcfg0 (F := F)).Adm) : ∀ (w : Fin (cfg0 a).W) (t : Fin (cfg0 a).N), (cfg0 a).idle w (grid0.coords t) = false :=
  (by decide +kernel : ∀ (w : Fin 6) (t : Fin grid0.N), idle0 w (grid0.coords t) = false)
/-- The output block is written back at every point. -/
theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)

/-! ## The body's memrefs at a point -/

/-- One staging buffer of the output window, through which its contents are stated. -/
abbrev VO0_5 : View sig .tc .vmem S1x128x4096 .f32 := (Memref.whole cc0_stg5_0 : Memref sig .tc .vmem S1x128x4096 .f32).view
abbrev ms0_0 (hO : Ok m) (t : Fin (cfgM m hO).N) : Memref sig .tc .vmem S128x4096 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x4096 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4096 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x4096 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x4096 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch that carries the tile's spike from slot 0 to the later slots. -/
abbrev scM0_0 : Memref sig .tc .vmem S128x4096 .f32 := Memref.whole cc0_scratch0
abbrev VS0_0 : View sig .tc .vmem S128x4096 .f32 := scM0_0.view

/-- The kernel body at point `t`, on what the launch calls it with. -/
abbrev bodyAt0 (a : (pcfg0 (F := F)).Adm) (t : Fin (cfg0 a).N) : Prog (TpuEff nD τ sig (Elt F) Λ₀ .tc) PUnit :=
  cc0__alif_kernel (grid0.coords t) (Memref.whole main_v6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

/-- The launch's own invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame claim from a run to the launch's postcondition -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 4).trans (((dats 0 c).arrAt_in 4 rfl _).trans ((hA c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

end Cert.Kernel.Frm

end
-- ==== Proof.FrameRunABits.lean ====
/-
  The body at slot 0 of a tile. It loads the membrane block x0 and the threshold block x1, computes the spike
  1[(x0 - x1) - 1 ≥ 0], stores it whole into the scratch and, recast to one page, whole into the output block.
  Stated for any staging memrefs: the two input blocks are handed back as found, the output block and the scratch
  end with the pieces the two stores wrote (the witness the symbolic run finds).
-/
import proofs.«427882_j47579647705427_3_alg».proof.Proof.FrameKitBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole) (hc0 : cond0_0 i) (hc1 : ¬cond0_1 i) (hc2 : ¬cond0_2 i)
    (x0 : Vec F S128x4096 .f32) (x1 : Vec F S128x4096 .f32) :
    Σ' (L5 : List (View.Piece (Elt F) S1x128x4096 .f32)), { LS0 : List (View.Piece (Elt F) S128x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__alif_kernel i tbM0_0 htbM0_0 arg3 harg3 arg4 harg4 arg5 harg5 arg6 harg6 arg7 harg7 arg8 harg8 arg9 harg9) K } := by
  refine ⟨?_, ?_, fun E K => ?run⟩
  case run =>
    simp only [cc0__alif_kernel_eq_skeleton]; unfold cc0__alif_kernel_skel
    unfold owns
    iintro ⟨⟨%f0, %hf0, H0⟩, ⟨%f1, %hf1, H1⟩, ⟨%d8, %f8, -, H8⟩, ⟨%d9, %f9, -, H9⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H8]; · iexists _; iexact H8
    iexists _; iexact H9

end Cert.Kernel.Frm

end
-- ==== Proof.FrameRunBBits.lean ====
/-
  The body at slots 1 to 12 of a tile. It reads the slot's word w of the table, loads the buffer page block x4 and
  the scratch xs0 (the tile's spike), and stores into the output block the scratch where w = 0 and the page
  otherwise. The page block, the scratch and the table are handed back as found.
-/
import proofs.«427882_j47579647705427_3_alg».proof.Proof.FrameRunABits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole) (hc0 : ¬cond0_0 i) (hc1 : cond0_1 i) (hc2 : ¬cond0_2 i)
    (x4 : Vec F S1x128x4096 .f32) (xs0 : Vec F S128x4096 .f32) (xt0 : TbBuf0 (F := F) c tbM0_0) :
    { L5 : List (View.Piece (Elt F) S1x128x4096 .f32) //
      ∀ (E : Set ℕ) (K : PUnit → sProp 𝕄),
        iprop(owns (c : Thread nD τ) arg7 fullShare x4 ∗ (∃ d, owns (c : Thread nD τ) arg8 fullShare d) ∗ owns (c : Thread nD τ) arg9 fullShare xs0 ∗ tbPt0 c tbM0_0 xt0
            ∗ (iprop(owns (c : Thread nD τ) arg7 fullShare x4 ∗ (∃ f, arg8.view.loc (c : Thread nD τ) ↦[arg8.view.set]{fullShare} arg8.view.writes (Elt F) f L5) ∗ owns (c : Thread nD τ) arg9 fullShare xs0 ∗ tbPt0 c tbM0_0 xt0) -∗ K ⟨⟩))
          ⊢ wp frame (wpE (defs₀ (F := F)) Variants.none c none) E (cc0__alif_kernel i tbM0_0 htbM0_0 arg3 harg3 arg4 harg4 arg5 harg5 arg6 harg6 arg7 harg7 arg8 harg8 arg9 harg9) K } := by
  refine ⟨?_, fun E K => ?run⟩
  case run =>
    simp only [cc0__alif_kernel_eq_skeleton]; unfold cc0__alif_kernel_skel
    unfold owns
    iintro ⟨⟨%f4, %hf4, H4⟩, ⟨%d8, %f8, -, H8⟩, ⟨%fs, %hfs, HS⟩, HT, Hk⟩
    obtain rfl := harg7.eq_unread hf4; obtain rfl := harg9.eq_unread hfs
    sl_exec (disch := first | exact hc0 | exact hc1 | exact hc2)
    sl_step
    iapply Hk
    isplitl [H4]
    · iexists _; isplitr; · ipureintro; exact harg7.read_unread _
      iexact H4
    isplitl [H8]; · iexists _; iexact H8
    isplitl [HS]
    · iexists _; isplitr; · ipureintro; exact harg9.read_unread _
      iexact HS
    iexact HT

end Cert.Kernel.Frm

end
-- ==== Proof.FrameRunCBits.lean ====
/-
  The body at slot 13 of a tile. It loads the threshold block x1, the decay row x2, the amplitude row x3 and the
  scratch xs0 (the tile's spike), and stores x1 * x2 + xs0 * x3 (the rows broadcast down the 128 rows) into the
  output block. The four inputs are handed back as found.
-/
import proofs.«427882_j47579647705427_3_alg».proof.Proof.FrameRunBBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole) (hc0 : ¬cond0_0 i) (hc1 : ¬cond0_1 i) (hc2 : cond0_2 i)
    (x1 : Vec F S128x4096 .f32) (x2 : Vec F S1x4096 .f32) (x3 : Vec F S1x4096 .f32) (xs0 : Vec F S128x4096 .f32) :
    { L5 : List (View.Piece (Elt F) S1x128x4096 .f32) //
      ∀ (E : Set ℕ) (K : PUnit → sProp 𝕄),
        iprop(owns (c : Thread nD τ) arg4 fullShare x1 ∗ owns (c : Thread nD τ) arg5 fullShare x2 ∗ owns (c : Thread nD τ) arg6 fullShare x3 ∗ (∃ d, owns (c : Thread nD τ) arg8 fullShare d) ∗ owns (c : Thread nD τ) arg9 fullShare xs0
            ∗ (iprop(owns (c : Thread nD τ) arg4 fullShare x1 ∗ owns (c : Thread nD τ) arg5 fullShare x2 ∗ owns (c : Thread nD τ) arg6 fullShare x3 ∗ (∃ f, arg8.view.loc (c : Thread nD τ) ↦[arg8.view.set]{fullShare} arg8.view.writes (Elt F) f L5) ∗ owns (c : Thread nD τ) arg9 fullShare xs0) -∗ K ⟨⟩))
          ⊢ wp frame (wpE (defs₀ (F := F)) Variants.none c none) E (cc0__alif_kernel i tbM0_0 htbM0_0 arg3 harg3 arg4 harg4 arg5 harg5 arg6 harg6 arg7 harg7 arg8 harg8 arg9 harg9) K } := by
  refine ⟨?_, fun E K => ?run⟩
  case run =>
    simp only [cc0__alif_kernel_eq_skeleton]; unfold cc0__alif_kernel_skel
    unfold owns
    iintro ⟨⟨%f1, %hf1, H1⟩, ⟨%f2, %hf2, H2⟩, ⟨%f3, %hf3, H3⟩, ⟨%d8, %f8, -, H8⟩, ⟨%fs, %hfs, HS⟩, Hk⟩
    obtain rfl := harg4.eq_unread hf1; obtain rfl := harg5.eq_unread hf2; obtain rfl := harg6.eq_unread hf3; obtain rfl := harg9.eq_unread hfs
    sl_exec (disch := first | exact hc0 | exact hc1 | exact hc2)
    sl_step
    iapply Hk
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H8]; · iexists _; iexact H8
    iexists _; isplitr; · ipureintro; exact harg9.read_unread _
    iexact HS

end Cert.Kernel.Frm

end
-- ==== Proof.FrameDataBits.lean ====
/-
  What the kernel leaves, point by point, and the run of the whole launch.

  The grid is 8 tiles of the 32768 columns by 14 slots, the slot the fast axis: point t is tile t / 14, slot t % 14.
  At slot 0 the body computes the tile's spike, keeps it in the scratch and writes it as output page 0; at slots
  1 to 12 it writes either the kept spike or one page of the buffer, as the slot's table word says; at slot 13 it
  writes the decayed threshold. So the scratch after point t is what slot 0 of t's tile left, and the output block
  of point t is written back at once (every point writes its own page). The invariant between points holds the
  scratch at exactly those contents, next to the read-only half of the table.
-/
import proofs.«427882_j47579647705427_3_alg».proof.Proof.FrameRunCBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch's stores leave -/

section Pieces
variable (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole)

theorem cover0_A_5 (hc0 : cond0_0 i) (hc1 : ¬cond0_1 i) (hc2 : ¬cond0_2 i) (x0 x1 : Vec F S128x4096 .f32) (y : S1x128x4096.Idx) :
    ∃ pc ∈ (kernelRun0_A c i arg3 harg3 arg4 harg4 arg5 harg5 arg6 harg6 arg7 harg7 arg8 harg8 arg9 harg9 hc0 hc1 hc2 x0 x1).1, y ∈ pc.1.set :=
  View.cover_of_tiledL (kernelRun0_A c i arg3 harg3 arg4 harg4 arg5 harg5 arg6 harg6 arg7 harg7 arg8 harg8 arg9 harg9 hc0 hc1 hc2 x0 x1).1 S1x128x4096.size (by sl_kernel_rfl) y

/-- The output block after slot 0: the one store's piece read back. -/
def out0_A_5 (hc0 : cond0_0 i) (hc1 : ¬cond0_1 i) (hc2 : ¬cond0_2 i) (x0 x1 : Vec F S128x4096 .f32) : Vec F S1x128x4096 .f32 :=
  VO0_5.read (Elt F) (VO0_5.writes (Elt F) VO0_5.junk (kernelRun0_A c i arg3 harg3 arg4 harg4 arg5 harg5 arg6 harg6 arg7 harg7 arg8 harg8 arg9 harg9 hc0 hc1 hc2 x0 x1).1)

theorem scover0_A_0 (hc0 : cond0_0 i) (hc1 : ¬cond0_1 i) (hc2 : ¬cond0_2 i) (x0 x1 : Vec F S128x4096 .f32) (y : S128x4096.Idx) :
    ∃ pc ∈ (kernelRun0_A c i arg3 harg3 arg4 harg4 arg5 harg5 arg6 harg6 arg7 harg7 arg8 harg8 arg9 harg9 hc0 hc1 hc2 x0 x1).2.1, y ∈ pc.1.set :=
  View.cover_of_tiledL (kernelRun0_A c i arg3 harg3 arg4 harg4 arg5 harg5 arg6 harg6 arg7 harg7 arg8 harg8 arg9 harg9 hc0 hc1 hc2 x0 x1).2.1 S128x4096.size (by sl_kernel_rfl) y

/-- The scratch after slot 0: the tile's spike, as the store's piece read back. -/
def sout0_A_0 (hc0 : cond0_0 i) (hc1 : ¬cond0_1 i) (hc2 : ¬cond0_2 i) (x0 x1 : Vec F S128x4096 .f32) : Vec F S128x4096 .f32 :=
  VS0_0.read (Elt F) (VS0_0.writes (Elt F) VS0_0.junk (kernelRun0_A c i arg3 harg3 arg4 harg4 arg5 harg5 arg6 harg6 arg7 harg7 arg8 harg8 arg9 harg9 hc0 hc1 hc2 x0 x1).2.1)

theorem cover0_B_5 (hc0 : ¬cond0_0 i) (hc1 : cond0_1 i) (hc2 : ¬cond0_2 i) (x4 : Vec F S1x128x4096 .f32) (xs0 : Vec F S128x4096 .f32) (xt0 : TbBuf0 (F := F) c tbM0_0) (y : S1x128x4096.Idx) :
    ∃ pc ∈ (kernelRun0_B c i arg3 harg3 arg4 harg4 arg5 harg5 arg6 harg6 arg7 harg7 arg8 harg8 arg9 harg9 hc0 hc1 hc2 x4 xs0 xt0).1, y ∈ pc.1.set :=
  View.cover_of_tiledL (kernelRun0_B c i arg3 harg3 arg4 harg4 arg5 harg5 arg6 harg6 arg7 harg7 arg8 harg8 arg9 harg9 hc0 hc1 hc2 x4 xs0 xt0).1 S1x128x4096.size (by sl_kernel_rfl) y

/-- The output block after a slot 1..12. -/
def out0_B_5 (hc0 : ¬cond0_0 i) (hc1 : cond0_1 i) (hc2 : ¬cond0_2 i) (x4 : Vec F S1x128x4096 .f32) (xs0 : Vec F S128x4096 .f32) (xt0 : TbBuf0 (F := F) c tbM0_0) : Vec F S1x128x4096 .f32 :=
  VO0_5.read (Elt F) (VO0_5.writes (Elt F) VO0_5.junk (kernelRun0_B c i arg3 harg3 arg4 harg4 arg5 harg5 arg6 harg6 arg7 harg7 arg8 harg8 arg9 harg9 hc0 hc1 hc2 x4 xs0 xt0).1)

theorem cover0_C_5 (hc0 : ¬cond0_0 i) (hc1 : ¬cond0_1 i) (hc2 : cond0_2 i) (x1 : Vec F S128x4096 .f32) (x2 x3 : Vec F S1x4096 .f32) (xs0 : Vec F S128x4096 .f32) (y : S1x128x4096.Idx) :
    ∃ pc ∈ (kernelRun0_C c i arg3 harg3 arg4 harg4 arg5 harg5 arg6 harg6 arg7 harg7 arg8 harg8 arg9 harg9 hc0 hc1 hc2 x1 x2 x3 xs0).1, y ∈ pc.1.set :=
  View.cover_of_tiledL (kernelRun0_C c i arg3 harg3 arg4 harg4 arg5 harg5 arg6 harg6 arg7 harg7 arg8 harg8 arg9 harg9 hc0 hc1 hc2 x1 x2 x3 xs0).1 S1x128x4096.size (by sl_kernel_rfl) y

/-- The output block after slot 13. -/
def out0_C_5 (hc0 : ¬cond0_0 i) (hc1 : ¬cond0_1 i) (hc2 : cond0_2 i) (x1 : Vec F S128x4096 .f32) (x2 x3 : Vec F S1x4096 .f32) (xs0 : Vec F S128x4096 .f32) : Vec F S1x128x4096 .f32 :=
  VO0_5.read (Elt F) (VO0_5.writes (Elt F) VO0_5.junk (kernelRun0_C c i arg3 harg3 arg4 harg4 arg5 harg5 arg6 harg6 arg7 harg7 arg8 harg8 arg9 harg9 hc0 hc1 hc2 x1 x2 x3 xs0).1)

end Pieces

/-! ## What the output block and the scratch hold after each point -/

/-- After a point at slot 0: (output block, scratch). -/
def pairA (hO : Ok m) (c : Dev nD) (t : Fin (cfgM m hO).N) (h0 : t.val % 14 = 0) : Vec F S1x128x4096 .f32 × Vec F S128x4096 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t),
   sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t))

/-- After a point at a slot 1..12, the scratch holding `xs` before it: the scratch is left as it was. -/
def pairB (hO : Ok m) (c : Dev nD) (t : Fin (cfgM m hO).N) (h1 : 1 ≤ t.val % 14) (h12 : t.val % 14 ≤ 12) (xs : Vec F S128x4096 .f32) : Vec F S1x128x4096 .f32 × Vec F S128x4096 .f32 :=
  (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) ((hcond0_1 (adm m hO) t).mpr ⟨h1, h12⟩) (fun h => by have := (hcond0_2 (adm m hO) t).mp h; omega) (iblk m hO c 4 t) xs (tbl m 0), xs)

/-- After a point at slot 13, the scratch holding `xs` before it. -/
def pairC (hO : Ok m) (c : Dev nD) (t : Fin (cfgM m hO).N) (h2 : t.val % 14 = 13) (xs : Vec F S128x4096 .f32) : Vec F S1x128x4096 .f32 × Vec F S128x4096 .f32 :=
  (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) (fun h => by have := (hcond0_1 (adm m hO) t).mp h; omega) ((hcond0_2 (adm m hO) t).mpr h2) (iblk m hO c 1 t) (iblk m hO c 2 t) (iblk m hO c 3 t) xs, xs)

/-- The output block and the scratch after the point at position `n`, by recursion on `n`: the branch the slot selects,
    run over the scratch the point before left. -/
def outsAt0 (hO : Ok m) (c : Dev nD) : (n : ℕ) → n < (cfgM m hO).N → Vec F S1x128x4096 .f32 × Vec F S128x4096 .f32
  | 0, hn => pairA m hO c ⟨0, hn⟩ (Nat.zero_mod _)
  | n + 1, hn =>
    if h0 : (n + 1) % 14 = 0 then pairA m hO c ⟨n + 1, hn⟩ h0
    else if h2 : (n + 1) % 14 = 13 then pairC m hO c ⟨n + 1, hn⟩ h2 (outsAt0 hO c n (Nat.lt_of_succ_lt hn)).2
    else pairB m hO c ⟨n + 1, hn⟩ (by show 1 ≤ (n + 1) % 14; omega) (by show (n + 1) % 14 ≤ 12; omega) (outsAt0 hO c n (Nat.lt_of_succ_lt hn)).2

theorem outsAt0_A (hO : Ok m) (c : Dev nD) (t : Fin (cfgM m hO).N) (h0 : t.val % 14 = 0) :
    outsAt0 m hO c t.val t.isLt = pairA m hO c t h0 := by
  obtain ⟨n, hn⟩ := t
  cases n with
  | zero => rfl
  | succ n => exact dif_pos h0

theorem outsAt0_B (hO : Ok m) (c : Dev nD) (t : Fin (cfgM m hO).N) (h1 : 1 ≤ t.val % 14) (h12 : t.val % 14 ≤ 12) :
    outsAt0 m hO c t.val t.isLt = pairB m hO c t h1 h12 (outsAt0 m hO c (t.val - 1) (Nat.lt_of_le_of_lt (Nat.sub_le _ _) t.isLt)).2 := by
  obtain ⟨n, hn⟩ := t
  cases n with
  | zero => exact absurd (show 1 ≤ 0 % 14 from h1) (by decide)
  | succ n =>
    have h1' : 1 ≤ (n + 1) % 14 := h1
    have h12' : (n + 1) % 14 ≤ 12 := h12
    exact (dif_neg (by omega)).trans (dif_neg (by omega))

theorem outsAt0_C (hO : Ok m) (c : Dev nD) (t : Fin (cfgM m hO).N) (h2 : t.val % 14 = 13) :
    outsAt0 m hO c t.val t.isLt = pairC m hO c t h2 (outsAt0 m hO c (t.val - 1) (Nat.lt_of_le_of_lt (Nat.sub_le _ _) t.isLt)).2 := by
  obtain ⟨n, hn⟩ := t
  cases n with
  | zero => exact absurd (show 0 % 14 = 13 from h2) (by decide)
  | succ n =>
    have h2' : (n + 1) % 14 = 13 := h2
    exact (dif_neg (by omega)).trans (dif_pos h2)

/-! ## The invariant between points -/

/-- Before position `n`: at the start the launch's own invariant and the table's half; afterwards the scratch at what
    the point before left, the generator register at some state, and the table's half. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM0_0 fullShare ((outsAt0 m hO c n hn).2) ∗ (∃ r, prngReg c r)) ∗ Pipeline.ΦT pre0 (tbl m) c)

theorem PhiS_zero (hO : Ok m) (c : Dev nD) (n : ℕ) (h : n ≤ (cfgM m hO).N) (hz : n = 0) :
    PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(owns (c : Thread nD τ) scM0_0 fullShare ((outsAt0 m hO c n hn).2) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(owns (c : Thread nD τ) scM0_0 fullShare ((outsAt0 m hO c (n - 1) (by omega)).2) ∗ (∃ r, prngReg c r)) ∗ Pipeline.ΦT pre0 (tbl m) c) := by
  cases n with
  | zero => exact absurd rfl hz
  | succ n => rfl

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; simp only [Fin.coe_castSucc]

theorem after0_0 (hO : Ok m) (c : Dev nD) (t : Fin (cfgM m hO).N) : (dats m hO 0 c).after 0 t = iblk m hO c 0 t := by dsimp only [dats]; rfl
theorem after0_1 (hO : Ok m) (c : Dev nD) (t : Fin (cfgM m hO).N) : (dats m hO 0 c).after 1 t = iblk m hO c 1 t := by dsimp only [dats]; rfl
theorem after0_2 (hO : Ok m) (c : Dev nD) (t : Fin (cfgM m hO).N) : (dats m hO 0 c).after 2 t = iblk m hO c 2 t := by dsimp only [dats]; rfl
theorem after0_3 (hO : Ok m) (c : Dev nD) (t : Fin (cfgM m hO).N) : (dats m hO 0 c).after 3 t = iblk m hO c 3 t := by dsimp only [dats]; rfl
theorem after0_4 (hO : Ok m) (c : Dev nD) (t : Fin (cfgM m hO).N) : (dats m hO 0 c).after 4 t = iblk m hO c 4 t := by dsimp only [dats]; rfl
theorem after0_5 (hO : Ok m) (c : Dev nD) (t : Fin (cfgM m hO).N) : (dats m hO 0 c).after 5 t = (outsAt0 m hO c t.val t.isLt).1 := by dsimp only [dats]; rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

theorem leaves_live (hO : Ok m) (c : Dev nD) (w : Fin (cfgM m hO).W) (t : Fin (cfgM m hO).N) :
    (dats m hO 0 c).leavesExact w t = owns (c : Thread nD τ) (((cfgM m hO).win w).stage ((cfgM m hO).slots t w)) fullShare ((dats m hO 0 c).after w t) := by
  unfold Dat.leavesExact; rw [liveAt0 (adm m hO) w t]

set_option maxHeartbeats 4800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ]
  rw [leaves_live m hO c 0 t, leaves_live m hO c 1 t, leaves_live m hO c 2 t, leaves_live m hO c 3 t, leaves_live m hO c 4 t, leaves_live m hO c 5 t,
    after0_0, after0_1, after0_2, after0_3, after0_4, after0_5]
  have hN : t.val < 112 := lt_of_lt_of_eq t.isLt (show (cfgM m hO).N = 112 from N_0)
  by_cases h0 : t.val % 14 = 0
  · rw [outsAt0_A m hO c t h0]
    unfold pairA; dsimp only
    unfold out0_A_5 sout0_A_0
    by_cases hz : t.val = 0
    · rw [PhiS_castSucc m hO c t, PhiS_zero m hO c _ _ hz, PhiA0_eq]
      iintro ⟨⟨⟨⟨%ds, HS⟩, Hg⟩, HT⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t)).2.2 Set.univ _)
      isplitl [H0]; · iexact H0
      isplitl [H1]; · iexact H1
      isplitl [H5]; · iexists _; iexact H5
      isplitl [HS]; · iexists _; iexact HS
      iintro ⟨H0, H1, ⟨%e5, H5⟩, ⟨%es, HS⟩⟩
      isplitl [HS Hg HT]
      · isplitl [HS Hg]
        · isplitl [HS]
          · unfold owns; iexists _; isplitr
            swap; · iexact HS
            ipureintro; exact View.read_writes_of_cover _ _ _ _ _ (scover0_A_0 c _ _ _ _ _ _ _ _ _ _ _ _ _ _ _ _ _ _ _ _)
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m hO c t, PhiS_pos m hO c _ _ hz]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t)).2.2 Set.univ _)
      isplitl [H0]; · iexact H0
      isplitl [H1]; · iexact H1
      isplitl [H5]; · iexists _; iexact H5
      isplitl [HS]; · iexists _; iexact HS
      iintro ⟨H0, H1, ⟨%e5, H5⟩, ⟨%es, HS⟩⟩
      isplitl [HS Hg HT]
      · isplitl [HS Hg]
        · isplitl [HS]
          · unfold owns; iexists _; isplitr
            swap; · iexact HS
            ipureintro; exact View.read_writes_of_cover _ _ _ _ _ (scover0_A_0 c _ _ _ _ _ _ _ _ _ _ _ _ _ _ _ _ _ _ _ _)
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
  · have hz : t.val ≠ 0 := fun e => h0 (by rw [e])
    by_cases h2 : t.val % 14 = 13
    · rw [outsAt0_C m hO c t h2]
      unfold pairC; dsimp only
      unfold out0_C_5
      rw [PhiS_castSucc m hO c t, PhiS_pos m hO c _ _ hz]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) (fun h => by have := (hcond0_1 (adm m hO) t).mp h; omega) ((hcond0_2 (adm m hO) t).mpr h2) (iblk m hO c 1 t) (iblk m hO c 2 t) (iblk m hO c 3 t) _).2 Set.univ _)
      isplitl [H1]; · iexact H1
      isplitl [H2]; · iexact H2
      isplitl [H3]; · iexact H3
      isplitl [H5]; · iexists _; iexact H5
      isplitl [HS]; · iexact HS
      iintro ⟨H1, H2, H3, ⟨%e5, H5⟩, HS⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _)
    · have h1 : 1 ≤ t.val % 14 := by omega
      have h12 : t.val % 14 ≤ 12 := by omega
      rw [outsAt0_B m hO c t h1 h12]
      unfold pairB; dsimp only
      unfold out0_B_5
      rw [PhiS_castSucc m hO c t, PhiS_pos m hO c _ _ hz]
      rw [PhiT0_eq m c]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) ((hcond0_1 (adm m hO) t).mpr ⟨h1, h12⟩) (fun h => by have := (hcond0_2 (adm m hO) t).mp h; omega) (iblk m hO c 4 t) _ (tbl m 0)).2 Set.univ _)
      isplitl [H4]; · iexact H4
      isplitl [H5]; · iexists _; iexact H5
      isplitl [HS]; · iexact HS
      isplitl [HT]; · iexact HT
      iintro ⟨H4, ⟨%e5, H5⟩, HS, HT⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _)

theorem body_obligation (hO : Ok m) (c : Dev nD) : BodyObligation (dats (F := F) m hO 0 c) (defs₀ (F := F)) Variants.none () Set.univ := fun t => by
  rw [bigSep_W0, bigSep_W0]
  exact sound_body m hO c t

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl,
    PhiS_pos m hO c _ _ (by rw [Fin.val_last]; have : (cfgM m hO).N = 112 := N_0; omega), PhiA0_eq]
  iintro ⟨⟨HS, Hg⟩, -⟩
  isplitl [HS]
  · iexists _; iexact HS
  iexact Hg

/-! ## The run and the frame -/

set_option backward.isDefEq.respectTransparency.types false in
theorem run_main (hO : Ok m) : θ_run defs (onTc (τ := τ) (main (F := F))) (s₀ m ρ) (Pipeline.FramePost (Pipeline.pin pcfgs fun _ => adm m hO) (dats m hO) 0 (V m)) :=
  Pipeline.θ_run_frameP_track pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The program runs to the end, faults nowhere and leaves its seven arguments as they were, for any table that
    passes the launch's side condition. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

end Cert.Kernel.Frm

end
-- ==== Proof.Spec.lean ====
/-
  What both programs compute, as one function of the seven arguments.

  The result has fourteen slots of shape [128, 32768]. Slot 0 is the spike X: 1 where v - t - 1 >= 0 and 0
  elsewhere (v the membrane value, t the threshold). Slots 1 to 12 read the buffer of past spikes after the new
  spike has been pushed in front of it: page 0 of the pushed buffer is X and page p >= 1 is page p - 1 of the
  old buffer; slot s reads the page named by the (s-1)-th of the twelve delays (the eight delays, then the four
  cross-area delays), clamped into [0, 15]. Slot 13 is the decayed threshold t * alpha + X * amplitude.
-/
import Idealize.ShloMosaic.PureOps.Ideal
import Idealize.ShloMosaic.Lib.ValueIdx

noncomputable section

namespace Cert.Spec

open Idealize.ShloMosaic

/-- The spike: 1 where `(v - t) - 1 ≥ 0`, else 0; the two constants kept as the words both programs print. -/
def spike (v t : EReal) : EReal :=
  if Ideal.ofBits .f32 0x00000000#32 ≤ (v - t) - Ideal.ofBits .f32 0x3F800000#32 then 1 else 0

/-- The twelve delays in order: the eight delays, then the four cross-area delays. -/
def delayAt (dl : Fin 8 → BitVec 32) (dx : Fin 4 → BitVec 32) (k : Fin 12) : BitVec 32 :=
  if h : k.val < 8 then dl ⟨k.val, h⟩ else dx ⟨k.val - 8, by omega⟩

/-- The page of the pushed buffer a delay names: the delay, read signed, clamped into [0, 15]. -/
def page (d : BitVec 32) : ℕ := (min (max d.toInt 0) 15).toNat

theorem page_le (d : BitVec 32) : page d ≤ 15 := by
  unfold page; omega

/-- The result at slot `s`, row `b`, column `n`. -/
def G (V T : Fin 128 → Fin 32768 → EReal) (al am : Fin 32768 → EReal) (buf : Fin 16 → Fin 128 → Fin 32768 → EReal)
    (dl : Fin 8 → BitVec 32) (dx : Fin 4 → BitVec 32) (s : Fin 14) (b : Fin 128) (n : Fin 32768) : EReal :=
  if s.val = 0 then spike (V b n) (T b n)
  else if h : s.val ≤ 12 then
    (if page (delayAt dl dx ⟨s.val - 1, by omega⟩) = 0 then spike (V b n) (T b n)
     else buf ⟨page (delayAt dl dx ⟨s.val - 1, by omega⟩) - 1, by have := page_le (delayAt dl dx ⟨s.val - 1, by omega⟩); omega⟩ b n)
  else T b n * al n + spike (V b n) (T b n) * am n

/-- The same as an array of shape [14, 128, 32768] over the argument arrays. -/
def GA (V T : (⟨2, ![128, 32768]⟩ : Shape).Idx → EReal) (al am : (⟨1, ![32768]⟩ : Shape).Idx → EReal)
    (buf : (⟨3, ![16, 128, 32768]⟩ : Shape).Idx → EReal)
    (dl : (⟨1, ![8]⟩ : Shape).Idx → BitVec 32) (dx : (⟨1, ![4]⟩ : Shape).Idx → BitVec 32) :
    (⟨3, ![14, 128, 32768]⟩ : Shape).Idx → EReal :=
  fun j => G (fun b n => V (ValueIdx.ix2 b n)) (fun b n => T (ValueIdx.ix2 b n)) (fun n => al (ValueIdx.ix1 n)) (fun n => am (ValueIdx.ix1 n))
    (fun p b n => buf (ValueIdx.ix3 p b n)) (fun k => dl (ValueIdx.ix1 k)) (fun k => dx (ValueIdx.ix1 k)) (j 0) (j 1) (j 2)

theorem GA_apply (V T al am buf dl dx) (s : Fin 14) (b : Fin 128) (n : Fin 32768) :
    GA V T al am buf dl dx (ValueIdx.ix3 s b n)
      = G (fun b n => V (ValueIdx.ix2 b n)) (fun b n => T (ValueIdx.ix2 b n)) (fun n => al (ValueIdx.ix1 n)) (fun n => am (ValueIdx.ix1 n))
          (fun p b n => buf (ValueIdx.ix3 p b n)) (fun k => dl (ValueIdx.ix1 k)) (fun k => dx (ValueIdx.ix1 k)) s b n := rfl

end Cert.Spec

end
-- ==== Proof.TableBits.lean ====
/-
  The table of page numbers the kernel's buffer window is indexed by, read off the host operations before the
  launch.

  The host joins the eight delays and the four cross-area delays, clamps every entry into [0, 15] (the signed
  maximum with 0, then the signed minimum with 15) and frames the twelve results by a leading 0 and a copy of
  the last: fourteen words, one per slot. Here: the word at each slot as a function of the two delay vectors
  (`word`), the table as one term of the argument arrays (`tbl_eq`) and read at a slot (`tbl_apply`), the word
  as a natural number (the page of the pushed buffer the delay names) and its range, the buffer window's page at
  a slot (the word less one, clamped at zero: at most 14), and from the range the launch's side condition: every
  page's block lies inside the sixteen-page array.
-/
import proofs.«427882_j47579647705427_3_alg».proof.Proof.FrameKitBits
import proofs.«427882_j47579647705427_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.Lib.WordArith

set_option maxRecDepth 16384

noncomputable section

namespace Cert.Kernel.Tbl

open Cert.Kernel Cert.Kernel.Gen Cert.Kernel.Frm
open Idealize.ShloMosaic Idealize.ShloMosaic.TcCoe Idealize.ShloMosaic.Tactic
open Idealize.ShloMosaic.ValueIdx

variable {F : FTy → Type} [FloatOps F]

variable (m : (ℓ : Loc nD τ sig) → Buf (Elt F) ℓ)

/-! ## The table's words as a function of the two delay vectors -/

/-- A delay clamped into [0, 15] as the host computes it: the signed maximum with 0, then the signed minimum
    with 15, each constant the first operand. -/
def clip (d : BitVec 32) : BitVec 32 := IntOp.minsi 15#32 (IntOp.maxsi 0#32 d)

/-- The clamp read signed is the delay's signed reading clamped into [0, 15]. -/
theorem clip_toInt (d : BitVec 32) : (clip d).toInt = min (max d.toInt 0) 15 := by
  have h0 : (0#32 : BitVec 32).toInt = 0 := by decide
  have h15 : (15#32 : BitVec 32).toInt = 15 := by decide
  unfold clip IntOp.minsi IntOp.maxsi
  by_cases h : d.slt 0#32 = true
  · rw [if_pos h]
    have h' : ¬ ((15#32 : BitVec 32).slt 0#32 = true) := by decide
    rw [if_neg h']
    rw [BitVec.slt_iff_toInt_lt, h0] at h
    rw [h0]; omega
  · rw [if_neg h]
    rw [BitVec.slt_iff_toInt_lt, h0] at h
    by_cases h2 : (15#32 : BitVec 32).slt d = true
    · rw [if_pos h2]; rw [BitVec.slt_iff_toInt_lt, h15] at h2; rw [h15]; omega
    · rw [if_neg h2]; rw [BitVec.slt_iff_toInt_lt, h15] at h2; omega

/-- A word whose signed reading is not negative reads unsigned as the same number. -/
theorem toNat_of_toInt_nonneg (w : BitVec 32) (h : 0 ≤ w.toInt) : w.toNat = w.toInt.toNat := by
  have e := BitVec.toInt_eq_toNat_cond w
  have := w.isLt
  split at e <;> omega

/-- The clamp read unsigned is the page the delay names. -/
theorem clip_toNat (d : BitVec 32) : (clip d).toNat = Cert.Spec.page d := by
  have e := clip_toInt d
  rw [toNat_of_toInt_nonneg _ (by rw [e]; omega), e]; rfl

/-- The table's word at slot `s`: 0 at slot 0, the clamped (s-1)-th delay at slots 1 to 12, and at slot 13 the
    clamped last delay once more. -/
def word (dl : IVec S8 32) (dx : IVec S4 32) (s : Fin 14) : BitVec 32 :=
  if h0 : s.val = 0 then 0#32
  else if h12 : s.val ≤ 12 then clip (Cert.Spec.delayAt (fun k => dl (ix1 k)) (fun k => dx (ix1 k)) ⟨s.val - 1, by omega⟩)
  else clip (Cert.Spec.delayAt (fun k => dl (ix1 k)) (fun k => dx (ix1 k)) ⟨11, by omega⟩)

theorem word_toNat (dl : IVec S8 32) (dx : IVec S4 32) (s : Fin 14) (h1 : 1 ≤ s.val) (h12 : s.val ≤ 12) :
    (word dl dx s).toNat = Cert.Spec.page (Cert.Spec.delayAt (fun k => dl (ix1 k)) (fun k => dx (ix1 k)) ⟨s.val - 1, by omega⟩) := by
  unfold word
  rw [dif_neg (by omega), dif_pos h12]
  exact clip_toNat _

theorem word_le (dl : IVec S8 32) (dx : IVec S4 32) (s : Fin 14) : 0 ≤ (word dl dx s).toInt ∧ (word dl dx s).toInt ≤ 15 := by
  unfold word
  split
  · decide
  · split
    · rw [clip_toInt]; omega
    · rw [clip_toInt]; omega

/-- The buffer window's page for a table word in [0, 15]: the word less one, clamped at zero; at most 14. -/
theorem page_index_of (w : BitVec 32) (h0 : 0 ≤ w.toInt) (h15 : w.toInt ≤ 15) :
    (Scalar.maxsi (Scalar.subi w 1#32) 0#32).toNat = w.toNat - 1 ∧ (Scalar.maxsi (Scalar.subi w 1#32) 0#32).toNat ≤ 14 := by
  have hn := toNat_of_toInt_nonneg w h0
  have h1 : (1#32 : BitVec 32).toInt = 1 := by decide
  have hz : (0#32 : BitVec 32).toInt = 0 := by decide
  have hs : (w - 1#32).toInt = w.toInt - 1 := by
    apply WordArith.toInt_sub_of_bounds <;> rw [h1] <;> omega
  unfold Scalar.maxsi Scalar.subi IntOp.maxsi IntOp.subi
  by_cases h : (0#32 : BitVec 32).slt (w - 1#32) = true
  · rw [if_pos h]
    rw [BitVec.slt_iff_toInt_lt, hz, hs] at h
    have hn' := toNat_of_toInt_nonneg (w - 1#32) (by rw [hs]; omega)
    rw [hn', hs]; omega
  · rw [if_neg h]
    rw [BitVec.slt_iff_toInt_lt, hz, hs] at h
    show (0 : Nat) = _ ∧ (0 : Nat) ≤ 14
    omega

theorem page_index (dl : IVec S8 32) (dx : IVec S4 32) (s : Fin 14) :
    (Scalar.maxsi (Scalar.subi (word dl dx s) 1#32) 0#32).toNat = (word dl dx s).toNat - 1
      ∧ (Scalar.maxsi (Scalar.subi (word dl dx s) 1#32) 0#32).toNat ≤ 14 :=
  page_index_of _ (word_le dl dx s).1 (word_le dl dx s).2

/-! ## The table as one term of the argument arrays -/

section Nary3
variable {nD' : Nat} {τ' : Topo} {sig' : RefSig} {Val : EltTy → Type}

/-- A three-operand operation's result with each operand's contents at its own reference, so that the operands'
    own contents can be rewritten in turn. -/
theorem nary3_result {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Nary3

/-- The results of a line of host operations whose last joins three operands. -/
local macro "results3" : tactic =>
  `(tactic| (simp only [StableHlo.after_cons, StableHlo.after_nil]
             repeat (first
               | rw [nary3_result] | rw [StableHlo.nullary_result] | rw [StableHlo.unary_result] | rw [StableHlo.binary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- The twelve delays joined and clamped, as an array: every entry's signed maximum with 0, then signed minimum
    with 15. -/
def clipped (dl : IVec S8 32) (dx : IVec S4 32) : IVec S12 32 :=
  minsi (broadcastInDim S12 ![] bcast_S_S12 (constantI S_ 32 15#32))
    (maxsi (broadcastInDim S12 ![] bcast_S_S12 (constantI S_ 32 0#32))
      (concatenate S12 0 [⟨S8, dl⟩, ⟨S4, dx⟩] concatenates_S8_S4_S12_d0))

/-- The table: a leading 0, the twelve clamped delays, and the last of them once more. -/
def table (dl : IVec S8 32) (dx : IVec S4 32) : IVec S14 32 :=
  concatenate S14 0 [⟨S1, broadcastInDim S1 ![] bcast_S_S1 (constantI S_ 32 0#32)⟩, ⟨S12, clipped dl dx⟩,
    ⟨S1, extractStridedSlice S1 ![11] (clipped dl dx) slices_S12_S1_11⟩] concatenates_S1_S12_S1_S14_d0

theorem tbl_eq : (tbl m 0 : S14.Idx → BitVec 32)
    = table (m ((0 : Dev nD).tc.loc main_arg5)) (m ((0 : Dev nD).tc.loc main_arg6)) := by
  unfold tbl
  show V m 0 main_v6 = _
  dsimp only [V]
  simp only [hostOps0, hostOps0_1, hostOps0_2, List.flatten_cons, List.flatten_nil, List.append_nil, List.cons_append, List.nil_append]
  results3
  rfl

/-! ## The table read at a slot -/

/-- The joined delays at position `k`: the k-th of the twelve. -/
theorem joined_apply (dl : IVec S8 32) (dx : IVec S4 32) (k : Fin 12) :
    concatenate S12 0 [⟨S8, dl⟩, ⟨S4, dx⟩] concatenates_S8_S4_S12_d0 (ix1 k)
      = Cert.Spec.delayAt (fun k => dl (ix1 k)) (fun k => dx (ix1 k)) k := by
  unfold Cert.Spec.delayAt
  by_cases h : k.val < 8
  · rw [dif_pos h]
    exact concatenate_pair_apply_left 0 dl dx concatenates_S8_S4_S12_d0 (ix1 k) rfl (ix1 (⟨k.val, h⟩ : Fin 8))
      (fun b => match b with | ⟨0, _⟩ => rfl)
  · rw [dif_neg h]
    exact concatenate_pair_apply_right 0 dl dx concatenates_S8_S4_S12_d0 (ix1 k) rfl rfl (ix1 (⟨k.val - 8, by omega⟩ : Fin 4))
      (fun b hb => absurd (Subsingleton.elim _ _) hb)
      (by show (k.val - 8) + 8 = k.val; omega)

/-- The clamped delays at position `k`: the k-th delay, clamped. -/
theorem clipped_apply (dl : IVec S8 32) (dx : IVec S4 32) (k : Fin 12) :
    clipped dl dx (ix1 k) = clip (Cert.Spec.delayAt (fun k => dl (ix1 k)) (fun k => dx (ix1 k)) k) := by
  unfold clipped clip
  show IntOp.minsi (broadcastInDim S12 ![] bcast_S_S12 (constantI S_ 32 15#32) (ix1 k))
      (IntOp.maxsi (broadcastInDim S12 ![] bcast_S_S12 (constantI S_ 32 0#32) (ix1 k))
        (concatenate S12 0 [⟨S8, dl⟩, ⟨S4, dx⟩] concatenates_S8_S4_S12_d0 (ix1 k))) = _
  rw [broadcastInDim_scalar_apply, broadcastInDim_scalar_apply, joined_apply]
  rfl

/-- The table at slot `s` is the word of slot `s`. -/
theorem table_apply (dl : IVec S8 32) (dx : IVec S4 32) (s : Fin 14) : table dl dx (ix1 s) = word dl dx s := by
  unfold table word
  by_cases h0 : s.val = 0
  · rw [dif_pos h0]
    have H := concatenate_apply_piece (α := BitVec 32) (t := S14) 0
      [⟨S1, broadcastInDim S1 ![] bcast_S_S1 (constantI S_ 32 0#32)⟩, ⟨S12, clipped dl dx⟩,
        ⟨S1, extractStridedSlice S1 ![11] (clipped dl dx) slices_S12_S1_11⟩]
      concatenates_S1_S12_S1_S14_d0 (ix1 s) 0 (show 0 < 3 from by omega) S1 _ rfl rfl 0 rfl (ix1 (0 : Fin 1))
      (fun b hb => absurd (Subsingleton.elim _ _) hb) (by show 0 + 0 = s.val; omega)
    refine H.trans ?_
    rw [broadcastInDim_scalar_apply]; rfl
  · rw [dif_neg h0]
    by_cases h12 : s.val ≤ 12
    · rw [dif_pos h12]
      have H := concatenate_apply_piece (α := BitVec 32) (t := S14) 0
        [⟨S1, broadcastInDim S1 ![] bcast_S_S1 (constantI S_ 32 0#32)⟩, ⟨S12, clipped dl dx⟩,
        ⟨S1, extractStridedSlice S1 ![11] (clipped dl dx) slices_S12_S1_11⟩]
        concatenates_S1_S12_S1_S14_d0 (ix1 s) 1 (show 1 < 3 from by omega) S12 _ rfl rfl 1 rfl
        (ix1 (⟨s.val - 1, by omega⟩ : Fin 12))
        (fun b hb => absurd (Subsingleton.elim _ _) hb) (by show 1 + (s.val - 1) = s.val; omega)
      refine H.trans ?_
      exact clipped_apply dl dx _
    · rw [dif_neg h12]
      have H := concatenate_apply_piece (α := BitVec 32) (t := S14) 0
        [⟨S1, broadcastInDim S1 ![] bcast_S_S1 (constantI S_ 32 0#32)⟩, ⟨S12, clipped dl dx⟩,
        ⟨S1, extractStridedSlice S1 ![11] (clipped dl dx) slices_S12_S1_11⟩]
        concatenates_S1_S12_S1_S14_d0 (ix1 s) 2 (show 2 < 3 from by omega) S1 _ rfl rfl 13 rfl (ix1 (0 : Fin 1))
        (fun b hb => absurd (Subsingleton.elim _ _) hb) (by show 13 + 0 = s.val; have := s.isLt; omega)
      refine H.trans ?_
      refine (extractStridedSlice_apply ![11] (clipped dl dx) slices_S12_S1_11 (ix1 (0 : Fin 1)) (ix1 (⟨11, by omega⟩ : Fin 12))
        (fun a => match a with | ⟨0, _⟩ => rfl)).trans ?_
      exact clipped_apply dl dx _

/-- The table's word at slot `s` when the launch is entered, over the two delay vectors as the launch finds them. -/
theorem tbl_apply (s : Fin 14) :
    (tbl m 0 : S14.Idx → BitVec 32) (ix1 s)
      = word (m ((0 : Dev nD).tc.loc main_arg5)) (m ((0 : Dev nD).tc.loc main_arg6)) s := by
  rw [tbl_eq]; exact table_apply _ _ s

/-! ## The launch's side condition -/

/-- A table's word under the one-element rectangle at offset `n`: the table at index `n`. -/
theorem at_eq (pf : pre0.Contents (Elt F)) (n : Nat) (hn : n < 14) (h : ∀ a, (![n] : Fin 1 → Nat) a + S1.size a ≤ S14.size a)
    (h1 : S1.numel = 1) :
    pf.at 0 (Rect.unit (s := S14) ![n] S1.size h) h1 = (pf 0 : S14.Idx → BitVec 32) (ix1 (⟨n, hn⟩ : Fin 14)) := by
  show (pf 0 : S14.Idx → BitVec 32) _ = _
  refine congrArg (pf 0 : S14.Idx → BitVec 32) (funext fun a => match a with | ⟨0, _⟩ => Fin.ext ?_)
  show n + 1 * 0 = n; omega

/-- Whatever the table holds, if every word of it reads signed in [0, 15] then at every grid point the buffer
    window's page (the word less one, clamped at zero) is at most 14 and its block lies inside the sixteen-page
    array. -/
theorem ok0_of_le (pf : pre0.Contents (Elt F))
    (hpf : ∀ j : S14.Idx, 0 ≤ ((pf 0 : S14.Idx → BitVec 32) j).toInt ∧ ((pf 0 : S14.Idx → BitVec 32) j).toInt ≤ 15) : ok0 pf := by
  unfold ok0
  intro i
  refine ⟨fun a => ?_, Or.inl rfl⟩
  have h8 : (i 0).val < 8 := (i 0).isLt
  match a with
  | ⟨0, _⟩ =>
    have hw := hpf ((Rect.unit (s := S14) ![(Scalar.indexCast (BitVec.ofNat 32 (i 1).val)).toNat] S1.size (k0_off1_inb i)).emb
      (Shape.Idx.first (numel1_S1.symm ▸ Nat.one_pos)))
    have hp := (page_index_of _ hw.1 hw.2).2
    show ((Scalar.maxsi (Scalar.subi ((pf 0 : S14.Idx → BitVec 32)
      ((Rect.unit (s := S14) ![(Scalar.indexCast (BitVec.ofNat 32 (i 1).val)).toNat] S1.size (k0_off1_inb i)).emb
        (Shape.Idx.first (numel1_S1.symm ▸ Nat.one_pos)))) 1#32) 0#32).toNat + 1) * 1 ≤ 16
    omega
  | ⟨1, _⟩ => show ((0#32 : BitVec 32).toNat + 1) * 128 ≤ 128; decide
  | ⟨2, _⟩ =>
    show ((BitVec.ofNat 32 (i 0).val).toNat + 1) * 4096 ≤ 32768
    rw [BitVec.toNat_ofNat, Nat.mod_eq_of_lt (by omega)]; omega

/-- The launch's side condition holds of the table the host computes, whatever the delays. -/
theorem ok : Ok m :=
  ok0_of_le (tbl m) fun j => by
    obtain ⟨s, rfl⟩ : ∃ s : Fin 14, j = ix1 s := ⟨j 0, eq_ix1 j⟩
    show 0 ≤ ((tbl m 0 : S14.Idx → BitVec 32) (ix1 s)).toInt ∧ ((tbl m 0 : S14.Idx → BitVec 32) (ix1 s)).toInt ≤ 15
    rw [tbl_apply]; exact word_le _ _ s

end Cert.Kernel.Tbl

end
-- ==== Proof.FrameKitIdeal.lean ====
/-
  The launch side of the kernel's run, stated once for every float instance.

  Before the launch the host computes the table of page numbers the kernel's buffer window is indexed
  by: the two delay vectors are joined, every entry is clamped into [0, 15], and the result is framed
  by a leading 0 and a copy of its last entry, fourteen words in all, one per slot of the inner grid
  axis. Here: the buffers' contents when the launch is entered (the three stretches of host
  operations folded over the launch memory), the table read off them, the side condition the launch
  asks of the table (every page's block inside the sixteen-page array), the blocks of the windows at a
  grid point, the three branch conditions of the body in closed form over the 8 x 14 grid (slot 0,
  slots 1..12, slot 13), and the frame claim read off a run that ends in the launch's postcondition.
-/
import proofs.«427882_j47579647705427_3_alg».proof.Proof.Gen.KernelIdeal.Launch
import proofs.«427882_j47579647705427_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch is entered: the three stretches of host operations, in order, over the
    launch memory. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the launch: three straight lines of host operations, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- None of the host operations before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The table of page numbers -/

/-- The table's fourteen words when the launch is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- What the launch asks of the table: at every grid point the buffer window's page lies inside the
    sixteen-page array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it: its whole buffer as a memref. -/
abbrev tbM0_0 : Memref sig .tc .smem S14 .i32 := Memref.whole main_v6
abbrev htbM0_0 : tbM0_0.IsWhole := Memref.isWhole_whole _
abbrev TbBuf0 (c : Dev nD) {S : Shape} {e : EltTy} (M : Memref sig .tc .smem S e) : Type := Buf (Elt F) (M.view.loc (c : Thread nD τ))
/-- The table held read-only: half of the full share, the launch keeping the other half. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the launch finds it; for the buffer window a function
    of the table's word at the point's slot. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof
    data whose array is the launch-time contents and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the launch-time contents and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the launch-time contents and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the launch-time contents and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the launch-time contents and whose body leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three branches over the grid -/

/-- Slot 0 of a tile: the spike is computed, kept in the scratch, and written out. -/
abbrev cond0_0 (i : grid0.Coords) : Prop := k0_cond1 i = 1#1
/-- Slots 1 to 12: one delayed page is selected. -/
abbrev cond0_1 (i : grid0.Coords) : Prop := k0_cond2 i = 1#1
/-- Slot 13: the new threshold. -/
abbrev cond0_2 (i : grid0.Coords) : Prop := k0_cond3 i = 1#1

theorem hcond0_0 (a : (pcfg0 (F := F)).Adm) : ∀ t : Fin (cfg0 a).N, cond0_0 (grid0.coords t) ↔ t.val % 14 = 0 :=
  (by decide +kernel : ∀ t : Fin grid0.N, cond0_0 (grid0.coords t) ↔ t.val % 14 = 0)
theorem hcond0_1 (a : (pcfg0 (F := F)).Adm) : ∀ t : Fin (cfg0 a).N, cond0_1 (grid0.coords t) ↔ (1 ≤ t.val % 14 ∧ t.val % 14 ≤ 12) :=
  (by decide +kernel : ∀ t : Fin grid0.N, cond0_1 (grid0.coords t) ↔ (1 ≤ t.val % 14 ∧ t.val % 14 ≤ 12))
theorem hcond0_2 (a : (pcfg0 (F := F)).Adm) : ∀ t : Fin (cfg0 a).N, cond0_2 (grid0.coords t) ↔ t.val % 14 = 13 :=
  (by decide +kernel : ∀ t : Fin grid0.N, cond0_2 (grid0.coords t) ↔ t.val % 14 = 13)

/-- No window is idle anywhere: every slot is in one of the three branches, and each stores the whole output block. -/
theorem liveAt0 (a : (pcfg0 (F := F)).Adm) : ∀ (w : Fin (cfg0 a).W) (t : Fin (cfg0 a).N), (cfg0 a).idle w (grid0.coords t) = false :=
  (by decide +kernel : ∀ (w : Fin 6) (t : Fin grid0.N), idle0 w (grid0.coords t) = false)
/-- The output block is written back at every point. -/
theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)

/-! ## The body's memrefs at a point -/

/-- One staging buffer of the output window, through which its contents are stated. -/
abbrev VO0_5 : View sig .tc .vmem S1x128x4096 .f32 := (Memref.whole cc0_stg5_0 : Memref sig .tc .vmem S1x128x4096 .f32).view
abbrev ms0_0 (hO : Ok m) (t : Fin (cfgM m hO).N) : Memref sig .tc .vmem S128x4096 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x4096 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4096 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x4096 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x4096 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch that carries the tile's spike from slot 0 to the later slots. -/
abbrev scM0_0 : Memref sig .tc .vmem S128x4096 .f32 := Memref.whole cc0_scratch0
abbrev VS0_0 : View sig .tc .vmem S128x4096 .f32 := scM0_0.view

/-- The kernel body at point `t`, on what the launch calls it with. -/
abbrev bodyAt0 (a : (pcfg0 (F := F)).Adm) (t : Fin (cfg0 a).N) : Prog (TpuEff nD τ sig (Elt F) Λ₀ .tc) PUnit :=
  cc0__alif_kernel (grid0.coords t) (Memref.whole main_v6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

/-- The launch's own invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame claim from a run to the launch's postcondition -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 4).trans (((dats 0 c).arrAt_in 4 rfl _).trans ((hA c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

end Cert.KernelIdeal.Frm

end
-- ==== Proof.FrameRunAIdeal.lean ====
/-
  The body at slot 0 of a tile. It loads the membrane block x0 and the threshold block x1, computes the spike
  1[(x0 - x1) - 1 ≥ 0], stores it whole into the scratch and, recast to one page, whole into the output block.
  Stated for any staging memrefs: the two input blocks are handed back as found, the output block and the scratch
  end with the pieces the two stores wrote (the witness the symbolic run finds).
-/
import proofs.«427882_j47579647705427_3_alg».proof.Proof.FrameKitIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole) (hc0 : cond0_0 i) (hc1 : ¬cond0_1 i) (hc2 : ¬cond0_2 i)
    (x0 : Vec F S128x4096 .f32) (x1 : Vec F S128x4096 .f32) :
    Σ' (L5 : List (View.Piece (Elt F) S1x128x4096 .f32)), { LS0 : List (View.Piece (Elt F) S128x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__alif_kernel i tbM0_0 htbM0_0 arg3 harg3 arg4 harg4 arg5 harg5 arg6 harg6 arg7 harg7 arg8 harg8 arg9 harg9) K } := by
  refine ⟨?_, ?_, fun E K => ?run⟩
  case run =>
    simp only [cc0__alif_kernel_eq_skeleton]; unfold cc0__alif_kernel_skel
    unfold owns
    iintro ⟨⟨%f0, %hf0, H0⟩, ⟨%f1, %hf1, H1⟩, ⟨%d8, %f8, -, H8⟩, ⟨%d9, %f9, -, H9⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H8]; · iexists _; iexact H8
    iexists _; iexact H9

end Cert.KernelIdeal.Frm

end
-- ==== Proof.FrameRunBIdeal.lean ====
/-
  The body at slots 1 to 12 of a tile. It reads the slot's word w of the table, loads the buffer page block x4 and
  the scratch xs0 (the tile's spike), and stores into the output block the scratch where w = 0 and the page
  otherwise. The page block, the scratch and the table are handed back as found.
-/
import proofs.«427882_j47579647705427_3_alg».proof.Proof.FrameRunAIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole) (hc0 : ¬cond0_0 i) (hc1 : cond0_1 i) (hc2 : ¬cond0_2 i)
    (x4 : Vec F S1x128x4096 .f32) (xs0 : Vec F S128x4096 .f32) (xt0 : TbBuf0 (F := F) c tbM0_0) :
    { L5 : List (View.Piece (Elt F) S1x128x4096 .f32) //
      ∀ (E : Set ℕ) (K : PUnit → sProp 𝕄),
        iprop(owns (c : Thread nD τ) arg7 fullShare x4 ∗ (∃ d, owns (c : Thread nD τ) arg8 fullShare d) ∗ owns (c : Thread nD τ) arg9 fullShare xs0 ∗ tbPt0 c tbM0_0 xt0
            ∗ (iprop(owns (c : Thread nD τ) arg7 fullShare x4 ∗ (∃ f, arg8.view.loc (c : Thread nD τ) ↦[arg8.view.set]{fullShare} arg8.view.writes (Elt F) f L5) ∗ owns (c : Thread nD τ) arg9 fullShare xs0 ∗ tbPt0 c tbM0_0 xt0) -∗ K ⟨⟩))
          ⊢ wp frame (wpE (defs₀ (F := F)) Variants.none c none) E (cc0__alif_kernel i tbM0_0 htbM0_0 arg3 harg3 arg4 harg4 arg5 harg5 arg6 harg6 arg7 harg7 arg8 harg8 arg9 harg9) K } := by
  refine ⟨?_, fun E K => ?run⟩
  case run =>
    simp only [cc0__alif_kernel_eq_skeleton]; unfold cc0__alif_kernel_skel
    unfold owns
    iintro ⟨⟨%f4, %hf4, H4⟩, ⟨%d8, %f8, -, H8⟩, ⟨%fs, %hfs, HS⟩, HT, Hk⟩
    obtain rfl := harg7.eq_unread hf4; obtain rfl := harg9.eq_unread hfs
    sl_exec (disch := first | exact hc0 | exact hc1 | exact hc2)
    sl_step
    iapply Hk
    isplitl [H4]
    · iexists _; isplitr; · ipureintro; exact harg7.read_unread _
      iexact H4
    isplitl [H8]; · iexists _; iexact H8
    isplitl [HS]
    · iexists _; isplitr; · ipureintro; exact harg9.read_unread _
      iexact HS
    iexact HT

end Cert.KernelIdeal.Frm

end
-- ==== Proof.FrameRunCIdeal.lean ====
/-
  The body at slot 13 of a tile. It loads the threshold block x1, the decay row x2, the amplitude row x3 and the
  scratch xs0 (the tile's spike), and stores x1 * x2 + xs0 * x3 (the rows broadcast down the 128 rows) into the
  output block. The four inputs are handed back as found.
-/
import proofs.«427882_j47579647705427_3_alg».proof.Proof.FrameRunBIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole) (hc0 : ¬cond0_0 i) (hc1 : ¬cond0_1 i) (hc2 : cond0_2 i)
    (x1 : Vec F S128x4096 .f32) (x2 : Vec F S1x4096 .f32) (x3 : Vec F S1x4096 .f32) (xs0 : Vec F S128x4096 .f32) :
    { L5 : List (View.Piece (Elt F) S1x128x4096 .f32) //
      ∀ (E : Set ℕ) (K : PUnit → sProp 𝕄),
        iprop(owns (c : Thread nD τ) arg4 fullShare x1 ∗ owns (c : Thread nD τ) arg5 fullShare x2 ∗ owns (c : Thread nD τ) arg6 fullShare x3 ∗ (∃ d, owns (c : Thread nD τ) arg8 fullShare d) ∗ owns (c : Thread nD τ) arg9 fullShare xs0
            ∗ (iprop(owns (c : Thread nD τ) arg4 fullShare x1 ∗ owns (c : Thread nD τ) arg5 fullShare x2 ∗ owns (c : Thread nD τ) arg6 fullShare x3 ∗ (∃ f, arg8.view.loc (c : Thread nD τ) ↦[arg8.view.set]{fullShare} arg8.view.writes (Elt F) f L5) ∗ owns (c : Thread nD τ) arg9 fullShare xs0) -∗ K ⟨⟩))
          ⊢ wp frame (wpE (defs₀ (F := F)) Variants.none c none) E (cc0__alif_kernel i tbM0_0 htbM0_0 arg3 harg3 arg4 harg4 arg5 harg5 arg6 harg6 arg7 harg7 arg8 harg8 arg9 harg9) K } := by
  refine ⟨?_, fun E K => ?run⟩
  case run =>
    simp only [cc0__alif_kernel_eq_skeleton]; unfold cc0__alif_kernel_skel
    unfold owns
    iintro ⟨⟨%f1, %hf1, H1⟩, ⟨%f2, %hf2, H2⟩, ⟨%f3, %hf3, H3⟩, ⟨%d8, %f8, -, H8⟩, ⟨%fs, %hfs, HS⟩, Hk⟩
    obtain rfl := harg4.eq_unread hf1; obtain rfl := harg5.eq_unread hf2; obtain rfl := harg6.eq_unread hf3; obtain rfl := harg9.eq_unread hfs
    sl_exec (disch := first | exact hc0 | exact hc1 | exact hc2)
    sl_step
    iapply Hk
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H8]; · iexists _; iexact H8
    iexists _; isplitr; · ipureintro; exact harg9.read_unread _
    iexact HS

end Cert.KernelIdeal.Frm

end
-- ==== Proof.FrameDataIdeal.lean ====
/-
  What the kernel leaves, point by point, and the run of the whole launch.

  The grid is 8 tiles of the 32768 columns by 14 slots, the slot the fast axis: point t is tile t / 14, slot t % 14.
  At slot 0 the body computes the tile's spike, keeps it in the scratch and writes it as output page 0; at slots
  1 to 12 it writes either the kept spike or one page of the buffer, as the slot's table word says; at slot 13 it
  writes the decayed threshold. So the scratch after point t is what slot 0 of t's tile left, and the output block
  of point t is written back at once (every point writes its own page). The invariant between points holds the
  scratch at exactly those contents, next to the read-only half of the table.
-/
import proofs.«427882_j47579647705427_3_alg».proof.Proof.FrameRunCIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch's stores leave -/

section Pieces
variable (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole)

theorem cover0_A_5 (hc0 : cond0_0 i) (hc1 : ¬cond0_1 i) (hc2 : ¬cond0_2 i) (x0 x1 : Vec F S128x4096 .f32) (y : S1x128x4096.Idx) :
    ∃ pc ∈ (kernelRun0_A c i arg3 harg3 arg4 harg4 arg5 harg5 arg6 harg6 arg7 harg7 arg8 harg8 arg9 harg9 hc0 hc1 hc2 x0 x1).1, y ∈ pc.1.set :=
  View.cover_of_tiledL (kernelRun0_A c i arg3 harg3 arg4 harg4 arg5 harg5 arg6 harg6 arg7 harg7 arg8 harg8 arg9 harg9 hc0 hc1 hc2 x0 x1).1 S1x128x4096.size (by sl_kernel_rfl) y

/-- The output block after slot 0: the one store's piece read back. -/
def out0_A_5 (hc0 : cond0_0 i) (hc1 : ¬cond0_1 i) (hc2 : ¬cond0_2 i) (x0 x1 : Vec F S128x4096 .f32) : Vec F S1x128x4096 .f32 :=
  VO0_5.read (Elt F) (VO0_5.writes (Elt F) VO0_5.junk (kernelRun0_A c i arg3 harg3 arg4 harg4 arg5 harg5 arg6 harg6 arg7 harg7 arg8 harg8 arg9 harg9 hc0 hc1 hc2 x0 x1).1)

theorem scover0_A_0 (hc0 : cond0_0 i) (hc1 : ¬cond0_1 i) (hc2 : ¬cond0_2 i) (x0 x1 : Vec F S128x4096 .f32) (y : S128x4096.Idx) :
    ∃ pc ∈ (kernelRun0_A c i arg3 harg3 arg4 harg4 arg5 harg5 arg6 harg6 arg7 harg7 arg8 harg8 arg9 harg9 hc0 hc1 hc2 x0 x1).2.1, y ∈ pc.1.set :=
  View.cover_of_tiledL (kernelRun0_A c i arg3 harg3 arg4 harg4 arg5 harg5 arg6 harg6 arg7 harg7 arg8 harg8 arg9 harg9 hc0 hc1 hc2 x0 x1).2.1 S128x4096.size (by sl_kernel_rfl) y

/-- The scratch after slot 0: the tile's spike, as the store's piece read back. -/
def sout0_A_0 (hc0 : cond0_0 i) (hc1 : ¬cond0_1 i) (hc2 : ¬cond0_2 i) (x0 x1 : Vec F S128x4096 .f32) : Vec F S128x4096 .f32 :=
  VS0_0.read (Elt F) (VS0_0.writes (Elt F) VS0_0.junk (kernelRun0_A c i arg3 harg3 arg4 harg4 arg5 harg5 arg6 harg6 arg7 harg7 arg8 harg8 arg9 harg9 hc0 hc1 hc2 x0 x1).2.1)

theorem cover0_B_5 (hc0 : ¬cond0_0 i) (hc1 : cond0_1 i) (hc2 : ¬cond0_2 i) (x4 : Vec F S1x128x4096 .f32) (xs0 : Vec F S128x4096 .f32) (xt0 : TbBuf0 (F := F) c tbM0_0) (y : S1x128x4096.Idx) :
    ∃ pc ∈ (kernelRun0_B c i arg3 harg3 arg4 harg4 arg5 harg5 arg6 harg6 arg7 harg7 arg8 harg8 arg9 harg9 hc0 hc1 hc2 x4 xs0 xt0).1, y ∈ pc.1.set :=
  View.cover_of_tiledL (kernelRun0_B c i arg3 harg3 arg4 harg4 arg5 harg5 arg6 harg6 arg7 harg7 arg8 harg8 arg9 harg9 hc0 hc1 hc2 x4 xs0 xt0).1 S1x128x4096.size (by sl_kernel_rfl) y

/-- The output block after a slot 1..12. -/
def out0_B_5 (hc0 : ¬cond0_0 i) (hc1 : cond0_1 i) (hc2 : ¬cond0_2 i) (x4 : Vec F S1x128x4096 .f32) (xs0 : Vec F S128x4096 .f32) (xt0 : TbBuf0 (F := F) c tbM0_0) : Vec F S1x128x4096 .f32 :=
  VO0_5.read (Elt F) (VO0_5.writes (Elt F) VO0_5.junk (kernelRun0_B c i arg3 harg3 arg4 harg4 arg5 harg5 arg6 harg6 arg7 harg7 arg8 harg8 arg9 harg9 hc0 hc1 hc2 x4 xs0 xt0).1)

theorem cover0_C_5 (hc0 : ¬cond0_0 i) (hc1 : ¬cond0_1 i) (hc2 : cond0_2 i) (x1 : Vec F S128x4096 .f32) (x2 x3 : Vec F S1x4096 .f32) (xs0 : Vec F S128x4096 .f32) (y : S1x128x4096.Idx) :
    ∃ pc ∈ (kernelRun0_C c i arg3 harg3 arg4 harg4 arg5 harg5 arg6 harg6 arg7 harg7 arg8 harg8 arg9 harg9 hc0 hc1 hc2 x1 x2 x3 xs0).1, y ∈ pc.1.set :=
  View.cover_of_tiledL (kernelRun0_C c i arg3 harg3 arg4 harg4 arg5 harg5 arg6 harg6 arg7 harg7 arg8 harg8 arg9 harg9 hc0 hc1 hc2 x1 x2 x3 xs0).1 S1x128x4096.size (by sl_kernel_rfl) y

/-- The output block after slot 13. -/
def out0_C_5 (hc0 : ¬cond0_0 i) (hc1 : ¬cond0_1 i) (hc2 : cond0_2 i) (x1 : Vec F S128x4096 .f32) (x2 x3 : Vec F S1x4096 .f32) (xs0 : Vec F S128x4096 .f32) : Vec F S1x128x4096 .f32 :=
  VO0_5.read (Elt F) (VO0_5.writes (Elt F) VO0_5.junk (kernelRun0_C c i arg3 harg3 arg4 harg4 arg5 harg5 arg6 harg6 arg7 harg7 arg8 harg8 arg9 harg9 hc0 hc1 hc2 x1 x2 x3 xs0).1)

end Pieces

/-! ## What the output block and the scratch hold after each point -/

/-- After a point at slot 0: (output block, scratch). -/
def pairA (hO : Ok m) (c : Dev nD) (t : Fin (cfgM m hO).N) (h0 : t.val % 14 = 0) : Vec F S1x128x4096 .f32 × Vec F S128x4096 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t),
   sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t))

/-- After a point at a slot 1..12, the scratch holding `xs` before it: the scratch is left as it was. -/
def pairB (hO : Ok m) (c : Dev nD) (t : Fin (cfgM m hO).N) (h1 : 1 ≤ t.val % 14) (h12 : t.val % 14 ≤ 12) (xs : Vec F S128x4096 .f32) : Vec F S1x128x4096 .f32 × Vec F S128x4096 .f32 :=
  (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) ((hcond0_1 (adm m hO) t).mpr ⟨h1, h12⟩) (fun h => by have := (hcond0_2 (adm m hO) t).mp h; omega) (iblk m hO c 4 t) xs (tbl m 0), xs)

/-- After a point at slot 13, the scratch holding `xs` before it. -/
def pairC (hO : Ok m) (c : Dev nD) (t : Fin (cfgM m hO).N) (h2 : t.val % 14 = 13) (xs : Vec F S128x4096 .f32) : Vec F S1x128x4096 .f32 × Vec F S128x4096 .f32 :=
  (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) (fun h => by have := (hcond0_1 (adm m hO) t).mp h; omega) ((hcond0_2 (adm m hO) t).mpr h2) (iblk m hO c 1 t) (iblk m hO c 2 t) (iblk m hO c 3 t) xs, xs)

/-- The output block and the scratch after the point at position `n`, by recursion on `n`: the branch the slot selects,
    run over the scratch the point before left. -/
def outsAt0 (hO : Ok m) (c : Dev nD) : (n : ℕ) → n < (cfgM m hO).N → Vec F S1x128x4096 .f32 × Vec F S128x4096 .f32
  | 0, hn => pairA m hO c ⟨0, hn⟩ (Nat.zero_mod _)
  | n + 1, hn =>
    if h0 : (n + 1) % 14 = 0 then pairA m hO c ⟨n + 1, hn⟩ h0
    else if h2 : (n + 1) % 14 = 13 then pairC m hO c ⟨n + 1, hn⟩ h2 (outsAt0 hO c n (Nat.lt_of_succ_lt hn)).2
    else pairB m hO c ⟨n + 1, hn⟩ (by show 1 ≤ (n + 1) % 14; omega) (by show (n + 1) % 14 ≤ 12; omega) (outsAt0 hO c n (Nat.lt_of_succ_lt hn)).2

theorem outsAt0_A (hO : Ok m) (c : Dev nD) (t : Fin (cfgM m hO).N) (h0 : t.val % 14 = 0) :
    outsAt0 m hO c t.val t.isLt = pairA m hO c t h0 := by
  obtain ⟨n, hn⟩ := t
  cases n with
  | zero => rfl
  | succ n => exact dif_pos h0

theorem outsAt0_B (hO : Ok m) (c : Dev nD) (t : Fin (cfgM m hO).N) (h1 : 1 ≤ t.val % 14) (h12 : t.val % 14 ≤ 12) :
    outsAt0 m hO c t.val t.isLt = pairB m hO c t h1 h12 (outsAt0 m hO c (t.val - 1) (Nat.lt_of_le_of_lt (Nat.sub_le _ _) t.isLt)).2 := by
  obtain ⟨n, hn⟩ := t
  cases n with
  | zero => exact absurd (show 1 ≤ 0 % 14 from h1) (by decide)
  | succ n =>
    have h1' : 1 ≤ (n + 1) % 14 := h1
    have h12' : (n + 1) % 14 ≤ 12 := h12
    exact (dif_neg (by omega)).trans (dif_neg (by omega))

theorem outsAt0_C (hO : Ok m) (c : Dev nD) (t : Fin (cfgM m hO).N) (h2 : t.val % 14 = 13) :
    outsAt0 m hO c t.val t.isLt = pairC m hO c t h2 (outsAt0 m hO c (t.val - 1) (Nat.lt_of_le_of_lt (Nat.sub_le _ _) t.isLt)).2 := by
  obtain ⟨n, hn⟩ := t
  cases n with
  | zero => exact absurd (show 0 % 14 = 13 from h2) (by decide)
  | succ n =>
    have h2' : (n + 1) % 14 = 13 := h2
    exact (dif_neg (by omega)).trans (dif_pos h2)

/-! ## The invariant between points -/

/-- Before position `n`: at the start the launch's own invariant and the table's half; afterwards the scratch at what
    the point before left, the generator register at some state, and the table's half. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM0_0 fullShare ((outsAt0 m hO c n hn).2) ∗ (∃ r, prngReg c r)) ∗ Pipeline.ΦT pre0 (tbl m) c)

theorem PhiS_zero (hO : Ok m) (c : Dev nD) (n : ℕ) (h : n ≤ (cfgM m hO).N) (hz : n = 0) :
    PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(owns (c : Thread nD τ) scM0_0 fullShare ((outsAt0 m hO c n hn).2) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(owns (c : Thread nD τ) scM0_0 fullShare ((outsAt0 m hO c (n - 1) (by omega)).2) ∗ (∃ r, prngReg c r)) ∗ Pipeline.ΦT pre0 (tbl m) c) := by
  cases n with
  | zero => exact absurd rfl hz
  | succ n => rfl

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; simp only [Fin.coe_castSucc]

theorem after0_0 (hO : Ok m) (c : Dev nD) (t : Fin (cfgM m hO).N) : (dats m hO 0 c).after 0 t = iblk m hO c 0 t := by dsimp only [dats]; rfl
theorem after0_1 (hO : Ok m) (c : Dev nD) (t : Fin (cfgM m hO).N) : (dats m hO 0 c).after 1 t = iblk m hO c 1 t := by dsimp only [dats]; rfl
theorem after0_2 (hO : Ok m) (c : Dev nD) (t : Fin (cfgM m hO).N) : (dats m hO 0 c).after 2 t = iblk m hO c 2 t := by dsimp only [dats]; rfl
theorem after0_3 (hO : Ok m) (c : Dev nD) (t : Fin (cfgM m hO).N) : (dats m hO 0 c).after 3 t = iblk m hO c 3 t := by dsimp only [dats]; rfl
theorem after0_4 (hO : Ok m) (c : Dev nD) (t : Fin (cfgM m hO).N) : (dats m hO 0 c).after 4 t = iblk m hO c 4 t := by dsimp only [dats]; rfl
theorem after0_5 (hO : Ok m) (c : Dev nD) (t : Fin (cfgM m hO).N) : (dats m hO 0 c).after 5 t = (outsAt0 m hO c t.val t.isLt).1 := by dsimp only [dats]; rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

theorem leaves_live (hO : Ok m) (c : Dev nD) (w : Fin (cfgM m hO).W) (t : Fin (cfgM m hO).N) :
    (dats m hO 0 c).leavesExact w t = owns (c : Thread nD τ) (((cfgM m hO).win w).stage ((cfgM m hO).slots t w)) fullShare ((dats m hO 0 c).after w t) := by
  unfold Dat.leavesExact; rw [liveAt0 (adm m hO) w t]

set_option maxHeartbeats 4800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ]
  rw [leaves_live m hO c 0 t, leaves_live m hO c 1 t, leaves_live m hO c 2 t, leaves_live m hO c 3 t, leaves_live m hO c 4 t, leaves_live m hO c 5 t,
    after0_0, after0_1, after0_2, after0_3, after0_4, after0_5]
  have hN : t.val < 112 := lt_of_lt_of_eq t.isLt (show (cfgM m hO).N = 112 from N_0)
  by_cases h0 : t.val % 14 = 0
  · rw [outsAt0_A m hO c t h0]
    unfold pairA; dsimp only
    unfold out0_A_5 sout0_A_0
    by_cases hz : t.val = 0
    · rw [PhiS_castSucc m hO c t, PhiS_zero m hO c _ _ hz, PhiA0_eq]
      iintro ⟨⟨⟨⟨%ds, HS⟩, Hg⟩, HT⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t)).2.2 Set.univ _)
      isplitl [H0]; · iexact H0
      isplitl [H1]; · iexact H1
      isplitl [H5]; · iexists _; iexact H5
      isplitl [HS]; · iexists _; iexact HS
      iintro ⟨H0, H1, ⟨%e5, H5⟩, ⟨%es, HS⟩⟩
      isplitl [HS Hg HT]
      · isplitl [HS Hg]
        · isplitl [HS]
          · unfold owns; iexists _; isplitr
            swap; · iexact HS
            ipureintro; exact View.read_writes_of_cover _ _ _ _ _ (scover0_A_0 c _ _ _ _ _ _ _ _ _ _ _ _ _ _ _ _ _ _ _ _)
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m hO c t, PhiS_pos m hO c _ _ hz]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t)).2.2 Set.univ _)
      isplitl [H0]; · iexact H0
      isplitl [H1]; · iexact H1
      isplitl [H5]; · iexists _; iexact H5
      isplitl [HS]; · iexists _; iexact HS
      iintro ⟨H0, H1, ⟨%e5, H5⟩, ⟨%es, HS⟩⟩
      isplitl [HS Hg HT]
      · isplitl [HS Hg]
        · isplitl [HS]
          · unfold owns; iexists _; isplitr
            swap; · iexact HS
            ipureintro; exact View.read_writes_of_cover _ _ _ _ _ (scover0_A_0 c _ _ _ _ _ _ _ _ _ _ _ _ _ _ _ _ _ _ _ _)
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
  · have hz : t.val ≠ 0 := fun e => h0 (by rw [e])
    by_cases h2 : t.val % 14 = 13
    · rw [outsAt0_C m hO c t h2]
      unfold pairC; dsimp only
      unfold out0_C_5
      rw [PhiS_castSucc m hO c t, PhiS_pos m hO c _ _ hz]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) (fun h => by have := (hcond0_1 (adm m hO) t).mp h; omega) ((hcond0_2 (adm m hO) t).mpr h2) (iblk m hO c 1 t) (iblk m hO c 2 t) (iblk m hO c 3 t) _).2 Set.univ _)
      isplitl [H1]; · iexact H1
      isplitl [H2]; · iexact H2
      isplitl [H3]; · iexact H3
      isplitl [H5]; · iexists _; iexact H5
      isplitl [HS]; · iexact HS
      iintro ⟨H1, H2, H3, ⟨%e5, H5⟩, HS⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _)
    · have h1 : 1 ≤ t.val % 14 := by omega
      have h12 : t.val % 14 ≤ 12 := by omega
      rw [outsAt0_B m hO c t h1 h12]
      unfold pairB; dsimp only
      unfold out0_B_5
      rw [PhiS_castSucc m hO c t, PhiS_pos m hO c _ _ hz]
      rw [PhiT0_eq m c]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) ((hcond0_1 (adm m hO) t).mpr ⟨h1, h12⟩) (fun h => by have := (hcond0_2 (adm m hO) t).mp h; omega) (iblk m hO c 4 t) _ (tbl m 0)).2 Set.univ _)
      isplitl [H4]; · iexact H4
      isplitl [H5]; · iexists _; iexact H5
      isplitl [HS]; · iexact HS
      isplitl [HT]; · iexact HT
      iintro ⟨H4, ⟨%e5, H5⟩, HS, HT⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _)

theorem body_obligation (hO : Ok m) (c : Dev nD) : BodyObligation (dats (F := F) m hO 0 c) (defs₀ (F := F)) Variants.none () Set.univ := fun t => by
  rw [bigSep_W0, bigSep_W0]
  exact sound_body m hO c t

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl,
    PhiS_pos m hO c _ _ (by rw [Fin.val_last]; have : (cfgM m hO).N = 112 := N_0; omega), PhiA0_eq]
  iintro ⟨⟨HS, Hg⟩, -⟩
  isplitl [HS]
  · iexists _; iexact HS
  iexact Hg

/-! ## The run and the frame -/

set_option backward.isDefEq.respectTransparency.types false in
theorem run_main (hO : Ok m) : θ_run defs (onTc (τ := τ) (main (F := F))) (s₀ m ρ) (Pipeline.FramePost (Pipeline.pin pcfgs fun _ => adm m hO) (dats m hO) 0 (V m)) :=
  Pipeline.θ_run_frameP_track pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The program runs to the end, faults nowhere and leaves its seven arguments as they were, for any table that
    passes the launch's side condition. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

end Cert.KernelIdeal.Frm

end
-- ==== Proof.TableIdeal.lean ====
/-
  The table of page numbers the kernel's buffer window is indexed by, read off the host operations before the
  launch.

  The host joins the eight delays and the four cross-area delays, clamps every entry into [0, 15] (the signed
  maximum with 0, then the signed minimum with 15) and frames the twelve results by a leading 0 and a copy of
  the last: fourteen words, one per slot. Here: the word at each slot as a function of the two delay vectors
  (`word`), the table as one term of the argument arrays (`tbl_eq`) and read at a slot (`tbl_apply`), the word
  as a natural number (the page of the pushed buffer the delay names) and its range, the buffer window's page at
  a slot (the word less one, clamped at zero: at most 14), and from the range the launch's side condition: every
  page's block lies inside the sixteen-page array.
-/
import proofs.«427882_j47579647705427_3_alg».proof.Proof.FrameKitIdeal
import proofs.«427882_j47579647705427_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.Lib.WordArith

set_option maxRecDepth 16384

noncomputable section

namespace Cert.KernelIdeal.Tbl

open Cert.KernelIdeal Cert.KernelIdeal.Gen Cert.KernelIdeal.Frm
open Idealize.ShloMosaic Idealize.ShloMosaic.TcCoe Idealize.ShloMosaic.Tactic
open Idealize.ShloMosaic.ValueIdx

variable {F : FTy → Type} [FloatOps F]

variable (m : (ℓ : Loc nD τ sig) → Buf (Elt F) ℓ)

/-! ## The table's words as a function of the two delay vectors -/

/-- A delay clamped into [0, 15] as the host computes it: the signed maximum with 0, then the signed minimum
    with 15, each constant the first operand. -/
def clip (d : BitVec 32) : BitVec 32 := IntOp.minsi 15#32 (IntOp.maxsi 0#32 d)

/-- The clamp read signed is the delay's signed reading clamped into [0, 15]. -/
theorem clip_toInt (d : BitVec 32) : (clip d).toInt = min (max d.toInt 0) 15 := by
  have h0 : (0#32 : BitVec 32).toInt = 0 := by decide
  have h15 : (15#32 : BitVec 32).toInt = 15 := by decide
  unfold clip IntOp.minsi IntOp.maxsi
  by_cases h : d.slt 0#32 = true
  · rw [if_pos h]
    have h' : ¬ ((15#32 : BitVec 32).slt 0#32 = true) := by decide
    rw [if_neg h']
    rw [BitVec.slt_iff_toInt_lt, h0] at h
    rw [h0]; omega
  · rw [if_neg h]
    rw [BitVec.slt_iff_toInt_lt, h0] at h
    by_cases h2 : (15#32 : BitVec 32).slt d = true
    · rw [if_pos h2]; rw [BitVec.slt_iff_toInt_lt, h15] at h2; rw [h15]; omega
    · rw [if_neg h2]; rw [BitVec.slt_iff_toInt_lt, h15] at h2; omega

/-- A word whose signed reading is not negative reads unsigned as the same number. -/
theorem toNat_of_toInt_nonneg (w : BitVec 32) (h : 0 ≤ w.toInt) : w.toNat = w.toInt.toNat := by
  have e := BitVec.toInt_eq_toNat_cond w
  have := w.isLt
  split at e <;> omega

/-- The clamp read unsigned is the page the delay names. -/
theorem clip_toNat (d : BitVec 32) : (clip d).toNat = Cert.Spec.page d := by
  have e := clip_toInt d
  rw [toNat_of_toInt_nonneg _ (by rw [e]; omega), e]; rfl

/-- The table's word at slot `s`: 0 at slot 0, the clamped (s-1)-th delay at slots 1 to 12, and at slot 13 the
    clamped last delay once more. -/
def word (dl : IVec S8 32) (dx : IVec S4 32) (s : Fin 14) : BitVec 32 :=
  if h0 : s.val = 0 then 0#32
  else if h12 : s.val ≤ 12 then clip (Cert.Spec.delayAt (fun k => dl (ix1 k)) (fun k => dx (ix1 k)) ⟨s.val - 1, by omega⟩)
  else clip (Cert.Spec.delayAt (fun k => dl (ix1 k)) (fun k => dx (ix1 k)) ⟨11, by omega⟩)

theorem word_toNat (dl : IVec S8 32) (dx : IVec S4 32) (s : Fin 14) (h1 : 1 ≤ s.val) (h12 : s.val ≤ 12) :
    (word dl dx s).toNat = Cert.Spec.page (Cert.Spec.delayAt (fun k => dl (ix1 k)) (fun k => dx (ix1 k)) ⟨s.val - 1, by omega⟩) := by
  unfold word
  rw [dif_neg (by omega), dif_pos h12]
  exact clip_toNat _

theorem word_le (dl : IVec S8 32) (dx : IVec S4 32) (s : Fin 14) : 0 ≤ (word dl dx s).toInt ∧ (word dl dx s).toInt ≤ 15 := by
  unfold word
  split
  · decide
  · split
    · rw [clip_toInt]; omega
    · rw [clip_toInt]; omega

/-- The buffer window's page for a table word in [0, 15]: the word less one, clamped at zero; at most 14. -/
theorem page_index_of (w : BitVec 32) (h0 : 0 ≤ w.toInt) (h15 : w.toInt ≤ 15) :
    (Scalar.maxsi (Scalar.subi w 1#32) 0#32).toNat = w.toNat - 1 ∧ (Scalar.maxsi (Scalar.subi w 1#32) 0#32).toNat ≤ 14 := by
  have hn := toNat_of_toInt_nonneg w h0
  have h1 : (1#32 : BitVec 32).toInt = 1 := by decide
  have hz : (0#32 : BitVec 32).toInt = 0 := by decide
  have hs : (w - 1#32).toInt = w.toInt - 1 := by
    apply WordArith.toInt_sub_of_bounds <;> rw [h1] <;> omega
  unfold Scalar.maxsi Scalar.subi IntOp.maxsi IntOp.subi
  by_cases h : (0#32 : BitVec 32).slt (w - 1#32) = true
  · rw [if_pos h]
    rw [BitVec.slt_iff_toInt_lt, hz, hs] at h
    have hn' := toNat_of_toInt_nonneg (w - 1#32) (by rw [hs]; omega)
    rw [hn', hs]; omega
  · rw [if_neg h]
    rw [BitVec.slt_iff_toInt_lt, hz, hs] at h
    show (0 : Nat) = _ ∧ (0 : Nat) ≤ 14
    omega

theorem page_index (dl : IVec S8 32) (dx : IVec S4 32) (s : Fin 14) :
    (Scalar.maxsi (Scalar.subi (word dl dx s) 1#32) 0#32).toNat = (word dl dx s).toNat - 1
      ∧ (Scalar.maxsi (Scalar.subi (word dl dx s) 1#32) 0#32).toNat ≤ 14 :=
  page_index_of _ (word_le dl dx s).1 (word_le dl dx s).2

/-! ## The table as one term of the argument arrays -/

section Nary3
variable {nD' : Nat} {τ' : Topo} {sig' : RefSig} {Val : EltTy → Type}

/-- A three-operand operation's result with each operand's contents at its own reference, so that the operands'
    own contents can be rewritten in turn. -/
theorem nary3_result {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Nary3

/-- The results of a line of host operations whose last joins three operands. -/
local macro "results3" : tactic =>
  `(tactic| (simp only [StableHlo.after_cons, StableHlo.after_nil]
             repeat (first
               | rw [nary3_result] | rw [StableHlo.nullary_result] | rw [StableHlo.unary_result] | rw [StableHlo.binary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- The twelve delays joined and clamped, as an array: every entry's signed maximum with 0, then signed minimum
    with 15. -/
def clipped (dl : IVec S8 32) (dx : IVec S4 32) : IVec S12 32 :=
  minsi (broadcastInDim S12 ![] bcast_S_S12 (constantI S_ 32 15#32))
    (maxsi (broadcastInDim S12 ![] bcast_S_S12 (constantI S_ 32 0#32))
      (concatenate S12 0 [⟨S8, dl⟩, ⟨S4, dx⟩] concatenates_S8_S4_S12_d0))

/-- The table: a leading 0, the twelve clamped delays, and the last of them once more. -/
def table (dl : IVec S8 32) (dx : IVec S4 32) : IVec S14 32 :=
  concatenate S14 0 [⟨S1, broadcastInDim S1 ![] bcast_S_S1 (constantI S_ 32 0#32)⟩, ⟨S12, clipped dl dx⟩,
    ⟨S1, extractStridedSlice S1 ![11] (clipped dl dx) slices_S12_S1_11⟩] concatenates_S1_S12_S1_S14_d0

theorem tbl_eq : (tbl m 0 : S14.Idx → BitVec 32)
    = table (m ((0 : Dev nD).tc.loc main_arg5)) (m ((0 : Dev nD).tc.loc main_arg6)) := by
  unfold tbl
  show V m 0 main_v6 = _
  dsimp only [V]
  simp only [hostOps0, hostOps0_1, hostOps0_2, List.flatten_cons, List.flatten_nil, List.append_nil, List.cons_append, List.nil_append]
  results3
  rfl

/-! ## The table read at a slot -/

/-- The joined delays at position `k`: the k-th of the twelve. -/
theorem joined_apply (dl : IVec S8 32) (dx : IVec S4 32) (k : Fin 12) :
    concatenate S12 0 [⟨S8, dl⟩, ⟨S4, dx⟩] concatenates_S8_S4_S12_d0 (ix1 k)
      = Cert.Spec.delayAt (fun k => dl (ix1 k)) (fun k => dx (ix1 k)) k := by
  unfold Cert.Spec.delayAt
  by_cases h : k.val < 8
  · rw [dif_pos h]
    exact concatenate_pair_apply_left 0 dl dx concatenates_S8_S4_S12_d0 (ix1 k) rfl (ix1 (⟨k.val, h⟩ : Fin 8))
      (fun b => match b with | ⟨0, _⟩ => rfl)
  · rw [dif_neg h]
    exact concatenate_pair_apply_right 0 dl dx concatenates_S8_S4_S12_d0 (ix1 k) rfl rfl (ix1 (⟨k.val - 8, by omega⟩ : Fin 4))
      (fun b hb => absurd (Subsingleton.elim _ _) hb)
      (by show (k.val - 8) + 8 = k.val; omega)

/-- The clamped delays at position `k`: the k-th delay, clamped. -/
theorem clipped_apply (dl : IVec S8 32) (dx : IVec S4 32) (k : Fin 12) :
    clipped dl dx (ix1 k) = clip (Cert.Spec.delayAt (fun k => dl (ix1 k)) (fun k => dx (ix1 k)) k) := by
  unfold clipped clip
  show IntOp.minsi (broadcastInDim S12 ![] bcast_S_S12 (constantI S_ 32 15#32) (ix1 k))
      (IntOp.maxsi (broadcastInDim S12 ![] bcast_S_S12 (constantI S_ 32 0#32) (ix1 k))
        (concatenate S12 0 [⟨S8, dl⟩, ⟨S4, dx⟩] concatenates_S8_S4_S12_d0 (ix1 k))) = _
  rw [broadcastInDim_scalar_apply, broadcastInDim_scalar_apply, joined_apply]
  rfl

/-- The table at slot `s` is the word of slot `s`. -/
theorem table_apply (dl : IVec S8 32) (dx : IVec S4 32) (s : Fin 14) : table dl dx (ix1 s) = word dl dx s := by
  unfold table word
  by_cases h0 : s.val = 0
  · rw [dif_pos h0]
    have H := concatenate_apply_piece (α := BitVec 32) (t := S14) 0
      [⟨S1, broadcastInDim S1 ![] bcast_S_S1 (constantI S_ 32 0#32)⟩, ⟨S12, clipped dl dx⟩,
        ⟨S1, extractStridedSlice S1 ![11] (clipped dl dx) slices_S12_S1_11⟩]
      concatenates_S1_S12_S1_S14_d0 (ix1 s) 0 (show 0 < 3 from by omega) S1 _ rfl rfl 0 rfl (ix1 (0 : Fin 1))
      (fun b hb => absurd (Subsingleton.elim _ _) hb) (by show 0 + 0 = s.val; omega)
    refine H.trans ?_
    rw [broadcastInDim_scalar_apply]; rfl
  · rw [dif_neg h0]
    by_cases h12 : s.val ≤ 12
    · rw [dif_pos h12]
      have H := concatenate_apply_piece (α := BitVec 32) (t := S14) 0
        [⟨S1, broadcastInDim S1 ![] bcast_S_S1 (constantI S_ 32 0#32)⟩, ⟨S12, clipped dl dx⟩,
        ⟨S1, extractStridedSlice S1 ![11] (clipped dl dx) slices_S12_S1_11⟩]
        concatenates_S1_S12_S1_S14_d0 (ix1 s) 1 (show 1 < 3 from by omega) S12 _ rfl rfl 1 rfl
        (ix1 (⟨s.val - 1, by omega⟩ : Fin 12))
        (fun b hb => absurd (Subsingleton.elim _ _) hb) (by show 1 + (s.val - 1) = s.val; omega)
      refine H.trans ?_
      exact clipped_apply dl dx _
    · rw [dif_neg h12]
      have H := concatenate_apply_piece (α := BitVec 32) (t := S14) 0
        [⟨S1, broadcastInDim S1 ![] bcast_S_S1 (constantI S_ 32 0#32)⟩, ⟨S12, clipped dl dx⟩,
        ⟨S1, extractStridedSlice S1 ![11] (clipped dl dx) slices_S12_S1_11⟩]
        concatenates_S1_S12_S1_S14_d0 (ix1 s) 2 (show 2 < 3 from by omega) S1 _ rfl rfl 13 rfl (ix1 (0 : Fin 1))
        (fun b hb => absurd (Subsingleton.elim _ _) hb) (by show 13 + 0 = s.val; have := s.isLt; omega)
      refine H.trans ?_
      refine (extractStridedSlice_apply ![11] (clipped dl dx) slices_S12_S1_11 (ix1 (0 : Fin 1)) (ix1 (⟨11, by omega⟩ : Fin 12))
        (fun a => match a with | ⟨0, _⟩ => rfl)).trans ?_
      exact clipped_apply dl dx _

/-- The table's word at slot `s` when the launch is entered, over the two delay vectors as the launch finds them. -/
theorem tbl_apply (s : Fin 14) :
    (tbl m 0 : S14.Idx → BitVec 32) (ix1 s)
      = word (m ((0 : Dev nD).tc.loc main_arg5)) (m ((0 : Dev nD).tc.loc main_arg6)) s := by
  rw [tbl_eq]; exact table_apply _ _ s

/-! ## The launch's side condition -/

/-- A table's word under the one-element rectangle at offset `n`: the table at index `n`. -/
theorem at_eq (pf : pre0.Contents (Elt F)) (n : Nat) (hn : n < 14) (h : ∀ a, (![n] : Fin 1 → Nat) a + S1.size a ≤ S14.size a)
    (h1 : S1.numel = 1) :
    pf.at 0 (Rect.unit (s := S14) ![n] S1.size h) h1 = (pf 0 : S14.Idx → BitVec 32) (ix1 (⟨n, hn⟩ : Fin 14)) := by
  show (pf 0 : S14.Idx → BitVec 32) _ = _
  refine congrArg (pf 0 : S14.Idx → BitVec 32) (funext fun a => match a with | ⟨0, _⟩ => Fin.ext ?_)
  show n + 1 * 0 = n; omega

/-- Whatever the table holds, if every word of it reads signed in [0, 15] then at every grid point the buffer
    window's page (the word less one, clamped at zero) is at most 14 and its block lies inside the sixteen-page
    array. -/
theorem ok0_of_le (pf : pre0.Contents (Elt F))
    (hpf : ∀ j : S14.Idx, 0 ≤ ((pf 0 : S14.Idx → BitVec 32) j).toInt ∧ ((pf 0 : S14.Idx → BitVec 32) j).toInt ≤ 15) : ok0 pf := by
  unfold ok0
  intro i
  refine ⟨fun a => ?_, Or.inl rfl⟩
  have h8 : (i 0).val < 8 := (i 0).isLt
  match a with
  | ⟨0, _⟩ =>
    have hw := hpf ((Rect.unit (s := S14) ![(Scalar.indexCast (BitVec.ofNat 32 (i 1).val)).toNat] S1.size (k0_off1_inb i)).emb
      (Shape.Idx.first (numel1_S1.symm ▸ Nat.one_pos)))
    have hp := (page_index_of _ hw.1 hw.2).2
    show ((Scalar.maxsi (Scalar.subi ((pf 0 : S14.Idx → BitVec 32)
      ((Rect.unit (s := S14) ![(Scalar.indexCast (BitVec.ofNat 32 (i 1).val)).toNat] S1.size (k0_off1_inb i)).emb
        (Shape.Idx.first (numel1_S1.symm ▸ Nat.one_pos)))) 1#32) 0#32).toNat + 1) * 1 ≤ 16
    omega
  | ⟨1, _⟩ => show ((0#32 : BitVec 32).toNat + 1) * 128 ≤ 128; decide
  | ⟨2, _⟩ =>
    show ((BitVec.ofNat 32 (i 0).val).toNat + 1) * 4096 ≤ 32768
    rw [BitVec.toNat_ofNat, Nat.mod_eq_of_lt (by omega)]; omega

/-- The launch's side condition holds of the table the host computes, whatever the delays. -/
theorem ok : Ok m :=
  ok0_of_le (tbl m) fun j => by
    obtain ⟨s, rfl⟩ : ∃ s : Fin 14, j = ix1 s := ⟨j 0, eq_ix1 j⟩
    show 0 ≤ ((tbl m 0 : S14.Idx → BitVec 32) (ix1 s)).toInt ∧ ((tbl m 0 : S14.Idx → BitVec 32) (ix1 s)).toInt ≤ 15
    rw [tbl_apply]; exact word_le _ _ s

end Cert.KernelIdeal.Tbl

end
-- ==== Proof.KvPieces.lean ====
/-
  Each branch's stores, read back, are the skeleton's payloads of the values the branch loaded: at slot 0 the spike
  (into the output block recast to one page, and into the scratch), at slots 1..12 the select between the kept spike
  and the buffer page on the slot's table word, at slot 13 the decayed threshold.
-/
import proofs.«427882_j47579647705427_3_alg».proof.Proof.FrameDataIdeal
import Idealize.ShloMosaic.Lib.ValueIdx
import Idealize.ShloMosaic.Lib.Pipeline.Value

set_option maxRecDepth 16384

noncomputable section

namespace Cert.KernelIdeal.KVal

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable {F : FTy → Type} [FloatOps F]

section
variable (c : Dev nD) (i : grid0.Coords) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x128x4096 .f32) (harg7 : arg7.IsWhole) (arg8 : Memref sig .tc .vmem S1x128x4096 .f32) (harg8 : arg8.IsWhole) (arg9 : Memref sig .tc .vmem S128x4096 .f32) (harg9 : arg9.IsWhole)

/-- The table word the branch of slots 1..12 reads: the table's entry at the point's slot. -/
def slotWord (hc1 : cond0_1 i) (xt0 : TbBuf0 (F := F) c tbM0_0) : Elt F .i32 :=
  tbM0_0.view.readAt (Elt F) (Rect.unit (s := S14) (k0_off2 i) S1.size (k0_off2_inb i hc1)).toLoadRect xt0 (Shape.Idx.first (numel1_S1.symm ▸ Nat.one_pos))

/-- The zero offsets of a whole-block access of rank 2, as the body spells them. -/
private theorem zero2 : (![0, 0] : Fin 2 → Nat) = fun _ => 0 := funext fun a => by fin_cases a <;> rfl
/-- The zero offsets of a whole-block access of rank 3. -/
private theorem zero3 : (![0, 0, 0] : Fin 3 → Nat) = fun _ => 0 := funext fun a => by fin_cases a <;> rfl

theorem out0_A_5_eq (hc0 : cond0_0 i) (hc1 : ¬cond0_1 i) (hc2 : ¬cond0_2 i) (x0 x1 : Vec F S128x4096 .f32) :
    out0_A_5 c i arg3 harg3 arg4 harg4 arg5 harg5 arg6 harg6 arg7 harg7 arg8 harg8 arg9 harg9 hc0 hc1 hc2 x0 x1 = k0_pay3 x0 x1 := by
  unfold out0_A_5
  rw [View.read_writes_eq_canon _ _ _ (cover0_A_5 c i arg3 harg3 arg4 harg4 arg5 harg5 arg6 harg6 arg7 harg7 arg8 harg8 arg9 harg9 hc0 hc1 hc2 x0 x1)]
  unfold kernelRun0_A
  dsimp only
  sl_unfold_words
  rw [View.canon_unit_zero (S := S1x128x4096) zero3]
  simp only [View.readAt_eq_ld, harg3.read_unread, harg4.read_unread, View.ld_unit_zero (S := S128x4096) zero2]

theorem sout0_A_0_eq (hc0 : cond0_0 i) (hc1 : ¬cond0_1 i) (hc2 : ¬cond0_2 i) (x0 x1 : Vec F S128x4096 .f32) :
    sout0_A_0 c i arg3 harg3 arg4 harg4 arg5 harg5 arg6 harg6 arg7 harg7 arg8 harg8 arg9 harg9 hc0 hc1 hc2 x0 x1 = k0_pay2 x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1)]
  unfold kernelRun0_A
  dsimp only
  sl_unfold_words
  rw [View.canon_unit_zero (S := S128x4096) zero2]
  simp only [View.readAt_eq_ld, harg3.read_unread, harg4.read_unread, View.ld_unit_zero (S := S128x4096) zero2]

/-- The one store of slots 1..12 covers the output block; its payload is the select on the word read, over the page
    block and the scratch as loaded (both whole loads, which read the contents back). -/
theorem out0_B_5_eq (hc0 : ¬cond0_0 i) (hc1 : cond0_1 i) (hc2 : ¬cond0_2 i) (x4 : Vec F S1x128x4096 .f32) (xs0 : Vec F S128x4096 .f32) (xt0 : TbBuf0 (F := F) c tbM0_0) :
    out0_B_5 c i arg3 harg3 arg4 harg4 arg5 harg5 arg6 harg6 arg7 harg7 arg8 harg8 arg9 harg9 hc0 hc1 hc2 x4 xs0 xt0 = k0_pay4 (slotWord c i hc1 xt0) x4 xs0 := by
  unfold out0_B_5
  rw [View.read_writes_eq_canon _ _ _ (cover0_B_5 c i arg3 harg3 arg4 harg4 arg5 harg5 arg6 harg6 arg7 harg7 arg8 harg8 arg9 harg9 hc0 hc1 hc2 x4 xs0 xt0)]
  unfold kernelRun0_B
  dsimp only
  sl_unfold_run_names
  rw [View.canon_unit_zero (S := S1x128x4096) zero3]
  have e7 : View.readAt (Elt F) arg7.view (Rect.unit (s := S1x128x4096) ![0, 0, 0] S1x128x4096.size inb_S1x128x4096_S1x128x4096_0_0_0).toLoadRect (harg7.unread x4) = x4 := by
    simp only [View.readAt_eq_ld, harg7.read_unread, View.ld_unit_zero (S := S1x128x4096) zero3]
  have e9 : View.readAt (Elt F) arg9.view (Rect.unit (s := S128x4096) ![0, 0] S128x4096.size inb_S128x4096_S128x4096_0_0).toLoadRect (harg9.unread xs0) = xs0 := by
    simp only [View.readAt_eq_ld, harg9.read_unread, View.ld_unit_zero (S := S128x4096) zero2]
  exact congrArg₂ (k0_pay4 (slotWord c i hc1 xt0)) e7 e9

theorem out0_C_5_eq (hc0 : ¬cond0_0 i) (hc1 : ¬cond0_1 i) (hc2 : cond0_2 i) (x1 : Vec F S128x4096 .f32) (x2 x3 : Vec F S1x4096 .f32) (xs0 : Vec F S128x4096 .f32) :
    out0_C_5 c i arg3 harg3 arg4 harg4 arg5 harg5 arg6 harg6 arg7 harg7 arg8 harg8 arg9 harg9 hc0 hc1 hc2 x1 x2 x3 xs0 = k0_pay5 x1 x2 x3 xs0 := by
  unfold out0_C_5
  rw [View.read_writes_eq_canon _ _ _ (cover0_C_5 c i arg3 harg3 arg4 harg4 arg5 harg5 arg6 harg6 arg7 harg7 arg8 harg8 arg9 harg9 hc0 hc1 hc2 x1 x2 x3 xs0)]
  unfold kernelRun0_C
  dsimp only
  sl_unfold_words
  rw [View.canon_unit_zero (S := S1x128x4096) zero3]
  simp only [View.readAt_eq_ld, harg4.read_unread, harg5.read_unread, harg6.read_unread, harg9.read_unread, View.ld_unit_zero (S := S128x4096) zero2, View.ld_unit_zero (S := S1x4096) zero2]

end

/-- At every grid point the offset of the word read is the point's slot (the grid's fast coordinate). -/
theorem slotWord_off (a : (pcfg0 (F := F)).Adm) : ∀ t : Fin (cfg0 a).N, k0_off2 (grid0.coords t) = ![t.val % 14] :=
  (by decide +kernel : ∀ t : Fin grid0.N, k0_off2 (grid0.coords t) = ![t.val % 14])

/-- At a grid point of slot s (1 ≤ s ≤ 12) the word read is the table's entry s: the load goes through the one-word
    rectangle at offset s of the whole table, whose one index is s. -/
theorem slotWord_eq (m : (ℓ : Loc nD τ sig) → Buf (Elt F) ℓ) (hO : Ok m) (c : Dev nD) (t : Fin (cfgM m hO).N) (hc1 : cond0_1 (grid0.coords t)) :
    slotWord c (grid0.coords t) hc1 (tbl m 0) = (tbl m 0) (ix1 (⟨t.val % 14, Nat.mod_lt _ (by decide)⟩ : Fin 14)) := by
  unfold slotWord
  show (tbl m 0) ((Rect.unit (s := S14) (k0_off2 (grid0.coords t)) S1.size (k0_off2_inb (grid0.coords t) hc1)).emb (Shape.Idx.first (numel1_S1.symm ▸ Nat.one_pos))) = _
  refine congrArg (tbl m 0) ?_
  funext d
  apply Fin.ext
  match d with
  | ⟨0, _⟩ =>
    show k0_off2 (grid0.coords t) 0 + 1 * 0 = t.val % 14
    rw [slotWord_off (adm m hO) t]; rfl

end Cert.KernelIdeal.KVal
end
-- ==== Proof.KvBlocks.lean ====
/-
  The windows' blocks and the body's payloads, read at an index, at the ideal instance.

  Point t is tile t / 14, slot t % 14. The membrane and threshold windows' blocks are columns [4096·tile, 4096·(tile+1))
  of their arrays; the decay and amplitude windows' blocks the same columns of the rows the host reshaped from the two
  vectors; the buffer window's block is the same columns of page max(w - 1, 0), w the table's word at the slot. The spike
  payload at (b, q) is the spike of the two loaded values there; the select payload is the kept spike where the word is 0
  and the page otherwise; the threshold payload is x1·x2 + xs·x3 with the rows broadcast.
-/
import proofs.«427882_j47579647705427_3_alg».proof.Proof.FrameDataIdeal
import proofs.«427882_j47579647705427_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

/-- The array column that column q of tile t's blocks is. -/
def tileCol (n : ℕ) (hn : n < 112) (q : Fin 4096) : Fin 32768 := ⟨n / 14 * 4096 + q.val, by have := q.isLt; omega⟩

section Blocks
variable (m : (ℓ : Loc nD τ sig) → Buf (Elt Ideal) ℓ) (hO : Ok m) (c : Dev nD) (t : Fin (cfgM m hO).N)

theorem t_lt : t.val < 112 := lt_of_lt_of_eq t.isLt (show (cfgM m hO).N = 112 from N_0)

/-! ### The index maps over the grid: block column = tile, block row 0 -/

theorem idx0 (a : (pcfg0 (F := Ideal)).Adm) : ∀ t : Fin (cfg0 a).N, ((cfg0 a).win 0).index t (0 : Fin 2) = 0 ∧ ((cfg0 a).win 0).index t (1 : Fin 2) = t.val / 14 :=
  (by decide +kernel : ∀ t : Fin grid0.N, cc0_transform_0 (grid0.coords t) (0 : Fin 2) = 0 ∧ cc0_transform_0 (grid0.coords t) (1 : Fin 2) = t.val / 14)
theorem idx1 (a : (pcfg0 (F := Ideal)).Adm) : ∀ t : Fin (cfg0 a).N, ((cfg0 a).win 1).index t (0 : Fin 2) = 0 ∧ ((cfg0 a).win 1).index t (1 : Fin 2) = t.val / 14 :=
  (by decide +kernel : ∀ t : Fin grid0.N, cc0_transform_1 (grid0.coords t) (0 : Fin 2) = 0 ∧ cc0_transform_1 (grid0.coords t) (1 : Fin 2) = t.val / 14)
theorem idx2 (a : (pcfg0 (F := Ideal)).Adm) : ∀ t : Fin (cfg0 a).N, ((cfg0 a).win 2).index t (0 : Fin 2) = 0 ∧ ((cfg0 a).win 2).index t (1 : Fin 2) = t.val / 14 :=
  (by decide +kernel : ∀ t : Fin grid0.N, cc0_transform_2 (grid0.coords t) (0 : Fin 2) = 0 ∧ cc0_transform_2 (grid0.coords t) (1 : Fin 2) = t.val / 14)
theorem idx3 (a : (pcfg0 (F := Ideal)).Adm) : ∀ t : Fin (cfg0 a).N, ((cfg0 a).win 3).index t (0 : Fin 2) = 0 ∧ ((cfg0 a).win 3).index t (1 : Fin 2) = t.val / 14 :=
  (by decide +kernel : ∀ t : Fin grid0.N, cc0_transform_3 (grid0.coords t) (0 : Fin 2) = 0 ∧ cc0_transform_3 (grid0.coords t) (1 : Fin 2) = t.val / 14)

/-- The grid's two coordinates as the buffer window's index map reads them: the tile, and the slot as the table offset. -/
theorem grid_facts : ∀ t : Fin grid0.N, (BitVec.ofNat 32 ((grid0.coords t) 0).val).toNat = t.val / 14 ∧ k0_off1 (grid0.coords t) (0 : Fin 1) = t.val % 14 := by
  decide +kernel

/-- The buffer window's index map: the page is the table's word at the slot, less one, clamped at zero; row block 0; column block the tile. -/
theorem idx4 (a : (pcfg0 (F := Ideal)).Adm) (t : Fin (cfg0 a).N) :
    ((cfg0 a).win 4).index t (0 : Fin 3)
        = (Scalar.maxsi (Scalar.subi ((a.1 0 : S14.Idx → BitVec 32) (ix1 (⟨t.val % 14, Nat.mod_lt _ (by decide)⟩ : Fin 14))) 1#32) 0#32).toNat
      ∧ ((cfg0 a).win 4).index t (1 : Fin 3) = 0 ∧ ((cfg0 a).win 4).index t (2 : Fin 3) = t.val / 14 := by
  have hg := grid_facts t
  refine ⟨?_, rfl, hg.1⟩
  show (Scalar.maxsi (Scalar.subi (a.1.at 0 (Rect.unit (s := S14) (k0_off1 (grid0.coords t)) S1.size (k0_off1_inb (grid0.coords t))) numel1_S1) 1#32) 0#32).toNat = _
  refine congrArg (fun w : BitVec 32 => (Scalar.maxsi (Scalar.subi w 1#32) 0#32).toNat) ?_
  show (a.1 0 : S14.Idx → BitVec 32) _ = _
  refine congrArg (a.1 0 : S14.Idx → BitVec 32) (funext fun ax => match ax with | ⟨0, _⟩ => Fin.ext ?_)
  show k0_off1 (grid0.coords t) (0 : Fin 1) + 1 * 0 = t.val % 14
  rw [hg.2]; omega

/-! ### The two rows the host reshaped from the decay and amplitude vectors -/

theorem V_main_v2 : (V m c main_v2 : S1x32768.Idx → EReal) = shapeCast S1x32768 (m ((c.tc : Thread nD τ).loc main_arg2)) shapeCasts_S32768_S1x32768 := by
  dsimp only [V]
  simp only [hostOps0, hostOps0_1, hostOps0_2, List.flatten_cons, List.flatten_nil, List.append_nil, List.cons_append, List.nil_append]
  after_results
  rfl
theorem V_main_v3 : (V m c main_v3 : S1x32768.Idx → EReal) = shapeCast S1x32768 (m ((c.tc : Thread nD τ).loc main_arg3)) shapeCasts_S32768_S1x32768 := by
  dsimp only [V]
  simp only [hostOps0, hostOps0_1, hostOps0_2, List.flatten_cons, List.flatten_nil, List.append_nil, List.cons_append, List.nil_append]
  after_results
  rfl

/-! ### The blocks -/

theorem iblk0_apply (b : Fin 128) (q : Fin 4096) :
    iblk m hO c 0 t (ix2 b q) = m ((c.tc : Thread nD τ).loc main_arg0) (ix2 b (tileCol t.val (t_lt m hO t) q)) := by
  unfold iblk
  show V m c main_arg0 ((((cfgM m hO).win 0).blk t).view.emb (ix2 b q)) = _
  refine (congrFun (Frm.V_main_arg0 m c) _).trans ?_
  refine congrArg (m ((c.tc : Thread nD τ).loc main_arg0)) ?_
  funext ax
  apply Fin.ext
  match ax with
  | ⟨0, _⟩ =>
    show ((cfgM m hO).win 0).index t (0 : Fin 2) * 128 + 1 * b.val = b.val
    rw [(idx0 (adm m hO) t).1]; omega
  | ⟨1, _⟩ =>
    show ((cfgM m hO).win 0).index t (1 : Fin 2) * 4096 + 1 * q.val = t.val / 14 * 4096 + q.val
    rw [(idx0 (adm m hO) t).2]; omega

theorem iblk1_apply (b : Fin 128) (q : Fin 4096) :
    iblk m hO c 1 t (ix2 b q) = m ((c.tc : Thread nD τ).loc main_arg1) (ix2 b (tileCol t.val (t_lt m hO t) q)) := by
  unfold iblk
  show V m c main_arg1 ((((cfgM m hO).win 1).blk t).view.emb (ix2 b q)) = _
  refine (congrFun (Frm.V_main_arg1 m c) _).trans ?_
  refine congrArg (m ((c.tc : Thread nD τ).loc main_arg1)) ?_
  funext ax
  apply Fin.ext
  match ax with
  | ⟨0, _⟩ =>
    show ((cfgM m hO).win 1).index t (0 : Fin 2) * 128 + 1 * b.val = b.val
    rw [(idx1 (adm m hO) t).1]; omega
  | ⟨1, _⟩ =>
    show ((cfgM m hO).win 1).index t (1 : Fin 2) * 4096 + 1 * q.val = t.val / 14 * 4096 + q.val
    rw [(idx1 (adm m hO) t).2]; omega

theorem iblk2_apply (q : Fin 4096) :
    iblk m hO c 2 t (ix2 (0 : Fin 1) q) = m ((c.tc : Thread nD τ).loc main_arg2) (ix1 (tileCol t.val (t_lt m hO t) q)) := by
  unfold iblk
  show V m c main_v2 ((((cfgM m hO).win 2).blk t).view.emb (ix2 (0 : Fin 1) q)) = _
  have e : (((cfgM m hO).win 2).blk t).view.emb (ix2 (0 : Fin 1) q) = ix2 (0 : Fin 1) (tileCol t.val (t_lt m hO t) q) := by
    funext ax
    apply Fin.ext
    match ax with
    | ⟨0, _⟩ =>
      show ((cfgM m hO).win 2).index t (0 : Fin 2) * 1 + 1 * 0 = 0
      rw [(idx2 (adm m hO) t).1]
    | ⟨1, _⟩ =>
      show ((cfgM m hO).win 2).index t (1 : Fin 2) * 4096 + 1 * q.val = t.val / 14 * 4096 + q.val
      rw [(idx2 (adm m hO) t).2]; omega
  refine (congrArg (V m c main_v2 : S1x32768.Idx → EReal) e).trans ?_
  refine (congrFun (V_main_v2 m c) _).trans ?_
  exact shapeCast_a_1a_apply _ shapeCasts_S32768_S1x32768 (0 : Fin 1) _

theorem iblk3_apply (q : Fin 4096) :
    iblk m hO c 3 t (ix2 (0 : Fin 1) q) = m ((c.tc : Thread nD τ).loc main_arg3) (ix1 (tileCol t.val (t_lt m hO t) q)) := by
  unfold iblk
  show V m c main_v3 ((((cfgM m hO).win 3).blk t).view.emb (ix2 (0 : Fin 1) q)) = _
  have e : (((cfgM m hO).win 3).blk t).view.emb (ix2 (0 : Fin 1) q) = ix2 (0 : Fin 1) (tileCol t.val (t_lt m hO t) q) := by
    funext ax
    apply Fin.ext
    match ax with
    | ⟨0, _⟩ =>
      show ((cfgM m hO).win 3).index t (0 : Fin 2) * 1 + 1 * 0 = 0
      rw [(idx3 (adm m hO) t).1]
    | ⟨1, _⟩ =>
      show ((cfgM m hO).win 3).index t (1 : Fin 2) * 4096 + 1 * q.val = t.val / 14 * 4096 + q.val
      rw [(idx3 (adm m hO) t).2]; omega
  refine (congrArg (V m c main_v3 : S1x32768.Idx → EReal) e).trans ?_
  refine (congrFun (V_main_v3 m c) _).trans ?_
  exact shapeCast_a_1a_apply _ shapeCasts_S32768_S1x32768 (0 : Fin 1) _

/-- The buffer window's block at slot s: page max(w - 1, 0) of the buffer, w the table's word at s. -/
theorem iblk4_apply (p : Fin 16)
    (hp : p.val = (Scalar.maxsi (Scalar.subi ((tbl m 0) (ix1 (⟨t.val % 14, Nat.mod_lt _ (by decide)⟩ : Fin 14))) 1#32) 0#32).toNat)
    (b : Fin 128) (q : Fin 4096) :
    iblk m hO c 4 t (ix3 (0 : Fin 1) b q) = m ((c.tc : Thread nD τ).loc main_arg4) (ix3 p b (tileCol t.val (t_lt m hO t) q)) := by
  unfold iblk
  show V m c main_arg4 ((((cfgM m hO).win 4).blk t).view.emb (ix3 (0 : Fin 1) b q)) = _
  refine (congrFun (Frm.V_main_arg4 m c) _).trans ?_
  refine congrArg (m ((c.tc : Thread nD τ).loc main_arg4)) ?_
  have h4 := idx4 (adm m hO) t
  have h40 : ((cfgM m hO).win 4).index t (0 : Fin 3) = p.val := h4.1.trans hp.symm
  funext ax
  apply Fin.ext
  match ax with
  | ⟨0, _⟩ =>
    show ((cfgM m hO).win 4).index t (0 : Fin 3) * 1 + 1 * 0 = p.val
    rw [h40]; omega
  | ⟨1, _⟩ =>
    show ((cfgM m hO).win 4).index t (1 : Fin 3) * 128 + 1 * b.val = b.val
    rw [h4.2.1]; omega
  | ⟨2, _⟩ =>
    show ((cfgM m hO).win 4).index t (2 : Fin 3) * 4096 + 1 * q.val = t.val / 14 * 4096 + q.val
    rw [h4.2.2]; omega

end Blocks

section Payloads

/-- The spike vector at (b, q): both subtractions, the comparison with the zero word, the bit widened and read signed. -/
theorem pay1_apply (x0 x1 : Vec Ideal S128x4096 .f32) (b : Fin 128) (q : Fin 4096) :
    k0_pay1 (F := Ideal) x0 x1 (ix2 b q) = Cert.Spec.spike (x0 (ix2 b q)) (x1 (ix2 b q)) := by
  unfold k0_pay1 Cert.Spec.spike
  rw [sitofp_apply, extui_apply, cmpf_apply, subf_apply, subf_apply, broadcast_apply, broadcast_apply]
  show ((((BitVec.setWidth 32 (Ideal.cmp .oge (x0 (ix2 b q) - x1 (ix2 b q) - Ideal.ofBits .f32 1065353216#32) (Ideal.ofBits .f32 0#32))).toInt : ℝ) : EReal)) = _
  have h1 : (BitVec.setWidth 32 (BitVec.ofBool true)).toInt = 1 := by decide
  have h0 : (BitVec.setWidth 32 (BitVec.ofBool false)).toInt = 0 := by decide
  unfold Ideal.cmp
  by_cases h : Ideal.ofBits .f32 0#32 ≤ x0 (ix2 b q) - x1 (ix2 b q) - Ideal.ofBits .f32 1065353216#32
  · rw [if_pos h]
    show ((((BitVec.setWidth 32 (BitVec.ofBool (decide (Ideal.ofBits .f32 0#32 ≤ x0 (ix2 b q) - x1 (ix2 b q) - Ideal.ofBits .f32 1065353216#32)))).toInt : ℝ) : EReal)) = 1
    rw [decide_eq_true h, h1, Int.cast_one, EReal.coe_one]
  · rw [if_neg h]
    show ((((BitVec.setWidth 32 (BitVec.ofBool (decide (Ideal.ofBits .f32 0#32 ≤ x0 (ix2 b q) - x1 (ix2 b q) - Ideal.ofBits .f32 1065353216#32)))).toInt : ℝ) : EReal)) = 0
    rw [decide_eq_false h, h0, Int.cast_zero, EReal.coe_zero]

theorem pay3_apply (x0 x1 : Vec Ideal S128x4096 .f32) (b : Fin 128) (q : Fin 4096) :
    k0_pay3 (F := Ideal) x0 x1 (ix3 (0 : Fin 1) b q) = Cert.Spec.spike (x0 (ix2 b q)) (x1 (ix2 b q)) := by
  unfold k0_pay3
  exact (shapeCast_ab_1ab_apply (k0_pay1 (F := Ideal) x0 x1) shapeCasts_S128x4096_S1x128x4096 (0 : Fin 1) b q).trans (pay1_apply x0 x1 b q)

theorem pay2_apply (x0 x1 : Vec Ideal S128x4096 .f32) (b : Fin 128) (q : Fin 4096) :
    k0_pay2 (F := Ideal) x0 x1 (ix2 b q) = Cert.Spec.spike (x0 (ix2 b q)) (x1 (ix2 b q)) := by
  unfold k0_pay2
  rw [shapeCast_self]
  exact pay1_apply x0 x1 b q

theorem pay4_apply (w : BitVec 32) (x4 : Vec Ideal S1x128x4096 .f32) (xs : Vec Ideal S128x4096 .f32) (b : Fin 128) (q : Fin 4096) :
    k0_pay4 (F := Ideal) w x4 xs (ix3 (0 : Fin 1) b q) = if w = 0#32 then xs (ix2 b q) else x4 (ix3 (0 : Fin 1) b q) := by
  unfold k0_pay4
  refine (shapeCast_ab_1ab_apply _ shapeCasts_S128x4096_S1x128x4096 (0 : Fin 1) b q).trans ?_
  by_cases hw : w = 0#32
  · have hc : Scalar.cmpi CmpIPredicate.eq w 0#32 = 1#1 := by subst hw; decide
    rw [hc, select_one, if_pos hw]
  · have hc : Scalar.cmpi CmpIPredicate.eq w 0#32 = 0#1 := by
      show BitVec.ofBool (w == 0#32) = 0#1
      rw [beq_eq_false_iff_ne.mpr hw]; rfl
    rw [hc, select_zero, if_neg hw]
    exact shapeCast_1ab_ab_apply x4 shapeCasts_S1x128x4096_S128x4096 b q

theorem pay5_apply (x1 : Vec Ideal S128x4096 .f32) (x2 x3 : Vec Ideal S1x4096 .f32) (xs : Vec Ideal S128x4096 .f32) (b : Fin 128) (q : Fin 4096) :
    k0_pay5 (F := Ideal) x1 x2 x3 xs (ix3 (0 : Fin 1) b q)
      = x1 (ix2 b q) * x2 (ix2 (0 : Fin 1) q) + xs (ix2 b q) * x3 (ix2 (0 : Fin 1) q) := by
  unfold k0_pay5
  refine (shapeCast_ab_1ab_apply _ shapeCasts_S128x4096_S1x128x4096 (0 : Fin 1) b q).trans ?_
  rw [addf_apply, mulf_apply, mulf_apply, broadcastTo_1b_ab_apply, broadcastTo_1b_ab_apply, shapeCast_self, shapeCast_self]

end Payloads

end Cert.KernelIdeal.KVal

end
-- ==== Proof.KvPoint.lean ====
/-
  The value of every point's output block, as the specification at the point's slot and tile.

  The scratch after any point of a tile is the tile's spike (slot 0 stores it, the later slots leave it), by
  induction along the grid. With it: slot 0's block is the spike; slot s in 1..12 holds the kept spike where the
  table's word is 0 and page w - 1 of the buffer otherwise, the word being the s-th clamped delay; slot 13's block is
  the decayed threshold.
-/
import proofs.«427882_j47579647705427_3_alg».proof.Proof.KvPieces
import proofs.«427882_j47579647705427_3_alg».proof.Proof.KvBlocks
import proofs.«427882_j47579647705427_3_alg».proof.Proof.TableIdeal
import proofs.«427882_j47579647705427_3_alg».proof.Proof.Spec

set_option maxRecDepth 16384

noncomputable section

namespace Cert.KernelIdeal.KVal

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable (m : (ℓ : Loc nD τ sig) → Buf (Elt Ideal) ℓ)

/-- The specification at the launch memory's seven argument arrays. -/
def specArr (c : Dev nD) : S14x128x32768.Idx → EReal :=
  Cert.Spec.GA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- Inside a tile (the slot not 0) the point before has the same columns. -/
theorem tileCol_pred (n : ℕ) (hn : n + 1 < 112) (hn' : n < 112) (h : (n + 1) % 14 ≠ 0) (q : Fin 4096) :
    tileCol n hn' q = tileCol (n + 1) hn q := by
  unfold tileCol
  apply Fin.ext
  show n / 14 * 4096 + q.val = (n + 1) / 14 * 4096 + q.val
  have e : n / 14 = (n + 1) / 14 := by omega
  rw [e]

/-- The scratch after slot 0 of a tile is the tile's spike. -/
theorem scratch_A (hO : Ok m) (c : Dev nD) (t : Fin (cfgM m hO).N) (h0 : t.val % 14 = 0) (b : Fin 128) (q : Fin 4096) :
    (outsAt0 (F := Ideal) m hO c t.val t.isLt).2 (ix2 b q)
      = Cert.Spec.spike (m ((c.tc : Thread nD τ).loc main_arg0) (ix2 b (tileCol t.val (t_lt m hO t) q)))
          (m ((c.tc : Thread nD τ).loc main_arg1) (ix2 b (tileCol t.val (t_lt m hO t) q))) := by
  rw [outsAt0_A m hO c t h0]
  unfold pairA; dsimp only
  refine (congrFun (sout0_A_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t)) (ix2 b q)).trans ?_
  refine (pay2_apply (iblk m hO c 0 t) (iblk m hO c 1 t) b q).trans ?_
  exact congrArg₂ Cert.Spec.spike (iblk0_apply m hO c t b q) (iblk1_apply m hO c t b q)

/-- The scratch after the point at position n, for every position. -/
theorem scratch_aux (hO : Ok m) (c : Dev nD) : ∀ (n : ℕ) (hn : n < (cfgM m hO).N) (b : Fin 128) (q : Fin 4096),
    (outsAt0 (F := Ideal) m hO c n hn).2 (ix2 b q)
      = Cert.Spec.spike (m ((c.tc : Thread nD τ).loc main_arg0) (ix2 b (tileCol n (lt_of_lt_of_eq hn (show (cfgM m hO).N = 112 from N_0)) q)))
          (m ((c.tc : Thread nD τ).loc main_arg1) (ix2 b (tileCol n (lt_of_lt_of_eq hn (show (cfgM m hO).N = 112 from N_0)) q))) := by
  intro n
  induction n with
  | zero => intro hn b q; exact scratch_A m hO c ⟨0, hn⟩ (Nat.zero_mod _) b q
  | succ n ih =>
    intro hn b q
    have hN : n + 1 < 112 := lt_of_lt_of_eq hn (show (cfgM m hO).N = 112 from N_0)
    by_cases h0 : (n + 1) % 14 = 0
    · exact scratch_A m hO c ⟨n + 1, hn⟩ h0 b q
    · have hprev := ih (Nat.lt_of_succ_lt hn) b q
      rw [tileCol_pred n hN (by omega) h0 q] at hprev
      by_cases h2 : (n + 1) % 14 = 13
      · rw [outsAt0_C m hO c ⟨n + 1, hn⟩ h2]
        unfold pairC; dsimp only
        exact hprev
      · rw [outsAt0_B m hO c ⟨n + 1, hn⟩ (by show 1 ≤ (n + 1) % 14; omega) (by show (n + 1) % 14 ≤ 12; omega)]
        unfold pairB; dsimp only
        exact hprev

/-- The scratch after point t holds the spike of t's tile. -/
theorem scratch_value (hO : Ok m) (c : Dev nD) (t : Fin (cfgM m hO).N) (b : Fin 128) (q : Fin 4096) :
    (outsAt0 (F := Ideal) m hO c t.val t.isLt).2 (ix2 b q)
      = Cert.Spec.spike (m ((c.tc : Thread nD τ).loc main_arg0) (ix2 b (tileCol t.val (t_lt m hO t) q)))
          (m ((c.tc : Thread nD τ).loc main_arg1) (ix2 b (tileCol t.val (t_lt m hO t) q))) :=
  scratch_aux m hO c t.val t.isLt b q

/-- The scratch the point before left, inside a tile: the tile's spike. -/
theorem scratch_prev (hO : Ok m) (c : Dev nD) (t : Fin (cfgM m hO).N) (hne : t.val % 14 ≠ 0) (b : Fin 128) (q : Fin 4096) :
    (outsAt0 (F := Ideal) m hO c (t.val - 1) (Nat.lt_of_le_of_lt (Nat.sub_le _ _) t.isLt)).2 (ix2 b q)
      = Cert.Spec.spike (m ((c.tc : Thread nD τ).loc main_arg0) (ix2 b (tileCol t.val (t_lt m hO t) q)))
          (m ((c.tc : Thread nD τ).loc main_arg1) (ix2 b (tileCol t.val (t_lt m hO t) q))) := by
  obtain ⟨n, hn⟩ := t
  cases n with
  | zero => exact absurd (Nat.zero_mod 14) hne
  | succ n =>
    have hN : n + 1 < 112 := lt_of_lt_of_eq hn (show (cfgM m hO).N = 112 from N_0)
    have hprev := scratch_aux m hO c n (Nat.lt_of_succ_lt hn) b q
    rw [tileCol_pred n hN (by omega) hne q] at hprev
    exact hprev

/-! ## The specification at each kind of slot -/

section SpecCases
variable (V T : Fin 128 → Fin 32768 → EReal) (al am : Fin 32768 → EReal) (buf : Fin 16 → Fin 128 → Fin 32768 → EReal)
  (dl : Fin 8 → BitVec 32) (dx : Fin 4 → BitVec 32) (s : Fin 14) (b : Fin 128) (n : Fin 32768)

theorem G_first (h : s.val = 0) : Cert.Spec.G V T al am buf dl dx s b n = Cert.Spec.spike (V b n) (T b n) := by
  unfold Cert.Spec.G; rw [if_pos h]

theorem G_mid (h1 : 1 ≤ s.val) (h12 : s.val ≤ 12) :
    Cert.Spec.G V T al am buf dl dx s b n
      = if Cert.Spec.page (Cert.Spec.delayAt dl dx ⟨s.val - 1, by omega⟩) = 0 then Cert.Spec.spike (V b n) (T b n)
        else buf ⟨Cert.Spec.page (Cert.Spec.delayAt dl dx ⟨s.val - 1, by omega⟩) - 1,
          by have := Cert.Spec.page_le (Cert.Spec.delayAt dl dx ⟨s.val - 1, by omega⟩); omega⟩ b n := by
  unfold Cert.Spec.G; rw [if_neg (by omega), dif_pos h12]

theorem G_last (h : s.val = 13) :
    Cert.Spec.G V T al am buf dl dx s b n = T b n * al n + Cert.Spec.spike (V b n) (T b n) * am n := by
  unfold Cert.Spec.G; rw [if_neg (by omega), dif_neg (by omega)]

end SpecCases

/-- Slot 0's block is the spike. -/
theorem point_A (hO : Ok m) (c : Dev nD) (t : Fin (cfgM m hO).N) (h0 : t.val % 14 = 0) (b : Fin 128) (q : Fin 4096) :
    (outsAt0 (F := Ideal) m hO c t.val t.isLt).1 (ix3 (0 : Fin 1) b q)
      = specArr m c (ix3 (⟨t.val % 14, Nat.mod_lt _ (by decide)⟩ : Fin 14) b (tileCol t.val (t_lt m hO t) q)) := by
  rw [outsAt0_A m hO c t h0]
  unfold pairA; dsimp only
  refine (congrFun (out0_A_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 (adm m hO) t).mpr h0) (fun h => by have := (hcond0_1 (adm m hO) t).mp h; omega) (fun h => by have := (hcond0_2 (adm m hO) t).mp h; omega) (iblk m hO c 0 t) (iblk m hO c 1 t)) (ix3 (0 : Fin 1) b q)).trans ?_
  refine (pay3_apply (iblk m hO c 0 t) (iblk m hO c 1 t) b q).trans ?_
  refine (congrArg₂ Cert.Spec.spike (iblk0_apply m hO c t b q) (iblk1_apply m hO c t b q)).trans ?_
  unfold specArr
  rw [Cert.Spec.GA_apply]
  rw [G_first _ _ _ _ _ _ _ (⟨t.val % 14, Nat.mod_lt _ (by decide)⟩ : Fin 14) _ _ h0]

/-- Slot 13's block is the decayed threshold. -/
theorem point_C (hO : Ok m) (c : Dev nD) (t : Fin (cfgM m hO).N) (h2 : t.val % 14 = 13) (b : Fin 128) (q : Fin 4096) :
    (outsAt0 (F := Ideal) m hO c t.val t.isLt).1 (ix3 (0 : Fin 1) b q)
      = specArr m c (ix3 (⟨t.val % 14, Nat.mod_lt _ (by decide)⟩ : Fin 14) b (tileCol t.val (t_lt m hO t) q)) := by
  rw [outsAt0_C m hO c t h2]
  unfold pairC; dsimp only
  refine (congrFun (out0_C_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) (fun h => by have := (hcond0_1 (adm m hO) t).mp h; omega) ((hcond0_2 (adm m hO) t).mpr h2) (iblk m hO c 1 t) (iblk m hO c 2 t) (iblk m hO c 3 t) (outsAt0 (F := Ideal) m hO c (t.val - 1) (Nat.lt_of_le_of_lt (Nat.sub_le _ _) t.isLt)).2) (ix3 (0 : Fin 1) b q)).trans ?_
  refine (pay5_apply (iblk m hO c 1 t) (iblk m hO c 2 t) (iblk m hO c 3 t) (outsAt0 (F := Ideal) m hO c (t.val - 1) (Nat.lt_of_le_of_lt (Nat.sub_le _ _) t.isLt)).2 b q).trans ?_
  have e1 := iblk1_apply m hO c t b q
  have e2 := iblk2_apply m hO c t q
  have e3 := iblk3_apply m hO c t q
  have es := scratch_prev m hO c t (by omega) b q
  unfold specArr
  rw [Cert.Spec.GA_apply]
  rw [G_last _ _ _ _ _ _ _ (⟨t.val % 14, Nat.mod_lt _ (by decide)⟩ : Fin 14) _ _ h2]
  rw [e1, e2, e3, es]

/-- A slot in 1..12: the kept spike where the slot's clamped delay is 0, else the buffer page one before it. -/
theorem point_B0 (hO : Ok m) (t : Fin (cfgM m hO).N) (h1 : 1 ≤ t.val % 14) (h12 : t.val % 14 ≤ 12) (b : Fin 128) (q : Fin 4096) :
    (outsAt0 (F := Ideal) m hO (0 : Dev nD) t.val t.isLt).1 (ix3 (0 : Fin 1) b q)
      = specArr m (0 : Dev nD) (ix3 (⟨t.val % 14, Nat.mod_lt _ (by decide)⟩ : Fin 14) b (tileCol t.val (t_lt m hO t) q)) := by
  rw [outsAt0_B m hO (0 : Dev nD) t h1 h12]
  unfold pairB; dsimp only
  refine (congrFun (out0_B_5_eq (0 : Dev nD) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => by have := (hcond0_0 (adm m hO) t).mp h; omega) ((hcond0_1 (adm m hO) t).mpr ⟨h1, h12⟩) (fun h => by have := (hcond0_2 (adm m hO) t).mp h; omega) (iblk m hO (0 : Dev nD) 4 t) (outsAt0 (F := Ideal) m hO (0 : Dev nD) (t.val - 1) (Nat.lt_of_le_of_lt (Nat.sub_le _ _) t.isLt)).2 (tbl m 0)) (ix3 (0 : Fin 1) b q)).trans ?_
  refine (pay4_apply (slotWord (0 : Dev nD) (grid0.coords t) ((hcond0_1 (adm m hO) t).mpr ⟨h1, h12⟩) (tbl m 0)) (iblk m hO (0 : Dev nD) 4 t) (outsAt0 (F := Ideal) m hO (0 : Dev nD) (t.val - 1) (Nat.lt_of_le_of_lt (Nat.sub_le _ _) t.isLt)).2 b q).trans ?_
  rw [slotWord_eq m hO (0 : Dev nD) t ((hcond0_1 (adm m hO) t).mpr ⟨h1, h12⟩), Tbl.tbl_apply m (⟨t.val % 14, Nat.mod_lt _ (by decide)⟩ : Fin 14)]
  have hnat := Tbl.word_toNat (m ((0 : Dev nD).tc.loc main_arg5)) (m ((0 : Dev nD).tc.loc main_arg6)) (⟨t.val % 14, Nat.mod_lt _ (by decide)⟩ : Fin 14) h1 h12
  have hidx := (Tbl.page_index (m ((0 : Dev nD).tc.loc main_arg5)) (m ((0 : Dev nD).tc.loc main_arg6)) (⟨t.val % 14, Nat.mod_lt _ (by decide)⟩ : Fin 14)).1
  unfold specArr
  rw [Cert.Spec.GA_apply, G_mid _ _ _ _ _ _ _ (⟨t.val % 14, Nat.mod_lt _ (by decide)⟩ : Fin 14) _ _ h1 h12]
  by_cases hw : Tbl.word (m ((0 : Dev nD).tc.loc main_arg5)) (m ((0 : Dev nD).tc.loc main_arg6)) (⟨t.val % 14, Nat.mod_lt _ (by decide)⟩ : Fin 14) = 0#32
  · have hp0 : Cert.Spec.page (Cert.Spec.delayAt (fun k => m ((0 : Dev nD).tc.loc main_arg5) (ix1 k)) (fun k => m ((0 : Dev nD).tc.loc main_arg6) (ix1 k)) ⟨t.val % 14 - 1, by omega⟩) = 0 :=
      hnat.symm.trans ((congrArg BitVec.toNat hw).trans rfl)
    refine (if_pos hw).trans ?_
    refine Eq.trans ?_ (if_pos hp0).symm
    exact scratch_prev m hO (0 : Dev nD) t (by omega) b q
  · have hp : ¬ Cert.Spec.page (Cert.Spec.delayAt (fun k => m ((0 : Dev nD).tc.loc main_arg5) (ix1 k)) (fun k => m ((0 : Dev nD).tc.loc main_arg6) (ix1 k)) ⟨t.val % 14 - 1, by omega⟩) = 0 :=
      fun hp => hw (BitVec.eq_of_toNat_eq (by rw [hnat]; exact hp))
    refine (if_neg hw).trans ?_
    refine Eq.trans ?_ (if_neg hp).symm
    exact iblk4_apply m hO (0 : Dev nD) t _ (by rw [Tbl.tbl_apply m (⟨t.val % 14, Nat.mod_lt _ (by decide)⟩ : Fin 14), hidx, hnat]) b q

theorem point_B (hO : Ok m) (c : Dev nD) (t : Fin (cfgM m hO).N) (h1 : 1 ≤ t.val % 14) (h12 : t.val % 14 ≤ 12) (b : Fin 128) (q : Fin 4096) :
    (outsAt0 (F := Ideal) m hO c t.val t.isLt).1 (ix3 (0 : Fin 1) b q)
      = specArr m c (ix3 (⟨t.val % 14, Nat.mod_lt _ (by decide)⟩ : Fin 14) b (tileCol t.val (t_lt m hO t) q)) := by
  obtain rfl : c = 0 := Subsingleton.elim _ _
  exact point_B0 m hO t h1 h12 b q

/-- The output block after point t is the specification's page t % 14 on the columns of tile t / 14. -/
theorem point_value (hO : Ok m) (c : Dev nD) (t : Fin (cfgM m hO).N) (b : Fin 128) (q : Fin 4096) :
    (outsAt0 (F := Ideal) m hO c t.val t.isLt).1 (ix3 (0 : Fin 1) b q)
      = specArr m c (ix3 (⟨t.val % 14, Nat.mod_lt _ (by decide)⟩ : Fin 14) b (tileCol t.val (t_lt m hO t) q)) := by
  by_cases h0 : t.val % 14 = 0
  · exact point_A m hO c t h0 b q
  · by_cases h2 : t.val % 14 = 13
    · exact point_C m hO c t h2 b q
    · exact point_B m hO c t (by omega) (by omega) b q

end Cert.KernelIdeal.KVal

end
-- ==== Proof.KvArray.lean ====
/-
  From the points' blocks to the whole result array, and the run.

  Every point writes its own output block back: point t's block is page t % 14, all 128 rows, columns of tile t / 14.
  These 112 blocks tile the [14, 128, 32768] array, and each is the specification restricted to it, so after the launch
  the result array is the specification of the arguments, and the arguments are as they were.
-/
import proofs.«427882_j47579647705427_3_alg».proof.Proof.KvPoint

set_option maxRecDepth 16384

noncomputable section

namespace Cert.KernelIdeal.KVal

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

/-- The output window's block index at point t: page t % 14, the one block of rows, column tile t / 14. -/
theorem outIndex (a : (pcfg0 (F := Ideal)).Adm) : ∀ t : Fin (cfg0 a).N,
    ((cfg0 a).win 5).index t (0 : Fin 3) = t.val % 14 ∧ ((cfg0 a).win 5).index t (1 : Fin 3) = 0 ∧ ((cfg0 a).win 5).index t (2 : Fin 3) = t.val / 14 :=
  (by decide +kernel : ∀ t : Fin grid0.N,
    cc0_transform_5 (grid0.coords t) (0 : Fin 3) = t.val % 14 ∧ cc0_transform_5 (grid0.coords t) (1 : Fin 3) = 0 ∧ cc0_transform_5 (grid0.coords t) (2 : Fin 3) = t.val / 14)

/-- An index of the result array is in point t's block iff each coordinate is in the block's range on its axis. -/
theorem mem_outBlk (a : (pcfg0 (F := Ideal)).Adm) (t : Fin (cfg0 a).N) (i : S14x128x32768.Idx) :
    i ∈ (((cfg0 a).win 5).blk t).view.set ↔ ∀ ax : Fin 3, ((cfg0 a).win 5).index t ax * S1x128x4096.size ax ≤ (i ax).val
      ∧ (i ax).val < ((cfg0 a).win 5).index t ax * S1x128x4096.size ax + S1x128x4096.size ax := by
  refine (Finset.ext_iff.mp (View.set_slice_whole main_v7 (((cfg0 a).win 5).rect t)) i).trans ?_
  exact Rect.mem_set_unit

/-- Every index (s, b, n) of the result array lies in the block of the point of tile n / 4096 and slot s. -/
theorem outCover (a : (pcfg0 (F := Ideal)).Adm) (i : S14x128x32768.Idx) :
    ∃ t : Fin (cfg0 a).N, ((cfg0 a).win 5).flush t = true ∧ i ∈ (((cfg0 a).win 5).blk t).view.set := by
  have h0 : (i 0).val < 14 := (i 0).isLt
  have h1 : (i 1).val < 128 := (i 1).isLt
  have h2 : (i 2).val < 32768 := (i 2).isLt
  have hN : (cfg0 a).N = 112 := N_0
  let t : Fin (cfg0 a).N := ⟨(i 2).val / 4096 * 14 + (i 0).val, by rw [hN]; omega⟩
  have ht : t.val = (i 2).val / 4096 * 14 + (i 0).val := rfl
  obtain ⟨e0, e1, e2⟩ := outIndex a t
  refine ⟨t, flush0_5 a t, ?_⟩
  rw [mem_outBlk]
  intro ax
  match ax with
  | ⟨0, _⟩ => show ((cfg0 a).win 5).index t (0 : Fin 3) * 1 ≤ (i 0).val ∧ (i 0).val < ((cfg0 a).win 5).index t (0 : Fin 3) * 1 + 1; omega
  | ⟨1, _⟩ => show ((cfg0 a).win 5).index t (1 : Fin 3) * 128 ≤ (i 1).val ∧ (i 1).val < ((cfg0 a).win 5).index t (1 : Fin 3) * 128 + 128; omega
  | ⟨2, _⟩ => show ((cfg0 a).win 5).index t (2 : Fin 3) * 4096 ≤ (i 2).val ∧ (i 2).val < ((cfg0 a).win 5).index t (2 : Fin 3) * 4096 + 4096; omega

variable (m : (ℓ : Loc nD τ sig) → Buf (Elt Ideal) ℓ) (ρ : Dev nD → PrngReg)

/-- What point t writes back is its block of the specification. -/
theorem outFlushed_eq (hO : Ok m) (c : Dev nD) (t : Fin (cfgM m hO).N) :
    (dats m hO 0 c).flushed 5 t = (((cfgM m hO).win 5).blk t).view.read (Elt Ideal) (specArr m c) := by
  show ((cfgM m hO).win 5).cut (grid0.coords t) ((dats m hO 0 c).after 5 t) = _
  rw [after0_5]
  funext y
  obtain ⟨b, q, rfl⟩ : ∃ (b : Fin 128) (q : Fin 4096), (y : S1x128x4096.Idx) = ix3 (0 : Fin 1) b q :=
    ⟨y (1 : Fin 3), y (2 : Fin 3), funext fun a => by
      match a with
      | ⟨0, _⟩ => exact Subsingleton.elim (α := Fin 1) _ _
      | ⟨1, _⟩ => rfl
      | ⟨2, _⟩ => rfl⟩
  show (outsAt0 (F := Ideal) m hO c t.val t.isLt).1 (ix3 (0 : Fin 1) b q) = specArr m c ((((cfgM m hO).win 5).blk t).view.emb (ix3 (0 : Fin 1) b q))
  refine (point_value m hO c t b q).trans ?_
  refine congrArg (specArr m c) ?_
  obtain ⟨e0, e1, e2⟩ := outIndex (adm m hO) t
  funext ax; apply Fin.ext
  match ax with
  | ⟨0, _⟩ => show t.val % 14 = ((cfg0 (adm m hO)).win 5).index t (0 : Fin 3) * 1 + 1 * 0; omega
  | ⟨1, _⟩ => show b.val = ((cfg0 (adm m hO)).win 5).index t (1 : Fin 3) * 128 + 1 * b.val; omega
  | ⟨2, _⟩ => show t.val / 14 * 4096 + q.val = ((cfg0 (adm m hO)).win 5).index t (2 : Fin 3) * 4096 + 1 * q.val; omega

/-- After the launch the result array is the specification. -/
theorem outFinal (hO : Ok m) (c : Dev nD) : (dats m hO 0 c).arrAt 5 (cfgM m hO).N = specArr m c :=
  (dats m hO 0 c).arrAt_eq_of_cover 5 (specArr m c) (fun t _ => outFlushed_eq m hO c t) (outCover (adm m hO))

/-- The launch's run: the result array is the specification of the seven arguments, which are as they were. -/
theorem run_spec (hO : Ok m) :
    θ_run (defs (F := Ideal)) (onTc (τ := τ) (main (F := Ideal))) ⟨m, fun _ => 0, ρ⟩ (fun r => ∀ c : Dev nD,
        r.2.mem ((c.tc : Thread nD τ).loc main_v7) = specArr m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨((h c).1 5).trans (outFinal m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 4).trans (((dats m hO 0 c).arrAt_in 4 rfl _).trans ((A_eq m hO c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_main m ρ hO)

end Cert.KernelIdeal.KVal

end
-- ==== Proof.RefRunByHand.lean ====
/-
  The reference's run, read back in three stretches.

  The reference's thirty-nine host operations are cut before each joining of computed arrays: the first seventeen
  (the spike, the new threshold, the spike as a page and the old buffer's first fifteen pages), the next
  twenty-one (the pushed buffer, the two index vectors with negative entries wrapped, the two gathers, the
  first and last slots), and the last one (the four pieces joined into the fourteen slots). Each stretch's
  results are stated over ANY contents it starts from; the whole run is the three composed.
-/
import proofs.«427882_j47579647705427_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first stretch: operations 1 to 17. -/
abbrev ops1 : List (HloOp τ sig (Elt F)) :=
  [ nullary main_cst (constant S_ .f32 0x3F800000#32),
    unary main_cst main_v0 (broadcastInDim S128x32768 ![] bcast_S_S128x32768 : (⟨S_, .f32⟩ : BufTy).Contents (Elt F) → (⟨S128x32768, .f32⟩ : BufTy).Contents (Elt F)),
    binary main_arg1 main_v0 main_v1 (addf : (⟨S128x32768, .f32⟩ : BufTy).Contents (Elt F) → (⟨S128x32768, .f32⟩ : BufTy).Contents (Elt F) → (⟨S128x32768, .f32⟩ : BufTy).Contents (Elt F)),
    binary main_arg0 main_v1 main_v2 (subf : (⟨S128x32768, .f32⟩ : BufTy).Contents (Elt F) → (⟨S128x32768, .f32⟩ : BufTy).Contents (Elt F) → (⟨S128x32768, .f32⟩ : BufTy).Contents (Elt F)),
    nullary main_cst_0 (constant S_ .f32 0x00000000#32),
    unary main_cst_0 main_v3 (broadcastInDim S128x32768 ![] bcast_S_S128x32768 : (⟨S_, .f32⟩ : BufTy).Contents (Elt F) → (⟨S128x32768, .f32⟩ : BufTy).Contents (Elt F)),
    binary main_v2 main_v3 main_v4 (cmpf .oge : (⟨S128x32768, .f32⟩ : BufTy).Contents (Elt F) → (⟨S128x32768, .f32⟩ : BufTy).Contents (Elt F) → (⟨S128x32768, .i1⟩ : BufTy).Contents (Elt F)),
    unary main_v4 main_v5 (uitofp .f32 : (⟨S128x32768, .i1⟩ : BufTy).Contents (Elt F) → (⟨S128x32768, .f32⟩ : BufTy).Contents (Elt F)),
    unary main_arg2 main_v6 (broadcastInDim S1x32768 ![1] bcast_S32768_S1x32768_1 : (⟨S32768, .f32⟩ : BufTy).Contents (Elt F) → (⟨S1x32768, .f32⟩ : BufTy).Contents (Elt F)),
    unary main_v6 main_v7 (broadcastInDim S128x32768 ![0, 1] bcast_S1x32768_S128x32768_0_1 : (⟨S1x32768, .f32⟩ : BufTy).Contents (Elt F) → (⟨S128x32768, .f32⟩ : BufTy).Contents (Elt F)),
    binary main_arg1 main_v7 main_v8 (mulf : (⟨S128x32768, .f32⟩ : BufTy).Contents (Elt F) → (⟨S128x32768, .f32⟩ : BufTy).Contents (Elt F) → (⟨S128x32768, .f32⟩ : BufTy).Contents (Elt F)),
    unary main_arg3 main_v9 (broadcastInDim S1x32768 ![1] bcast_S32768_S1x32768_1 : (⟨S32768, .f32⟩ : BufTy).Contents (Elt F) → (⟨S1x32768, .f32⟩ : BufTy).Contents (Elt F)),
    unary main_v9 main_v10 (broadcastInDim S128x32768 ![0, 1] bcast_S1x32768_S128x32768_0_1 : (⟨S1x32768, .f32⟩ : BufTy).Contents (Elt F) → (⟨S128x32768, .f32⟩ : BufTy).Contents (Elt F)),
    binary main_v5 main_v10 main_v11 (mulf : (⟨S128x32768, .f32⟩ : BufTy).Contents (Elt F) → (⟨S128x32768, .f32⟩ : BufTy).Contents (Elt F) → (⟨S128x32768, .f32⟩ : BufTy).Contents (Elt F)),
    binary main_v8 main_v11 main_v12 (addf : (⟨S128x32768, .f32⟩ : BufTy).Contents (Elt F) → (⟨S128x32768, .f32⟩ : BufTy).Contents (Elt F) → (⟨S128x32768, .f32⟩ : BufTy).Contents (Elt F)),
    unary main_v5 main_v13 (broadcastInDim S1x128x32768 ![1, 2] bcast_S128x32768_S1x128x32768_1_2 : (⟨S128x32768, .f32⟩ : BufTy).Contents (Elt F) → (⟨S1x128x32768, .f32⟩ : BufTy).Contents (Elt F)),
    unary main_arg4 main_v14 ((extractStridedSlice S15x128x32768 ![0, 0, 0] · slices_S16x128x32768_S15x128x32768_0_0_0) : (⟨S16x128x32768, .f32⟩ : BufTy).Contents (Elt F) → (⟨S15x128x32768, .f32⟩ : BufTy).Contents (Elt F)) ]

/-- The second stretch: operations 18 to 38. -/
abbrev ops2 : List (HloOp τ sig (Elt F)) :=
  [ binary main_v13 main_v14 main_v15 ((fun a b => concatenate S16x128x32768 0 [⟨S1x128x32768, a⟩, ⟨S15x128x32768, b⟩] concatenates_S1x128x32768_S15x128x32768_S16x128x32768_d0) : (⟨S1x128x32768, .f32⟩ : BufTy).Contents (Elt F) → (⟨S15x128x32768, .f32⟩ : BufTy).Contents (Elt F) → (⟨S16x128x32768, .f32⟩ : BufTy).Contents (Elt F)),
    nullary main_c (constantI S_ 32 0#32),
    unary main_c main_v16 (broadcastInDim S8 ![] bcast_S_S8 : (⟨S_, .i32⟩ : BufTy).Contents (Elt F) → (⟨S8, .i32⟩ : BufTy).Contents (Elt F)),
    binary main_arg5 main_v16 main_v17 (cmpi .slt : (⟨S8, .i32⟩ : BufTy).Contents (Elt F) → (⟨S8, .i32⟩ : BufTy).Contents (Elt F) → (⟨S8, .i1⟩ : BufTy).Contents (Elt F)),
    nullary main_c_1 (constantI S_ 32 16#32),
    unary main_c_1 main_v18 (broadcastInDim S8 ![] bcast_S_S8 : (⟨S_, .i32⟩ : BufTy).Contents (Elt F) → (⟨S8, .i32⟩ : BufTy).Contents (Elt F)),
    binary main_arg5 main_v18 main_v19 (addi : (⟨S8, .i32⟩ : BufTy).Contents (Elt F) → (⟨S8, .i32⟩ : BufTy).Contents (Elt F) → (⟨S8, .i32⟩ : BufTy).Contents (Elt F)),
    ternary main_v17 main_v19 main_arg5 main_v20 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v20 main_v21 (broadcastInDim S8x1 ![0] bcast_S8_S8x1_0 : (⟨S8, .i32⟩ : BufTy).Contents (Elt F) → (⟨S8x1, .i32⟩ : BufTy).Contents (Elt F)),
    binary main_v15 main_v21 main_v22 ((fun x i => Host.gather gather_S16x128x32768_S8x1_S8x128x32768_12_0_n_n_0_1_112832768 x i) : (⟨S16x128x32768, .f32⟩ : BufTy).Contents (Elt F) → (⟨S8x1, .i32⟩ : BufTy).Contents (Elt F) → (⟨S8x128x32768, .f32⟩ : BufTy).Contents (Elt F)),
    nullary main_c_2 (constantI S_ 32 0#32),
    unary main_c_2 main_v23 (broadcastInDim S4 ![] bcast_S_S4 : (⟨S_, .i32⟩ : BufTy).Contents (Elt F) → (⟨S4, .i32⟩ : BufTy).Contents (Elt F)),
    binary main_arg6 main_v23 main_v24 (cmpi .slt : (⟨S4, .i32⟩ : BufTy).Contents (Elt F) → (⟨S4, .i32⟩ : BufTy).Contents (Elt F) → (⟨S4, .i1⟩ : BufTy).Contents (Elt F)),
    nullary main_c_3 (constantI S_ 32 16#32),
    unary main_c_3 main_v25 (broadcastInDim S4 ![] bcast_S_S4 : (⟨S_, .i32⟩ : BufTy).Contents (Elt F) → (⟨S4, .i32⟩ : BufTy).Contents (Elt F)),
    binary main_arg6 main_v25 main_v26 (addi : (⟨S4, .i32⟩ : BufTy).Contents (Elt F) → (⟨S4, .i32⟩ : BufTy).Contents (Elt F) → (⟨S4, .i32⟩ : BufTy).Contents (Elt F)),
    ternary main_v24 main_v26 main_arg6 main_v27 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v27 main_v28 (broadcastInDim S4x1 ![0] bcast_S4_S4x1_0 : (⟨S4, .i32⟩ : BufTy).Contents (Elt F) → (⟨S4x1, .i32⟩ : BufTy).Contents (Elt F)),
    binary main_v15 main_v28 main_v29 ((fun x i => Host.gather gather_S16x128x32768_S4x1_S4x128x32768_12_0_n_n_0_1_112832768 x i) : (⟨S16x128x32768, .f32⟩ : BufTy).Contents (Elt F) → (⟨S4x1, .i32⟩ : BufTy).Contents (Elt F) → (⟨S4x128x32768, .f32⟩ : BufTy).Contents (Elt F)),
    unary main_v5 main_v30 (broadcastInDim S1x128x32768 ![1, 2] bcast_S128x32768_S1x128x32768_1_2 : (⟨S128x32768, .f32⟩ : BufTy).Contents (Elt F) → (⟨S1x128x32768, .f32⟩ : BufTy).Contents (Elt F)),
    unary main_v12 main_v31 (broadcastInDim S1x128x32768 ![1, 2] bcast_S128x32768_S1x128x32768_1_2 : (⟨S128x32768, .f32⟩ : BufTy).Contents (Elt F) → (⟨S1x128x32768, .f32⟩ : BufTy).Contents (Elt F)) ]

/-- The last operation: the four pieces joined. -/
abbrev ops3 : List (HloOp τ sig (Elt F)) :=
  [ nary ![main_v30, main_v22, main_v29, main_v31] main_v32 (fun u => concatenate S14x128x32768 0 [⟨S1x128x32768, u 0⟩, ⟨S8x128x32768, u 1⟩, ⟨S4x128x32768, u 2⟩, ⟨S1x128x32768, u 3⟩] concatenates_S1x128x32768_S8x128x32768_S4x128x32768_S1x128x32768_S14x128x32768_d0) ]

/-- @main's 39 operations, in order. -/
abbrev ops : List (HloOp τ sig (Elt F)) :=
  [ nullary main_cst (constant S_ .f32 0x3F800000#32),
    unary main_cst main_v0 (broadcastInDim S128x32768 ![] bcast_S_S128x32768 : (⟨S_, .f32⟩ : BufTy).Contents (Elt F) → (⟨S128x32768, .f32⟩ : BufTy).Contents (Elt F)),
    binary main_arg1 main_v0 main_v1 (addf : (⟨S128x32768, .f32⟩ : BufTy).Contents (Elt F) → (⟨S128x32768, .f32⟩ : BufTy).Contents (Elt F) → (⟨S128x32768, .f32⟩ : BufTy).Contents (Elt F)),
    binary main_arg0 main_v1 main_v2 (subf : (⟨S128x32768, .f32⟩ : BufTy).Contents (Elt F) → (⟨S128x32768, .f32⟩ : BufTy).Contents (Elt F) → (⟨S128x32768, .f32⟩ : BufTy).Contents (Elt F)),
    nullary main_cst_0 (constant S_ .f32 0x00000000#32),
    unary main_cst_0 main_v3 (broadcastInDim S128x32768 ![] bcast_S_S128x32768 : (⟨S_, .f32⟩ : BufTy).Contents (Elt F) → (⟨S128x32768, .f32⟩ : BufTy).Contents (Elt F)),
    binary main_v2 main_v3 main_v4 (cmpf .oge : (⟨S128x32768, .f32⟩ : BufTy).Contents (Elt F) → (⟨S128x32768, .f32⟩ : BufTy).Contents (Elt F) → (⟨S128x32768, .i1⟩ : BufTy).Contents (Elt F)),
    unary main_v4 main_v5 (uitofp .f32 : (⟨S128x32768, .i1⟩ : BufTy).Contents (Elt F) → (⟨S128x32768, .f32⟩ : BufTy).Contents (Elt F)),
    unary main_arg2 main_v6 (broadcastInDim S1x32768 ![1] bcast_S32768_S1x32768_1 : (⟨S32768, .f32⟩ : BufTy).Contents (Elt F) → (⟨S1x32768, .f32⟩ : BufTy).Contents (Elt F)),
    unary main_v6 main_v7 (broadcastInDim S128x32768 ![0, 1] bcast_S1x32768_S128x32768_0_1 : (⟨S1x32768, .f32⟩ : BufTy).Contents (Elt F) → (⟨S128x32768, .f32⟩ : BufTy).Contents (Elt F)),
    binary main_arg1 main_v7 main_v8 (mulf : (⟨S128x32768, .f32⟩ : BufTy).Contents (Elt F) → (⟨S128x32768, .f32⟩ : BufTy).Contents (Elt F) → (⟨S128x32768, .f32⟩ : BufTy).Contents (Elt F)),
    unary main_arg3 main_v9 (broadcastInDim S1x32768 ![1] bcast_S32768_S1x32768_1 : (⟨S32768, .f32⟩ : BufTy).Contents (Elt F) → (⟨S1x32768, .f32⟩ : BufTy).Contents (Elt F)),
    unary main_v9 main_v10 (broadcastInDim S128x32768 ![0, 1] bcast_S1x32768_S128x32768_0_1 : (⟨S1x32768, .f32⟩ : BufTy).Contents (Elt F) → (⟨S128x32768, .f32⟩ : BufTy).Contents (Elt F)),
    binary main_v5 main_v10 main_v11 (mulf : (⟨S128x32768, .f32⟩ : BufTy).Contents (Elt F) → (⟨S128x32768, .f32⟩ : BufTy).Contents (Elt F) → (⟨S128x32768, .f32⟩ : BufTy).Contents (Elt F)),
    binary main_v8 main_v11 main_v12 (addf : (⟨S128x32768, .f32⟩ : BufTy).Contents (Elt F) → (⟨S128x32768, .f32⟩ : BufTy).Contents (Elt F) → (⟨S128x32768, .f32⟩ : BufTy).Contents (Elt F)),
    unary main_v5 main_v13 (broadcastInDim S1x128x32768 ![1, 2] bcast_S128x32768_S1x128x32768_1_2 : (⟨S128x32768, .f32⟩ : BufTy).Contents (Elt F) → (⟨S1x128x32768, .f32⟩ : BufTy).Contents (Elt F)),
    unary main_arg4 main_v14 ((extractStridedSlice S15x128x32768 ![0, 0, 0] · slices_S16x128x32768_S15x128x32768_0_0_0) : (⟨S16x128x32768, .f32⟩ : BufTy).Contents (Elt F) → (⟨S15x128x32768, .f32⟩ : BufTy).Contents (Elt F)),
    binary main_v13 main_v14 main_v15 ((fun a b => concatenate S16x128x32768 0 [⟨S1x128x32768, a⟩, ⟨S15x128x32768, b⟩] concatenates_S1x128x32768_S15x128x32768_S16x128x32768_d0) : (⟨S1x128x32768, .f32⟩ : BufTy).Contents (Elt F) → (⟨S15x128x32768, .f32⟩ : BufTy).Contents (Elt F) → (⟨S16x128x32768, .f32⟩ : BufTy).Contents (Elt F)),
    nullary main_c (constantI S_ 32 0#32),
    unary main_c main_v16 (broadcastInDim S8 ![] bcast_S_S8 : (⟨S_, .i32⟩ : BufTy).Contents (Elt F) → (⟨S8, .i32⟩ : BufTy).Contents (Elt F)),
    binary main_arg5 main_v16 main_v17 (cmpi .slt : (⟨S8, .i32⟩ : BufTy).Contents (Elt F) → (⟨S8, .i32⟩ : BufTy).Contents (Elt F) → (⟨S8, .i1⟩ : BufTy).Contents (Elt F)),
    nullary main_c_1 (constantI S_ 32 16#32),
    unary main_c_1 main_v18 (broadcastInDim S8 ![] bcast_S_S8 : (⟨S_, .i32⟩ : BufTy).Contents (Elt F) → (⟨S8, .i32⟩ : BufTy).Contents (Elt F)),
    binary main_arg5 main_v18 main_v19 (addi : (⟨S8, .i32⟩ : BufTy).Contents (Elt F) → (⟨S8, .i32⟩ : BufTy).Contents (Elt F) → (⟨S8, .i32⟩ : BufTy).Contents (Elt F)),
    ternary main_v17 main_v19 main_arg5 main_v20 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v20 main_v21 (broadcastInDim S8x1 ![0] bcast_S8_S8x1_0 : (⟨S8, .i32⟩ : BufTy).Contents (Elt F) → (⟨S8x1, .i32⟩ : BufTy).Contents (Elt F)),
    binary main_v15 main_v21 main_v22 ((fun x i => Host.gather gather_S16x128x32768_S8x1_S8x128x32768_12_0_n_n_0_1_112832768 x i) : (⟨S16x128x32768, .f32⟩ : BufTy).Contents (Elt F) → (⟨S8x1, .i32⟩ : BufTy).Contents (Elt F) → (⟨S8x128x32768, .f32⟩ : BufTy).Contents (Elt F)),
    nullary main_c_2 (constantI S_ 32 0#32),
    unary main_c_2 main_v23 (broadcastInDim S4 ![] bcast_S_S4 : (⟨S_, .i32⟩ : BufTy).Contents (Elt F) → (⟨S4, .i32⟩ : BufTy).Contents (Elt F)),
    binary main_arg6 main_v23 main_v24 (cmpi .slt : (⟨S4, .i32⟩ : BufTy).Contents (Elt F) → (⟨S4, .i32⟩ : BufTy).Contents (Elt F) → (⟨S4, .i1⟩ : BufTy).Contents (Elt F)),
    nullary main_c_3 (constantI S_ 32 16#32),
    unary main_c_3 main_v25 (broadcastInDim S4 ![] bcast_S_S4 : (⟨S_, .i32⟩ : BufTy).Contents (Elt F) → (⟨S4, .i32⟩ : BufTy).Contents (Elt F)),
    binary main_arg6 main_v25 main_v26 (addi : (⟨S4, .i32⟩ : BufTy).Contents (Elt F) → (⟨S4, .i32⟩ : BufTy).Contents (Elt F) → (⟨S4, .i32⟩ : BufTy).Contents (Elt F)),
    ternary main_v24 main_v26 main_arg6 main_v27 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v27 main_v28 (broadcastInDim S4x1 ![0] bcast_S4_S4x1_0 : (⟨S4, .i32⟩ : BufTy).Contents (Elt F) → (⟨S4x1, .i32⟩ : BufTy).Contents (Elt F)),
    binary main_v15 main_v28 main_v29 ((fun x i => Host.gather gather_S16x128x32768_S4x1_S4x128x32768_12_0_n_n_0_1_112832768 x i) : (⟨S16x128x32768, .f32⟩ : BufTy).Contents (Elt F) → (⟨S4x1, .i32⟩ : BufTy).Contents (Elt F) → (⟨S4x128x32768, .f32⟩ : BufTy).Contents (Elt F)),
    unary main_v5 main_v30 (broadcastInDim S1x128x32768 ![1, 2] bcast_S128x32768_S1x128x32768_1_2 : (⟨S128x32768, .f32⟩ : BufTy).Contents (Elt F) → (⟨S1x128x32768, .f32⟩ : BufTy).Contents (Elt F)),
    unary main_v12 main_v31 (broadcastInDim S1x128x32768 ![1, 2] bcast_S128x32768_S1x128x32768_1_2 : (⟨S128x32768, .f32⟩ : BufTy).Contents (Elt F) → (⟨S1x128x32768, .f32⟩ : BufTy).Contents (Elt F)),
    nary ![main_v30, main_v22, main_v29, main_v31] main_v32 (fun u => concatenate S14x128x32768 0 [⟨S1x128x32768, u 0⟩, ⟨S8x128x32768, u 1⟩, ⟨S4x128x32768, u 2⟩, ⟨S1x128x32768, u 3⟩] concatenates_S1x128x32768_S8x128x32768_S4x128x32768_S1x128x32768_S14x128x32768_d0) ]

/-- The line is its three stretches, in order. -/
theorem ops_split : (ops : List (HloOp τ sig (Elt F))) = ops1 ++ (ops2 ++ ops3) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., nary_bufs_sub ..⟩
theorem ops1_sub : (ops1 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub ..⟩
theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩
theorem ops3_sub : (ops3 : List (HloOp τ sig (Elt F))).Forall fun op => op.bufs ⊆ tcRefs τ sig :=
  nary_bufs_sub ..

/-- Two lines run one after the other leave what the second leaves from what the first left. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The first stretch's results, from any contents -/

section Stretch1
variable (V : Valuation τ sig (Elt F))

/-- The spike. -/
theorem res1_v5 : after ops1 V (Proc.devRef .tc main_v5) = (uitofp .f32 (cmpf .oge (subf (V (Proc.devRef .tc main_arg0)) (addf (V (Proc.devRef .tc main_arg1)) (broadcastInDim S128x32768 ![] bcast_S_S128x32768 (constant S_ .f32 0x3F800000#32)))) (broadcastInDim S128x32768 ![] bcast_S_S128x32768 (constant S_ .f32 0x00000000#32)))) := by
  after_results <;> rfl
/-- The new threshold. -/
theorem res1_v12 : after ops1 V (Proc.devRef .tc main_v12) = (addf (mulf (V (Proc.devRef .tc main_arg1)) (broadcastInDim S128x32768 ![0, 1] bcast_S1x32768_S128x32768_0_1 (broadcastInDim S1x32768 ![1] bcast_S32768_S1x32768_1 (V (Proc.devRef .tc main_arg2))))) (mulf (uitofp .f32 (cmpf .oge (subf (V (Proc.devRef .tc main_arg0)) (addf (V (Proc.devRef .tc main_arg1)) (broadcastInDim S128x32768 ![] bcast_S_S128x32768 (constant S_ .f32 0x3F800000#32)))) (broadcastInDim S128x32768 ![] bcast_S_S128x32768 (constant S_ .f32 0x00000000#32)))) (broadcastInDim S128x32768 ![0, 1] bcast_S1x32768_S128x32768_0_1 (broadcastInDim S1x32768 ![1] bcast_S32768_S1x32768_1 (V (Proc.devRef .tc main_arg3)))))) := by
  after_results <;> rfl
/-- The spike as one page. -/
theorem res1_v13 : after ops1 V (Proc.devRef .tc main_v13) = (broadcastInDim S1x128x32768 ![1, 2] bcast_S128x32768_S1x128x32768_1_2 (uitofp .f32 (cmpf .oge (subf (V (Proc.devRef .tc main_arg0)) (addf (V (Proc.devRef .tc main_arg1)) (broadcastInDim S128x32768 ![] bcast_S_S128x32768 (constant S_ .f32 0x3F800000#32)))) (broadcastInDim S128x32768 ![] bcast_S_S128x32768 (constant S_ .f32 0x00000000#32))))) := by
  after_results <;> rfl
/-- The old buffer's first fifteen pages. -/
theorem res1_v14 : after ops1 V (Proc.devRef .tc main_v14) = (extractStridedSlice S15x128x32768 ![0, 0, 0] (V (Proc.devRef .tc main_arg4)) slices_S16x128x32768_S15x128x32768_0_0_0) := by
  after_results <;> rfl
theorem res1_arg0 : after ops1 V (Proc.devRef .tc main_arg0) = V (Proc.devRef .tc main_arg0) := by
  after_results <;> rfl
theorem res1_arg1 : after ops1 V (Proc.devRef .tc main_arg1) = V (Proc.devRef .tc main_arg1) := by
  after_results <;> rfl
theorem res1_arg2 : after ops1 V (Proc.devRef .tc main_arg2) = V (Proc.devRef .tc main_arg2) := by
  after_results <;> rfl
theorem res1_arg3 : after ops1 V (Proc.devRef .tc main_arg3) = V (Proc.devRef .tc main_arg3) := by
  after_results <;> rfl
theorem res1_arg4 : after ops1 V (Proc.devRef .tc main_arg4) = V (Proc.devRef .tc main_arg4) := by
  after_results <;> rfl
theorem res1_arg5 : after ops1 V (Proc.devRef .tc main_arg5) = V (Proc.devRef .tc main_arg5) := by
  after_results <;> rfl
theorem res1_arg6 : after ops1 V (Proc.devRef .tc main_arg6) = V (Proc.devRef .tc main_arg6) := by
  after_results <;> rfl
end Stretch1

/-! ## The second stretch's results, from any contents -/

section Stretch2
variable (W : Valuation τ sig (Elt F))

/-- Slot 0: the spike page. -/
theorem res2_v30 : after ops2 W (Proc.devRef .tc main_v30) = (broadcastInDim S1x128x32768 ![1, 2] bcast_S128x32768_S1x128x32768_1_2 (W (Proc.devRef .tc main_v5))) := by
  after_results <;> rfl
/-- Slot 13: the new threshold as one page. -/
theorem res2_v31 : after ops2 W (Proc.devRef .tc main_v31) = (broadcastInDim S1x128x32768 ![1, 2] bcast_S128x32768_S1x128x32768_1_2 (W (Proc.devRef .tc main_v12))) := by
  after_results <;> rfl
/-- Slots 1 to 8: the pushed buffer gathered at the eight delays, negative ones wrapped. -/
theorem res2_v22 : after ops2 W (Proc.devRef .tc main_v22) = (Host.gather gather_S16x128x32768_S8x1_S8x128x32768_12_0_n_n_0_1_112832768 (concatenate S16x128x32768 0 [⟨S1x128x32768, (W (Proc.devRef .tc main_v13))⟩, ⟨S15x128x32768, (W (Proc.devRef .tc main_v14))⟩] concatenates_S1x128x32768_S15x128x32768_S16x128x32768_d0) (broadcastInDim S8x1 ![0] bcast_S8_S8x1_0 (select (cmpi .slt (W (Proc.devRef .tc main_arg5)) (broadcastInDim S8 ![] bcast_S_S8 (constantI S_ 32 0#32))) (addi (W (Proc.devRef .tc main_arg5)) (broadcastInDim S8 ![] bcast_S_S8 (constantI S_ 32 16#32))) (W (Proc.devRef .tc main_arg5))))) := by
  after_results <;> rfl
/-- Slots 9 to 12: the pushed buffer gathered at the four cross-area delays, negative ones wrapped. -/
theorem res2_v29 : after ops2 W (Proc.devRef .tc main_v29) = (Host.gather gather_S16x128x32768_S4x1_S4x128x32768_12_0_n_n_0_1_112832768 (concatenate S16x128x32768 0 [⟨S1x128x32768, (W (Proc.devRef .tc main_v13))⟩, ⟨S15x128x32768, (W (Proc.devRef .tc main_v14))⟩] concatenates_S1x128x32768_S15x128x32768_S16x128x32768_d0) (broadcastInDim S4x1 ![0] bcast_S4_S4x1_0 (select (cmpi .slt (W (Proc.devRef .tc main_arg6)) (broadcastInDim S4 ![] bcast_S_S4 (constantI S_ 32 0#32))) (addi (W (Proc.devRef .tc main_arg6)) (broadcastInDim S4 ![] bcast_S_S4 (constantI S_ 32 16#32))) (W (Proc.devRef .tc main_arg6))))) := by
  after_results <;> rfl
theorem res2_arg0 : after ops2 W (Proc.devRef .tc main_arg0) = W (Proc.devRef .tc main_arg0) := by
  after_results <;> rfl
theorem res2_arg1 : after ops2 W (Proc.devRef .tc main_arg1) = W (Proc.devRef .tc main_arg1) := by
  after_results <;> rfl
theorem res2_arg2 : after ops2 W (Proc.devRef .tc main_arg2) = W (Proc.devRef .tc main_arg2) := by
  after_results <;> rfl
theorem res2_arg3 : after ops2 W (Proc.devRef .tc main_arg3) = W (Proc.devRef .tc main_arg3) := by
  after_results <;> rfl
theorem res2_arg4 : after ops2 W (Proc.devRef .tc main_arg4) = W (Proc.devRef .tc main_arg4) := by
  after_results <;> rfl
theorem res2_arg5 : after ops2 W (Proc.devRef .tc main_arg5) = W (Proc.devRef .tc main_arg5) := by
  after_results <;> rfl
theorem res2_arg6 : after ops2 W (Proc.devRef .tc main_arg6) = W (Proc.devRef .tc main_arg6) := by
  after_results <;> rfl
end Stretch2

/-! ## The last operation's result, from any contents -/

section Stretch3
variable (W : Valuation τ sig (Elt F))

/-- The fourteen slots: the four pieces joined. -/
theorem res3_v32 : after ops3 W (Proc.devRef .tc main_v32) = concatenate S14x128x32768 0 [⟨S1x128x32768, (W (Proc.devRef .tc main_v30))⟩, ⟨S8x128x32768, (W (Proc.devRef .tc main_v22))⟩, ⟨S4x128x32768, (W (Proc.devRef .tc main_v29))⟩, ⟨S1x128x32768, (W (Proc.devRef .tc main_v31))⟩] concatenates_S1x128x32768_S8x128x32768_S4x128x32768_S1x128x32768_S14x128x32768_d0 := by
  after_results <;> rfl
theorem res3_arg0 : after ops3 W (Proc.devRef .tc main_arg0) = W (Proc.devRef .tc main_arg0) := by
  after_results <;> rfl
theorem res3_arg1 : after ops3 W (Proc.devRef .tc main_arg1) = W (Proc.devRef .tc main_arg1) := by
  after_results <;> rfl
theorem res3_arg2 : after ops3 W (Proc.devRef .tc main_arg2) = W (Proc.devRef .tc main_arg2) := by
  after_results <;> rfl
theorem res3_arg3 : after ops3 W (Proc.devRef .tc main_arg3) = W (Proc.devRef .tc main_arg3) := by
  after_results <;> rfl
theorem res3_arg4 : after ops3 W (Proc.devRef .tc main_arg4) = W (Proc.devRef .tc main_arg4) := by
  after_results <;> rfl
theorem res3_arg5 : after ops3 W (Proc.devRef .tc main_arg5) = W (Proc.devRef .tc main_arg5) := by
  after_results <;> rfl
theorem res3_arg6 : after ops3 W (Proc.devRef .tc main_arg6) = W (Proc.devRef .tc main_arg6) := by
  after_results <;> rfl
end Stretch3

/-! ## The whole line -/

section Whole
variable (V : Valuation τ sig (Elt F))

/-- The result after all thirty-nine operations, over the arguments' contents. -/
theorem res_v32 : after ops V (Proc.devRef .tc main_v32) = concatenate S14x128x32768 0 [⟨S1x128x32768, (broadcastInDim S1x128x32768 ![1, 2] bcast_S128x32768_S1x128x32768_1_2 (uitofp .f32 (cmpf .oge (subf (V (Proc.devRef .tc main_arg0)) (addf (V (Proc.devRef .tc main_arg1)) (broadcastInDim S128x32768 ![] bcast_S_S128x32768 (constant S_ .f32 0x3F800000#32)))) (broadcastInDim S128x32768 ![] bcast_S_S128x32768 (constant S_ .f32 0x00000000#32)))))⟩, ⟨S8x128x32768, (Host.gather gather_S16x128x32768_S8x1_S8x128x32768_12_0_n_n_0_1_112832768 (concatenate S16x128x32768 0 [⟨S1x128x32768, (broadcastInDim S1x128x32768 ![1, 2] bcast_S128x32768_S1x128x32768_1_2 (uitofp .f32 (cmpf .oge (subf (V (Proc.devRef .tc main_arg0)) (addf (V (Proc.devRef .tc main_arg1)) (broadcastInDim S128x32768 ![] bcast_S_S128x32768 (constant S_ .f32 0x3F800000#32)))) (broadcastInDim S128x32768 ![] bcast_S_S128x32768 (constant S_ .f32 0x00000000#32)))))⟩, ⟨S15x128x32768, (extractStridedSlice S15x128x32768 ![0, 0, 0] (V (Proc.devRef .tc main_arg4)) slices_S16x128x32768_S15x128x32768_0_0_0)⟩] concatenates_S1x128x32768_S15x128x32768_S16x128x32768_d0) (broadcastInDim S8x1 ![0] bcast_S8_S8x1_0 (select (cmpi .slt (V (Proc.devRef .tc main_arg5)) (broadcastInDim S8 ![] bcast_S_S8 (constantI S_ 32 0#32))) (addi (V (Proc.devRef .tc main_arg5)) (broadcastInDim S8 ![] bcast_S_S8 (constantI S_ 32 16#32))) (V (Proc.devRef .tc main_arg5)))))⟩, ⟨S4x128x32768, (Host.gather gather_S16x128x32768_S4x1_S4x128x32768_12_0_n_n_0_1_112832768 (concatenate S16x128x32768 0 [⟨S1x128x32768, (broadcastInDim S1x128x32768 ![1, 2] bcast_S128x32768_S1x128x32768_1_2 (uitofp .f32 (cmpf .oge (subf (V (Proc.devRef .tc main_arg0)) (addf (V (Proc.devRef .tc main_arg1)) (broadcastInDim S128x32768 ![] bcast_S_S128x32768 (constant S_ .f32 0x3F800000#32)))) (broadcastInDim S128x32768 ![] bcast_S_S128x32768 (constant S_ .f32 0x00000000#32)))))⟩, ⟨S15x128x32768, (extractStridedSlice S15x128x32768 ![0, 0, 0] (V (Proc.devRef .tc main_arg4)) slices_S16x128x32768_S15x128x32768_0_0_0)⟩] concatenates_S1x128x32768_S15x128x32768_S16x128x32768_d0) (broadcastInDim S4x1 ![0] bcast_S4_S4x1_0 (select (cmpi .slt (V (Proc.devRef .tc main_arg6)) (broadcastInDim S4 ![] bcast_S_S4 (constantI S_ 32 0#32))) (addi (V (Proc.devRef .tc main_arg6)) (broadcastInDim S4 ![] bcast_S_S4 (constantI S_ 32 16#32))) (V (Proc.devRef .tc main_arg6)))))⟩, ⟨S1x128x32768, (broadcastInDim S1x128x32768 ![1, 2] bcast_S128x32768_S1x128x32768_1_2 (addf (mulf (V (Proc.devRef .tc main_arg1)) (broadcastInDim S128x32768 ![0, 1] bcast_S1x32768_S128x32768_0_1 (broadcastInDim S1x32768 ![1] bcast_S32768_S1x32768_1 (V (Proc.devRef .tc main_arg2))))) (mulf (uitofp .f32 (cmpf .oge (subf (V (Proc.devRef .tc main_arg0)) (addf (V (Proc.devRef .tc main_arg1)) (broadcastInDim S128x32768 ![] bcast_S_S128x32768 (constant S_ .f32 0x3F800000#32)))) (broadcastInDim S128x32768 ![] bcast_S_S128x32768 (constant S_ .f32 0x00000000#32)))) (broadcastInDim S128x32768 ![0, 1] bcast_S1x32768_S128x32768_0_1 (broadcastInDim S1x32768 ![1] bcast_S32768_S1x32768_1 (V (Proc.devRef .tc main_arg3)))))))⟩] concatenates_S1x128x32768_S8x128x32768_S4x128x32768_S1x128x32768_S14x128x32768_d0 := by
  rw [ops_split, after_app, after_app, res3_v32, res2_v30, res2_v22, res2_v29, res2_v31, res1_v5, res1_v12, res1_v13, res1_v14, res1_arg5, res1_arg6]
theorem res_arg0 : after ops V (Proc.devRef .tc main_arg0) = V (Proc.devRef .tc main_arg0) := by
  rw [ops_split, after_app, after_app, res3_arg0, res2_arg0, res1_arg0]
theorem res_arg1 : after ops V (Proc.devRef .tc main_arg1) = V (Proc.devRef .tc main_arg1) := by
  rw [ops_split, after_app, after_app, res3_arg1, res2_arg1, res1_arg1]
theorem res_arg2 : after ops V (Proc.devRef .tc main_arg2) = V (Proc.devRef .tc main_arg2) := by
  rw [ops_split, after_app, after_app, res3_arg2, res2_arg2, res1_arg2]
theorem res_arg3 : after ops V (Proc.devRef .tc main_arg3) = V (Proc.devRef .tc main_arg3) := by
  rw [ops_split, after_app, after_app, res3_arg3, res2_arg3, res1_arg3]
theorem res_arg4 : after ops V (Proc.devRef .tc main_arg4) = V (Proc.devRef .tc main_arg4) := by
  rw [ops_split, after_app, after_app, res3_arg4, res2_arg4, res1_arg4]
theorem res_arg5 : after ops V (Proc.devRef .tc main_arg5) = V (Proc.devRef .tc main_arg5) := by
  rw [ops_split, after_app, after_app, res3_arg5, res2_arg5, res1_arg5]
theorem res_arg6 : after ops V (Proc.devRef .tc main_arg6) = V (Proc.devRef .tc main_arg6) := by
  rw [ops_split, after_app, after_app, res3_arg6, res2_arg6, res1_arg6]
end Whole

/-! ## The run -/

set_option maxHeartbeats 2000000 in
/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = concatenate S14x128x32768 0 [⟨S1x128x32768, (broadcastInDim S1x128x32768 ![1, 2] bcast_S128x32768_S1x128x32768_1_2 (uitofp .f32 (cmpf .oge (subf (m ((c.tc : Thread nD τ).loc main_arg0)) (addf (m ((c.tc : Thread nD τ).loc main_arg1)) (broadcastInDim S128x32768 ![] bcast_S_S128x32768 (constant S_ .f32 0x3F800000#32)))) (broadcastInDim S128x32768 ![] bcast_S_S128x32768 (constant S_ .f32 0x00000000#32)))))⟩, ⟨S8x128x32768, (Host.gather gather_S16x128x32768_S8x1_S8x128x32768_12_0_n_n_0_1_112832768 (concatenate S16x128x32768 0 [⟨S1x128x32768, (broadcastInDim S1x128x32768 ![1, 2] bcast_S128x32768_S1x128x32768_1_2 (uitofp .f32 (cmpf .oge (subf (m ((c.tc : Thread nD τ).loc main_arg0)) (addf (m ((c.tc : Thread nD τ).loc main_arg1)) (broadcastInDim S128x32768 ![] bcast_S_S128x32768 (constant S_ .f32 0x3F800000#32)))) (broadcastInDim S128x32768 ![] bcast_S_S128x32768 (constant S_ .f32 0x00000000#32)))))⟩, ⟨S15x128x32768, (extractStridedSlice S15x128x32768 ![0, 0, 0] (m ((c.tc : Thread nD τ).loc main_arg4)) slices_S16x128x32768_S15x128x32768_0_0_0)⟩] concatenates_S1x128x32768_S15x128x32768_S16x128x32768_d0) (broadcastInDim S8x1 ![0] bcast_S8_S8x1_0 (select (cmpi .slt (m ((c.tc : Thread nD τ).loc main_arg5)) (broadcastInDim S8 ![] bcast_S_S8 (constantI S_ 32 0#32))) (addi (m ((c.tc : Thread nD τ).loc main_arg5)) (broadcastInDim S8 ![] bcast_S_S8 (constantI S_ 32 16#32))) (m ((c.tc : Thread nD τ).loc main_arg5)))))⟩, ⟨S4x128x32768, (Host.gather gather_S16x128x32768_S4x1_S4x128x32768_12_0_n_n_0_1_112832768 (concatenate S16x128x32768 0 [⟨S1x128x32768, (broadcastInDim S1x128x32768 ![1, 2] bcast_S128x32768_S1x128x32768_1_2 (uitofp .f32 (cmpf .oge (subf (m ((c.tc : Thread nD τ).loc main_arg0)) (addf (m ((c.tc : Thread nD τ).loc main_arg1)) (broadcastInDim S128x32768 ![] bcast_S_S128x32768 (constant S_ .f32 0x3F800000#32)))) (broadcastInDim S128x32768 ![] bcast_S_S128x32768 (constant S_ .f32 0x00000000#32)))))⟩, ⟨S15x128x32768, (extractStridedSlice S15x128x32768 ![0, 0, 0] (m ((c.tc : Thread nD τ).loc main_arg4)) slices_S16x128x32768_S15x128x32768_0_0_0)⟩] concatenates_S1x128x32768_S15x128x32768_S16x128x32768_d0) (broadcastInDim S4x1 ![0] bcast_S4_S4x1_0 (select (cmpi .slt (m ((c.tc : Thread nD τ).loc main_arg6)) (broadcastInDim S4 ![] bcast_S_S4 (constantI S_ 32 0#32))) (addi (m ((c.tc : Thread nD τ).loc main_arg6)) (broadcastInDim S4 ![] bcast_S_S4 (constantI S_ 32 16#32))) (m ((c.tc : Thread nD τ).loc main_arg6)))))⟩, ⟨S1x128x32768, (broadcastInDim S1x128x32768 ![1, 2] bcast_S128x32768_S1x128x32768_1_2 (addf (mulf (m ((c.tc : Thread nD τ).loc main_arg1)) (broadcastInDim S128x32768 ![0, 1] bcast_S1x32768_S128x32768_0_1 (broadcastInDim S1x32768 ![1] bcast_S32768_S1x32768_1 (m ((c.tc : Thread nD τ).loc main_arg2))))) (mulf (uitofp .f32 (cmpf .oge (subf (m ((c.tc : Thread nD τ).loc main_arg0)) (addf (m ((c.tc : Thread nD τ).loc main_arg1)) (broadcastInDim S128x32768 ![] bcast_S_S128x32768 (constant S_ .f32 0x3F800000#32)))) (broadcastInDim S128x32768 ![] bcast_S_S128x32768 (constant S_ .f32 0x00000000#32)))) (broadcastInDim S128x32768 ![0, 1] bcast_S1x32768_S128x32768_0_1 (broadcastInDim S1x32768 ![1] bcast_S32768_S1x32768_1 (m ((c.tc : Thread nD τ).loc main_arg3)))))))⟩] concatenates_S1x128x32768_S8x128x32768_S4x128x32768_S1x128x32768_S14x128x32768_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v32).trans (res_v32 (launchContents m c)),
      (h c main_arg0).trans (res_arg0 (launchContents m c)),
      (h c main_arg1).trans (res_arg1 (launchContents m c)),
      (h c main_arg2).trans (res_arg2 (launchContents m c)),
      (h c main_arg3).trans (res_arg3 (launchContents m c)),
      (h c main_arg4).trans (res_arg4 (launchContents m c)),
      (h c main_arg5).trans (res_arg5 (launchContents m c)),
      (h c main_arg6).trans (res_arg6 (launchContents m c))⟩)
    (run_seq scopedRefs_eq scopedSems_eq defs main (fun _ => ops) main_eq (fun _ => ops_sub) m ρ)

end Cert.ReferenceIdeal.HandRun

end
-- ==== Proof.RefPages.lean ====
/-
  Reading the pushed buffer and its gathers at an index, over the literal shapes only.

  The pushed buffer is the new page laid in front of the first fifteen pages of the old buffer, so its page 0 is
  the new page and its page p ≥ 1 is the old page p - 1. A gather of whole pages reads, at (k, b, n), the operand
  at (start index of row k read signed and clamped into [0, 15], b, n). The result's fourteen slots are four
  pieces laid end to end along the first axis: one page, eight gathered pages, four gathered pages, one page.
  Beside these, three facts on single values: for real v, t the difference v - (t + 1) is (v - t) - 1; the
  one-bit comparison "z ≤ a" converted to a float is the indicator of z ≤ a; and a non-negative delay is left
  unchanged by the wrap "d + 16 where d < 0".
-/
import Idealize.ShloMosaic.PureOps.Ideal
import Idealize.ShloMosaic.Lib.ValueIdx
import Idealize.ShloMosaic.Lib.IdealHost
import Idealize.ShloMosaic.Lib.Pipeline.Value
import Idealize.ShloMosaic.Lib.Affine

noncomputable section

namespace Cert.RefPages

open Idealize.ShloMosaic Idealize.ShloMosaic.ValueIdx

/-- The dimension numbers of a gather of whole pages: operand [16, 128, 32768], start indices [K, 1]. -/
abbrev pageDims (K : Nat) (wf : GatherDims.WF ⟨3, ![16, 128, 32768]⟩ ⟨2, ![K, 1]⟩ ⟨3, ![K, 128, 32768]⟩ [1, 2] [0] [] [0] [] 1 ![1, 128, 32768]) :
    GatherDims ⟨3, ![16, 128, 32768]⟩ ⟨2, ![K, 1]⟩ ⟨3, ![K, 128, 32768]⟩ where
  offsetDims := [1, 2]
  collapsedSliceDims := [0]
  operandBatchingDims := []
  startIndicesBatchingDims := []
  startIndexMap := [0]
  indexVectorDim := 1
  sliceSizes := ![1, 128, 32768]
  wf := wf

abbrev colIdx {K : Nat} (k : Fin K) : (⟨2, ![K, 1]⟩ : Shape).Idx := fun a => match a with | ⟨0, _⟩ => k | ⟨1, _⟩ => (0 : Fin 1)

section
variable {K w : Nat}
  (wf : GatherDims.WF ⟨3, ![16, 128, 32768]⟩ ⟨2, ![K, 1]⟩ ⟨3, ![K, 128, 32768]⟩ [1, 2] [0] [] [0] [] 1 ![1, 128, 32768])
  (idx : IVec ⟨2, ![K, 1]⟩ w) (k : Fin K) (b : Fin 128) (n : Fin 32768)

theorem page_axis0 :
    (pageDims K wf).start (ix3 k b n) idx 0 + (pageDims K wf).batchCoord (ix3 k b n) 0 + (pageDims K wf).offCoord (ix3 k b n) 0
      = min (idx (colIdx k)).toInt.toNat 15 := by
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 3) ∈ (pageDims K wf).startIndexMap from List.mem_singleton.mpr rfl)]
  have hsi : (pageDims K wf).siIdx (ix3 k b n) ⟨List.idxOf (0 : Fin 3) (pageDims K wf).startIndexMap,
      List.idxOf_lt_length_iff.2 (List.mem_singleton.mpr rfl)⟩ = colIdx k := by
    funext c; refine Fin.ext ?_
    match c with
    | ⟨0, _⟩ => rfl
    | ⟨1, _⟩ => rfl
  rw [hsi]
  rfl

theorem page_axis1 :
    (pageDims K wf).start (ix3 k b n) idx 1 + (pageDims K wf).batchCoord (ix3 k b n) 1 + (pageDims K wf).offCoord (ix3 k b n) 1
      = b.val := by
  rw [GatherDims.batchCoord_eq_zero _ _ _ List.not_mem_nil, Nat.add_zero]
  unfold GatherDims.start
  rw [dif_neg (show ¬ (1 : Fin 3) ∈ [(0 : Fin 3)] by decide), Nat.zero_add]
  rfl

theorem page_axis2 :
    (pageDims K wf).start (ix3 k b n) idx 2 + (pageDims K wf).batchCoord (ix3 k b n) 2 + (pageDims K wf).offCoord (ix3 k b n) 2
      = n.val := by
  rw [GatherDims.batchCoord_eq_zero _ _ _ List.not_mem_nil, Nat.add_zero]
  unfold GatherDims.start
  rw [dif_neg (show ¬ (2 : Fin 3) ∈ [(0 : Fin 3)] by decide), Nat.zero_add]
  rfl

end

theorem gather_page_apply {α : Type} {K w : Nat}
    (wf : GatherDims.WF ⟨3, ![16, 128, 32768]⟩ ⟨2, ![K, 1]⟩ ⟨3, ![K, 128, 32768]⟩ [1, 2] [0] [] [0] [] 1 ![1, 128, 32768])
    (x : (⟨3, ![16, 128, 32768]⟩ : Shape).Idx → α) (idx : IVec ⟨2, ![K, 1]⟩ w) (k : Fin K) (b : Fin 128) (n : Fin 32768) :
    Host.gather (pageDims K wf) x idx (ix3 k b n)
      = x (ix3 (⟨min (idx (colIdx k)).toInt.toNat 15, by omega⟩ : Fin 16) b n) := by
  unfold Host.gather
  congr 1
  funext a
  refine Fin.ext ?_
  match a with
  | ⟨0, _⟩ => exact page_axis0 wf idx k b n
  | ⟨1, _⟩ => exact page_axis1 wf idx k b n
  | ⟨2, _⟩ => exact page_axis2 wf idx k b n

/-- For real v, t: v - (t + 1) = (v - t) - 1. -/
theorem sub_add_one (v t : EReal) (hv : ∃ x : ℝ, v = (x : EReal)) (ht : ∃ y : ℝ, t = (y : EReal)) :
    v - (t + Ideal.ofBits .f32 0x3F800000#32) = (v - t) - Ideal.ofBits .f32 0x3F800000#32 := by
  obtain ⟨x, rfl⟩ := hv
  obtain ⟨y, rfl⟩ := ht
  rw [Ideal.ofBits_one_f32]
  norm_cast
  ring

/-- The one-bit comparison converted to a float is the indicator. -/
theorem uitofp_cmp_oge (a z : EReal) :
    (FloatOps.uitofp (F := Ideal) .f32 (FloatOps.cmpf (F := Ideal) (φ := .f32) .oge a z) : EReal) = if z ≤ a then 1 else 0 := by
  show (((Ideal.cmp .oge a z).toNat : ℝ) : EReal) = _
  unfold Ideal.cmp
  by_cases h : z ≤ a
  · simp [h]
  · simp [h]

theorem select_nonneg (d : BitVec 32) (hd : 0 ≤ d.toInt) :
    Scalar.select (IntOp.cmpi .slt d 0#32) (IntOp.addi d 16#32) d = d := by
  have : IntOp.cmpi .slt d 0#32 = 0#1 := by
    apply eq_zero_of_ne_one
    intro h
    have := (IntOp.cmpi_slt (x := d) (y := 0#32)).mp h
    simp at this
    omega
  rw [this, select_zero]

abbrev T1 : Shape := ⟨3, ![1, 128, 32768]⟩
abbrev T4 : Shape := ⟨3, ![4, 128, 32768]⟩
abbrev T8 : Shape := ⟨3, ![8, 128, 32768]⟩
abbrev T14 : Shape := ⟨3, ![14, 128, 32768]⟩
abbrev T15 : Shape := ⟨3, ![15, 128, 32768]⟩
abbrev T16 : Shape := ⟨3, ![16, 128, 32768]⟩

section Pushed
variable {α : Type} (x₁ : T1.Idx → α) (x₂ : T15.Idx → α) (h : Shape.Concatenates [T1, T15] T16 0)
  (p : Fin 16) (b : Fin 128) (n : Fin 32768)

/-- Page 0 of the pushed buffer is the pushed page. -/
theorem pushed_zero (hp : p.val = 0) :
    concatenate T16 0 [⟨T1, x₁⟩, ⟨T15, x₂⟩] h (ix3 p b n) = x₁ (ix3 (0 : Fin 1) b n) :=
  concatenate_pair_apply_left 0 x₁ x₂ h (ix3 p b n) rfl (ix3 (0 : Fin 1) b n)
    (fun c => match c with | ⟨0, _⟩ => hp.symm | ⟨1, _⟩ => rfl | ⟨2, _⟩ => rfl)

/-- Page p ≥ 1 of the pushed buffer is page p - 1 of the old one. -/
theorem pushed_succ (hp : 1 ≤ p.val) :
    concatenate T16 0 [⟨T1, x₁⟩, ⟨T15, x₂⟩] h (ix3 p b n) = x₂ (ix3 (⟨p.val - 1, by omega⟩ : Fin 15) b n) :=
  concatenate_pair_apply_right 0 x₁ x₂ h (ix3 p b n) rfl rfl (ix3 (⟨p.val - 1, by omega⟩ : Fin 15) b n)
    (fun c => match c with
      | ⟨0, _⟩ => fun hc => absurd rfl hc
      | ⟨1, _⟩ => fun _ => rfl
      | ⟨2, _⟩ => fun _ => rfl)
    (by show p.val - 1 + 1 = p.val; omega)
end Pushed

section Slots
variable {α : Type} (u0 : T1.Idx → α) (u1 : T8.Idx → α) (u2 : T4.Idx → α) (u3 : T1.Idx → α)
  (h : Shape.Concatenates [T1, T8, T4, T1] T14 0) (s : Fin 14) (b : Fin 128) (n : Fin 32768)

theorem slots_first (hs : s.val = 0) :
    concatenate T14 0 [⟨T1, u0⟩, ⟨T8, u1⟩, ⟨T4, u2⟩, ⟨T1, u3⟩] h (ix3 s b n) = u0 (ix3 (0 : Fin 1) b n) :=
  concatenate_apply_piece 0 [⟨T1, u0⟩, ⟨T8, u1⟩, ⟨T4, u2⟩, ⟨T1, u3⟩] h (ix3 s b n) 0 (by show 0 < 4; omega) T1 u0 rfl rfl 0 rfl
    (ix3 (0 : Fin 1) b n)
    (fun c => match c with
      | ⟨0, _⟩ => fun hc => absurd rfl hc
      | ⟨1, _⟩ => fun _ => rfl
      | ⟨2, _⟩ => fun _ => rfl)
    (by show 0 + 0 = s.val; omega)

theorem slots_eight (hs : 1 ≤ s.val) (hs' : s.val ≤ 8) :
    concatenate T14 0 [⟨T1, u0⟩, ⟨T8, u1⟩, ⟨T4, u2⟩, ⟨T1, u3⟩] h (ix3 s b n) = u1 (ix3 (⟨s.val - 1, by omega⟩ : Fin 8) b n) :=
  concatenate_apply_piece 0 [⟨T1, u0⟩, ⟨T8, u1⟩, ⟨T4, u2⟩, ⟨T1, u3⟩] h (ix3 s b n) 1 (by show 1 < 4; omega) T8 u1 rfl rfl 1 rfl
    (ix3 (⟨s.val - 1, by omega⟩ : Fin 8) b n)
    (fun c => match c with
      | ⟨0, _⟩ => fun hc => absurd rfl hc
      | ⟨1, _⟩ => fun _ => rfl
      | ⟨2, _⟩ => fun _ => rfl)
    (by show 1 + (s.val - 1) = s.val; omega)

theorem slots_four (hs : 9 ≤ s.val) (hs' : s.val ≤ 12) :
    concatenate T14 0 [⟨T1, u0⟩, ⟨T8, u1⟩, ⟨T4, u2⟩, ⟨T1, u3⟩] h (ix3 s b n) = u2 (ix3 (⟨s.val - 9, by omega⟩ : Fin 4) b n) :=
  concatenate_apply_piece 0 [⟨T1, u0⟩, ⟨T8, u1⟩, ⟨T4, u2⟩, ⟨T1, u3⟩] h (ix3 s b n) 2 (by show 2 < 4; omega) T4 u2 rfl rfl 9 rfl
    (ix3 (⟨s.val - 9, by omega⟩ : Fin 4) b n)
    (fun c => match c with
      | ⟨0, _⟩ => fun hc => absurd rfl hc
      | ⟨1, _⟩ => fun _ => rfl
      | ⟨2, _⟩ => fun _ => rfl)
    (by show 9 + (s.val - 9) = s.val; omega)

theorem slots_last (hs : s.val = 13) :
    concatenate T14 0 [⟨T1, u0⟩, ⟨T8, u1⟩, ⟨T4, u2⟩, ⟨T1, u3⟩] h (ix3 s b n) = u3 (ix3 (0 : Fin 1) b n) :=
  concatenate_apply_piece 0 [⟨T1, u0⟩, ⟨T8, u1⟩, ⟨T4, u2⟩, ⟨T1, u3⟩] h (ix3 s b n) 3 (by show 3 < 4; omega) T1 u3 rfl rfl 13 rfl
    (ix3 (0 : Fin 1) b n)
    (fun c => match c with
      | ⟨0, _⟩ => fun hc => absurd rfl hc
      | ⟨1, _⟩ => fun _ => rfl
      | ⟨2, _⟩ => fun _ => rfl)
    (by show 13 + 0 = s.val; omega)
end Slots

end Cert.RefPages

end
-- ==== Proof.RefValue.lean ====
/-
  The reference's run ends with its result array equal to the specification of its arguments.

  The reference computes the spike X from v - (t + 1) ≥ 0, pushes it in front of the first fifteen pages of the
  buffer, and gathers the pushed buffer at the delays after wrapping the negative ones by 16; the gather clamps
  its start index into [0, 15]. For real v and t the spike is the specification's, and for non-negative delays the
  wrap does nothing and the clamped start index is the specification's page. Slot by slot the run's composed
  term is then the specification.
-/
import proofs.«427882_j47579647705427_3_alg».proof.Proof.RefRunByHand
import proofs.«427882_j47579647705427_3_alg».proof.Proof.RefReadPatched
import proofs.«427882_j47579647705427_3_alg».proof.Proof.Gen.Pre_finite_inputs
import proofs.«427882_j47579647705427_3_alg».proof.Defs
import proofs.«427882_j47579647705427_3_alg».proof.Proof.Spec
import proofs.«427882_j47579647705427_3_alg».proof.Proof.RefPages

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.RefPages Cert.Spec
open Cert.ReferenceIdeal.Facts₀

section Stages

variable (x0 x1 : (⟨S128x32768, .f32⟩ : BufTy).Contents (Elt Ideal)) (x2 x3 : (⟨S32768, .f32⟩ : BufTy).Contents (Elt Ideal))
  (x4 : (⟨S16x128x32768, .f32⟩ : BufTy).Contents (Elt Ideal)) (x5 : (⟨S8, .i32⟩ : BufTy).Contents (Elt Ideal))
  (x6 : (⟨S4, .i32⟩ : BufTy).Contents (Elt Ideal))

/-- The reference's spike at an element, for real v and t, is the specification's. -/
theorem spike_at (i : S128x32768.Idx) (h0 : ∃ x : ℝ, x0 i = (x : EReal)) (h1 : ∃ y : ℝ, x1 i = (y : EReal)) :
    val_main_v5 (F := Ideal) x0 x1 i = spike (x0 i) (x1 i) := by
  rw [val_main_v5_apply, val_main_v4_apply, val_main_v2_apply, val_main_v1_apply, val_main_v0_apply, val_main_cst_apply,
    val_main_v3_apply, val_main_cst_0_apply, uitofp_cmp_oge]
  unfold spike
  simp only [Ideal.subf_def, Ideal.addf_def, Ideal.ofBits_def, sub_add_one _ _ h0 h1]

/-- The wrapped delay of row k of the eight delays, when it is non-negative, is the delay. -/
theorem wrapped8 (k : Fin 8) (h5 : 0 ≤ (x5 (ix1 k)).toInt) :
    val_main_v21 (F := Ideal) x5 (colIdx k) = x5 (ix1 k) := by
  have hi : idx_main_v21 (colIdx k) = ix1 k := funext fun a => match a with | ⟨0, _⟩ => rfl
  rw [val_main_v21_apply, hi, val_main_v20_apply, val_main_v17_apply, val_main_v16_apply, val_main_c_apply,
    val_main_v19_apply, val_main_v18_apply, val_main_c_1_apply]
  exact select_nonneg _ h5

/-- The same for the four cross-area delays. -/
theorem wrapped4 (k : Fin 4) (h6 : 0 ≤ (x6 (ix1 k)).toInt) :
    val_main_v28 (F := Ideal) x6 (colIdx k) = x6 (ix1 k) := by
  have hi : idx_main_v28 (colIdx k) = ix1 k := funext fun a => match a with | ⟨0, _⟩ => rfl
  rw [val_main_v28_apply, hi, val_main_v27_apply, val_main_v24_apply, val_main_v23_apply, val_main_c_2_apply,
    val_main_v26_apply, val_main_v25_apply, val_main_c_3_apply]
  exact select_nonneg _ h6

/-- The pushed buffer at the page a non-negative delay names: the spike at page 0, else the old buffer's page before. -/
theorem pushed_at (d : BitVec 32) (hd : 0 ≤ d.toInt) (q : Fin 16) (hq : q.val = min d.toInt.toNat 15)
    (b : Fin 128) (n : Fin 32768) (h0 : ∃ x : ℝ, x0 (ix2 b n) = (x : EReal)) (h1 : ∃ y : ℝ, x1 (ix2 b n) = (y : EReal)) :
    val_main_v15 (F := Ideal) x0 x1 x4 (ix3 q b n)
      = if page d = 0 then spike (x0 (ix2 b n)) (x1 (ix2 b n))
        else x4 (ix3 (⟨page d - 1, by have := page_le d; omega⟩ : Fin 16) b n) := by
  have hpg : q.val = page d := by rw [hq]; unfold page; omega
  unfold val_main_v15
  by_cases hp : page d = 0
  · rw [if_pos hp, pushed_zero _ _ _ q b n (by omega), val_main_v13_apply]
    have hi : idx_main_v13 (ix3 (0 : Fin 1) b n) = ix2 b n := funext fun a => match a with | ⟨0, _⟩ => rfl | ⟨1, _⟩ => rfl
    rw [hi]
    exact spike_at x0 x1 _ h0 h1
  · rw [if_neg hp, pushed_succ _ _ _ q b n (by omega), val_main_v14_apply]
    congr 1
    funext a
    refine Fin.ext ?_
    match a with
    | ⟨0, _⟩ => show q.val - 1 = page d - 1; omega
    | ⟨1, _⟩ => rfl
    | ⟨2, _⟩ => rfl

/-- The decayed threshold at an element. -/
theorem decayed_at (b : Fin 128) (n : Fin 32768) (h0 : ∃ x : ℝ, x0 (ix2 b n) = (x : EReal)) (h1 : ∃ y : ℝ, x1 (ix2 b n) = (y : EReal)) :
    val_main_v12 (F := Ideal) x0 x1 x2 x3 (ix2 b n)
      = x1 (ix2 b n) * x2 (ix1 n) + spike (x0 (ix2 b n)) (x1 (ix2 b n)) * x3 (ix1 n) := by
  have hi2 : idx_main_v6 (idx_main_v7 (ix2 b n)) = ix1 n := funext fun a => match a with | ⟨0, _⟩ => rfl
  have hi3 : idx_main_v9 (idx_main_v10 (ix2 b n)) = ix1 n := funext fun a => match a with | ⟨0, _⟩ => rfl
  rw [val_main_v12_apply, val_main_v8_apply, val_main_v7_apply, val_main_v6_apply, hi2, val_main_v11_apply,
    val_main_v10_apply, val_main_v9_apply, hi3, spike_at x0 x1 _ h0 h1]
  rfl

end Stages

/-- The specification's slot s, 1 ≤ s ≤ 12, read through the delay it names. -/
theorem G_slot (V T : Fin 128 → Fin 32768 → EReal) (al am : Fin 32768 → EReal) (buf : Fin 16 → Fin 128 → Fin 32768 → EReal)
    (dl : Fin 8 → BitVec 32) (dx : Fin 4 → BitVec 32) (s : Fin 14) (b : Fin 128) (n : Fin 32768)
    (hs0 : ¬ s.val = 0) (h12 : s.val ≤ 12) (d : BitVec 32) (hd : delayAt dl dx ⟨s.val - 1, by omega⟩ = d) :
    G V T al am buf dl dx s b n
      = if page d = 0 then spike (V b n) (T b n) else buf ⟨page d - 1, by have := page_le d; omega⟩ b n := by
  subst hd
  unfold G
  rw [if_neg hs0, dif_pos h12]

/-- The reference's result, as a function of its arguments, is the specification: V and T real, the delays non-negative. -/
theorem val_eq (x0 x1 : (⟨S128x32768, .f32⟩ : BufTy).Contents (Elt Ideal)) (x2 x3 : (⟨S32768, .f32⟩ : BufTy).Contents (Elt Ideal))
    (x4 : (⟨S16x128x32768, .f32⟩ : BufTy).Contents (Elt Ideal)) (x5 : (⟨S8, .i32⟩ : BufTy).Contents (Elt Ideal))
    (x6 : (⟨S4, .i32⟩ : BufTy).Contents (Elt Ideal))
    (h0 : ∀ i, ∃ x : ℝ, x0 i = (x : EReal)) (h1 : ∀ i, ∃ y : ℝ, x1 i = (y : EReal))
    (h5 : ∀ i, 0 ≤ (x5 i).toInt) (h6 : ∀ i, 0 ≤ (x6 i).toInt) :
    val_main_v32 (F := Ideal) x0 x1 x2 x3 x4 x5 x6 = GA x0 x1 x2 x3 x4 x5 x6 := by
  funext j
  obtain ⟨s, b, n, rfl⟩ : ∃ (s : Fin 14) (b : Fin 128) (n : Fin 32768), j = ix3 s b n := ⟨j 0, j 1, j 2, eq_ix3 j⟩
  rw [GA_apply]
  unfold val_main_v32
  by_cases hs0 : s.val = 0
  · -- slot 0: the spike
    rw [slots_first _ _ _ _ _ s b n hs0, val_main_v30_apply]
    have hi : idx_main_v30 (ix3 (0 : Fin 1) b n) = ix2 b n := funext fun a => match a with | ⟨0, _⟩ => rfl | ⟨1, _⟩ => rfl
    rw [hi, spike_at x0 x1 _ (h0 _) (h1 _)]
    unfold G
    rw [if_pos hs0]
  · by_cases h8 : s.val ≤ 8
    · -- slots 1 to 8: the pushed buffer at the eight delays
      rw [slots_eight _ _ _ _ _ s b n (by omega) h8]
      unfold val_main_v22
      rw [show gather_S16x128x32768_S8x1_S8x128x32768_12_0_n_n_0_1_112832768
            = pageDims 8 Facts₀.gather_S16x128x32768_S8x1_S8x128x32768_12_0_n_n_0_1_112832768_wf from rfl,
        gather_page_apply,
        pushed_at x0 x1 x4 (x5 (ix1 ⟨s.val - 1, by omega⟩)) (h5 _) _
          (by show min _ 15 = _; rw [wrapped8 x5 _ (h5 _)]) b n (h0 _) (h1 _)]
      have hd : delayAt (fun k => x5 (ix1 k)) (fun k => x6 (ix1 k)) ⟨s.val - 1, by omega⟩ = x5 (ix1 ⟨s.val - 1, by omega⟩) := by
        unfold delayAt; rw [dif_pos (show s.val - 1 < 8 by omega)]
      rw [G_slot _ _ _ _ _ _ _ s b n hs0 (by omega) _ hd]
    · by_cases h12 : s.val ≤ 12
      · -- slots 9 to 12: the pushed buffer at the four cross-area delays
        rw [slots_four _ _ _ _ _ s b n (by omega) h12]
        unfold val_main_v29
        rw [show gather_S16x128x32768_S4x1_S4x128x32768_12_0_n_n_0_1_112832768
              = pageDims 4 Facts₀.gather_S16x128x32768_S4x1_S4x128x32768_12_0_n_n_0_1_112832768_wf from rfl,
          gather_page_apply,
          pushed_at x0 x1 x4 (x6 (ix1 ⟨s.val - 9, by omega⟩)) (h6 _) _
            (by show min _ 15 = _; rw [wrapped4 x6 _ (h6 _)]) b n (h0 _) (h1 _)]
        have hd : delayAt (fun k => x5 (ix1 k)) (fun k => x6 (ix1 k)) ⟨s.val - 1, by omega⟩ = x6 (ix1 ⟨s.val - 9, by omega⟩) := by
          unfold delayAt; rw [dif_neg (show ¬ s.val - 1 < 8 by omega)]
          show x6 (ix1 ⟨s.val - 1 - 8, _⟩) = x6 (ix1 ⟨s.val - 9, _⟩)
          congr 2
        rw [G_slot _ _ _ _ _ _ _ s b n hs0 h12 _ hd]
      · -- slot 13: the decayed threshold
        rw [slots_last _ _ _ _ _ s b n (by have := s.isLt; omega), val_main_v31_apply]
        have hi : idx_main_v31 (ix3 (0 : Fin 1) b n) = ix2 b n := funext fun a => match a with | ⟨0, _⟩ => rfl | ⟨1, _⟩ => rfl
        rw [hi, decayed_at x0 x1 x2 x3 b n (h0 _) (h1 _)]
        unfold G
        rw [if_neg hs0, dif_neg h12]

/-- The reference's run ends with its result the specification of its arguments and its arguments unchanged. -/
theorem run_spec
    (m' : (ℓ : Loc Cert.ReferenceIdeal.nD Cert.ReferenceIdeal.τ Cert.ReferenceIdeal.sig) → Buf (Elt Ideal) ℓ)
    (ρ' : Dev Cert.ReferenceIdeal.nD → PrngReg)
    (hV : ∀ (c : Dev nD) i, ∃ x : ℝ, m' ((c.tc : Thread Cert.ReferenceIdeal.nD Cert.ReferenceIdeal.τ).loc Cert.ReferenceIdeal.main_arg0) i = (x : EReal))
    (hT : ∀ (c : Dev nD) i, ∃ x : ℝ, m' ((c.tc : Thread Cert.ReferenceIdeal.nD Cert.ReferenceIdeal.τ).loc Cert.ReferenceIdeal.main_arg1) i = (x : EReal))
    (hdl : ∀ (c : Dev nD) i, 0 ≤ (m' ((c.tc : Thread Cert.ReferenceIdeal.nD Cert.ReferenceIdeal.τ).loc Cert.ReferenceIdeal.main_arg5) i).toInt)
    (hdx : ∀ (c : Dev nD) i, 0 ≤ (m' ((c.tc : Thread Cert.ReferenceIdeal.nD Cert.ReferenceIdeal.τ).loc Cert.ReferenceIdeal.main_arg6) i).toInt) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v32)
          = Cert.Spec.GA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem (((c.tc : Thread Cert.ReferenceIdeal.nD Cert.ReferenceIdeal.τ).loc Cert.ReferenceIdeal.main_arg0)) = m' ((c.tc : Thread Cert.ReferenceIdeal.nD Cert.ReferenceIdeal.τ).loc Cert.ReferenceIdeal.main_arg0)
      ∧ r.2.mem (((c.tc : Thread Cert.ReferenceIdeal.nD Cert.ReferenceIdeal.τ).loc Cert.ReferenceIdeal.main_arg1)) = m' ((c.tc : Thread Cert.ReferenceIdeal.nD Cert.ReferenceIdeal.τ).loc Cert.ReferenceIdeal.main_arg1)
      ∧ r.2.mem (((c.tc : Thread Cert.ReferenceIdeal.nD Cert.ReferenceIdeal.τ).loc Cert.ReferenceIdeal.main_arg2)) = m' ((c.tc : Thread Cert.ReferenceIdeal.nD Cert.ReferenceIdeal.τ).loc Cert.ReferenceIdeal.main_arg2)
      ∧ r.2.mem (((c.tc : Thread Cert.ReferenceIdeal.nD Cert.ReferenceIdeal.τ).loc Cert.ReferenceIdeal.main_arg3)) = m' ((c.tc : Thread Cert.ReferenceIdeal.nD Cert.ReferenceIdeal.τ).loc Cert.ReferenceIdeal.main_arg3)
      ∧ r.2.mem (((c.tc : Thread Cert.ReferenceIdeal.nD Cert.ReferenceIdeal.τ).loc Cert.ReferenceIdeal.main_arg4)) = m' ((c.tc : Thread Cert.ReferenceIdeal.nD Cert.ReferenceIdeal.τ).loc Cert.ReferenceIdeal.main_arg4)
      ∧ r.2.mem (((c.tc : Thread Cert.ReferenceIdeal.nD Cert.ReferenceIdeal.τ).loc Cert.ReferenceIdeal.main_arg5)) = m' ((c.tc : Thread Cert.ReferenceIdeal.nD Cert.ReferenceIdeal.τ).loc Cert.ReferenceIdeal.main_arg5)
      ∧ r.2.mem (((c.tc : Thread Cert.ReferenceIdeal.nD Cert.ReferenceIdeal.τ).loc Cert.ReferenceIdeal.main_arg6)) = m' ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans ((val_main_v32_eq _ _ _ _ _ _ _).trans
        (val_eq _ _ _ _ _ _ _ (hV c) (hT c) (hdl c) (hdx c))), (h c).2⟩)
    (Cert.ReferenceIdeal.HandRun.run (F := Ideal) m' ρ')

/-- The reference runs and leaves its arguments unchanged: its run with the result dropped. -/
theorem frame_ri : Cert.frame_ReferenceIdeal :=
  fun m ρ _ => (θ_run (Cert.ReferenceIdeal.defs (F := Ideal)) _ _).mono (fun _ h c => (h c).2)
    (Cert.ReferenceIdeal.HandRun.run (F := Ideal) m ρ)

end Cert.ReferenceIdeal.RefValue

end
-- ==== Proof.PreFacts.lean ====
/-
  The precondition read back. The printed predicate is a conjunction of seven "for all entries" tests: |x| < +inf
  over each of the five real arrays, and d >= 0 (signed) over each of the two delay vectors. From the predicate
  being 1: every entry of each real array is a real number (neither infinity), and every delay is non-negative.
-/
import proofs.«427882_j47579647705427_3_alg».proof.Pre_finite_inputs
import proofs.«427882_j47579647705427_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Cert.Pre_finite_inputs

/-- The shape of rank 0 has one index. -/
instance : Subsingleton S_.Idx := ⟨fun a b => funext fun d => d.elim0⟩

/-- The word 0x7F800000 is +inf. -/
theorem inf_word : Ideal.ofBits .f32 0x7F800000#32 = (⊤ : EReal) := by
  simp [Ideal.ofBits, Ideal.ieee]

/-- An extended real whose absolute value max x (-x) is below +inf is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- What the precondition gives: the two matrices, then the two delay vectors, then the remaining three arrays. -/
theorem of_pre [Cert.Pre_finite_inputs.Facts]
    (a0 a1 : FVec Ideal Cert.Pre_finite_inputs.S128x32768 .f32) (a2 a3 : FVec Ideal Cert.Pre_finite_inputs.S32768 .f32) (a4 : FVec Ideal Cert.Pre_finite_inputs.S16x128x32768 .f32)
    (a5 : IVec Cert.Pre_finite_inputs.S8 32) (a6 : IVec Cert.Pre_finite_inputs.S4 32)
    (h : Cert.Pre_finite_inputs.fn (F := Ideal) a0 a1 a2 a3 a4 a5 a6 = (fun _ => 1#1)) :
    (∀ i, ∃ x : ℝ, a0 i = (x : EReal)) ∧ (∀ i, ∃ x : ℝ, a1 i = (x : EReal)) ∧ (∀ i, 0 ≤ (a5 i).toInt) ∧ (∀ i, 0 ≤ (a6 i).toInt)
      ∧ (∀ i, ∃ x : ℝ, a2 i = (x : EReal)) ∧ (∀ i, ∃ x : ℝ, a3 i = (x : EReal)) ∧ (∀ i, ∃ x : ℝ, a4 i = (x : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨h0, h1⟩, h2⟩, h3⟩, h4⟩, h5⟩, h6⟩ := h0
  have z : (0#32 : BitVec 32).toInt = 0 := by decide
  refine ⟨fun i => real_of_abs_lt (a0 i) (Host.reduce_andi_all _ _ _ _ _ h0 i),
    fun i => real_of_abs_lt (a1 i) (Host.reduce_andi_all _ _ _ _ _ h1 i), fun i => ?_, fun i => ?_,
    fun i => real_of_abs_lt (a2 i) (Host.reduce_andi_all _ _ _ _ _ h2 i),
    fun i => real_of_abs_lt (a3 i) (Host.reduce_andi_all _ _ _ _ _ h3 i),
    fun i => real_of_abs_lt (a4 i) (Host.reduce_andi_all _ _ _ _ _ h4 i)⟩
  · have e := Host.reduce_andi_all _ _ _ _ _ h5 i
    change IntOp.cmpi .sge (a5 i) 0#32 = 1#1 at e
    exact z ▸ IntOp.cmpi_sge.1 e
  · have e := Host.reduce_andi_all _ _ _ _ _ h6 i
    change IntOp.cmpi .sge (a6 i) 0#32 = 1#1 at e
    exact z ▸ IntOp.cmpi_sge.1 e

end Cert.PreFacts

end
-- ==== Proof.lean ====
/-
  The five claims about the adaptive-threshold spiking kernel with its delay buffer.

  Both kernel programs (word-level and idealized) run to the end, fault nowhere and leave their seven arguments as
  they were: the host clamps every delay into [0, 15] before it builds the table of page numbers, so every page the
  buffer window asks for lies inside the sixteen-page array whatever the delays are, and the launch's frame applies.
  The reference's frame is its run with the result dropped. The idealization rewrote nothing.

  At the ideal instance the kernel's result is the specification of its arguments outright: slot 0 the spike
  1[(v - t) - 1 ≥ 0], slots 1..12 the pushed buffer's page named by the clamped delay, slot 13 t·alpha + X·amp. The
  reference computes the spike from v - (t + 1), which is the same number once v and t are finite, and indexes the
  pushed buffer with negative delays wrapped; under the precondition that every delay is non-negative its index is
  the clamped delay too. So from memories that agree on the arguments both runs end with equal results.
-/
import proofs.«427882_j47579647705427_3_alg».proof.Defs
import proofs.«427882_j47579647705427_3_alg».proof.Proof.Gen.Kernel
import proofs.«427882_j47579647705427_3_alg».proof.Proof.Gen.KernelIdeal
import proofs.«427882_j47579647705427_3_alg».proof.Proof.Gen.ReferenceIdeal
import proofs.«427882_j47579647705427_3_alg».proof.Proof.Gen.Pre_finite_inputs
import proofs.«427882_j47579647705427_3_alg».proof.Proof.FrameDataBits
import proofs.«427882_j47579647705427_3_alg».proof.Proof.TableBits
import proofs.«427882_j47579647705427_3_alg».proof.Proof.FrameDataIdeal
import proofs.«427882_j47579647705427_3_alg».proof.Proof.TableIdeal
import proofs.«427882_j47579647705427_3_alg».proof.Proof.KvArray
import proofs.«427882_j47579647705427_3_alg».proof.Proof.RefValue
import proofs.«427882_j47579647705427_3_alg».proof.Proof.PreFacts
import Idealize.ShloMosaic.Adequacy
import Idealize.ShloMosaic.Init

noncomputable section

namespace Cert.Proof

open Idealize.ShloMosaic Idealize.SL.Sem

/-- The word-level kernel's frame: the launch's frame at the table the clamped delays give. -/
theorem frame_k : Cert.frame_Kernel (hKernel := Cert.Kernel.Gen.facts) (hPre_finite_inputs := Cert.Pre_finite_inputs.Gen.facts) :=
  fun m ρ _ => Cert.Kernel.Frm.frame (F := Bits) m ρ (Cert.Kernel.Tbl.ok (F := Bits) m)

/-- The idealized kernel's frame, the same way. -/
theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ (Cert.KernelIdeal.Tbl.ok (F := Ideal) m)

/-- Both idealized programs end at the specification of their arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KVal.specArr m c,
    Cert.KernelIdeal.KVal.run_spec m ρ (Cert.KernelIdeal.Tbl.ok (F := Ideal) m), ?_⟩
  have hf := fun c => Cert.PreFacts.of_pre _ _ _ _ _ _ _ (hpre c)
  refine (θ_run (Cert.ReferenceIdeal.defs (F := Ideal)) _ _).mono (fun r h c => ⟨(h c).1.trans ?_, (h c).2⟩)
    (Cert.ReferenceIdeal.RefValue.run_spec m' ρ'
      (fun c i => by rw [(hagree c).1]; exact (hf c).1 i)
      (fun c i => by rw [(hagree c).2.1]; exact (hf c).2.1 i)
      (fun c i => by rw [(hagree c).2.2.2.2.2.1]; exact (hf c).2.2.1 i)
      (fun c i => by rw [(hagree c).2.2.2.2.2.2]; exact (hf c).2.2.2.1 i))
  unfold Cert.KernelIdeal.KVal.specArr
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
